-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v59)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x6400000 : Shape := ⟨2, ![2, 6400000]⟩
abbrev S6400000x1 : Shape := ⟨2, ![6400000, 1]⟩
abbrev S100000x1 : Shape := ⟨2, ![100000, 1]⟩
abbrev S8x8 : Shape := ⟨2, ![8, 8]⟩
abbrev S_ : Shape := ⟨0, ![]⟩
abbrev S1x6400000 : Shape := ⟨2, ![1, 6400000]⟩
abbrev S6400000 : Shape := ⟨1, ![6400000]⟩

class Facts : Prop where
  bcast_S_S6400000x1 : S_.BroadcastsInDim S6400000x1 (![] : Fin 0 → Fin S6400000x1.rank)
  reducesTo_S6400000x1_S_d0_1 : S6400000x1.ReducesTo [0, 1] S_
  h_S_ : 0 < S_.numel
  bcast_S_S8x8 : S_.BroadcastsInDim S8x8 (![] : Fin 0 → Fin S8x8.rank)
  reducesTo_S8x8_S_d0_1 : S8x8.ReducesTo [0, 1] S_
  slices_S2x6400000_S1x6400000_1_0 : S2x6400000.Slices ![1, 0] S1x6400000
  shapeCasts_S1x6400000_S6400000 : S1x6400000.ShapeCasts S6400000
  bcast_S_S6400000 : S_.BroadcastsInDim S6400000 (![] : Fin 0 → Fin S6400000.rank)
  reducesTo_S6400000_S_d0 : S6400000.ReducesTo [0] S_

variable [Facts]

def fn_part1 {F : FTy → Type} [FloatOps F] (main_v8 : IVec S_ 1) (main_v17 : IVec S6400000 1) : IVec S_ 1 :=
  let main_c_4 : IVec S_ 1 := constantI S_ 1 1#1
  let main_v18 : IVec S_ 1 := (fun x v => Host.reduce IntOp.andi x v reducesTo_S6400000_S_d0 h_S_) main_v17 main_c_4
  let main_v19 : IVec S_ 1 := andi main_v8 main_v18
  main_v19

def fn {F : FTy → Type} [FloatOps F] (main_arg0 : IVec S2x6400000 32) (main_arg1 : FVec F S6400000x1 .f32) (main_arg2 : IVec S100000x1 32) (main_arg3 : FVec F S8x8 .f32) : IVec S_ 1 :=
  let main_v0 : FVec F S6400000x1 .f32 := Host.absf main_arg1
  let main_cst : FVec F S_ .f32 := constant S_ .f32 0x7F800000#32
  let main_v1 : FVec F S6400000x1 .f32 := broadcastInDim S6400000x1 ![] bcast_S_S6400000x1 main_cst
  let main_v2 : IVec S6400000x1 1 := cmpf .olt main_v0 main_v1
  let main_c : IVec S_ 1 := constantI S_ 1 1#1
  let main_v3 : IVec S_ 1 := (fun x v => Host.reduce IntOp.andi x v reducesTo_S6400000x1_S_d0_1 h_S_) main_v2 main_c
  let main_v4 : FVec F S8x8 .f32 := Host.absf main_arg3
  let main_cst_0 : FVec F S_ .f32 := constant S_ .f32 0x7F800000#32
  let main_v5 : FVec F S8x8 .f32 := broadcastInDim S8x8 ![] bcast_S_S8x8 main_cst_0
  let main_v6 : IVec S8x8 1 := cmpf .olt main_v4 main_v5
  let main_c_1 : IVec S_ 1 := constantI S_ 1 1#1
  let main_v7 : IVec S_ 1 := (fun x v => Host.reduce IntOp.andi x v reducesTo_S8x8_S_d0_1 h_S_) main_v6 main_c_1
  let main_v8 : IVec S_ 1 := andi main_v3 main_v7
  let main_v9 : IVec S1x6400000 32 := (extractStridedSlice S1x6400000 ![1, 0] · slices_S2x6400000_S1x6400000_1_0) main_arg0
  let main_v10 : IVec S6400000 32 := shapeCast S6400000 main_v9 shapeCasts_S1x6400000_S6400000
  let main_c_2 : IVec S_ 32 := constantI S_ 32 0#32
  let main_v11 : IVec S6400000 32 := broadcastInDim S6400000 ![] bcast_S_S6400000 main_c_2
  let main_v12 : IVec S6400000 1 := cmpi .sge main_v10 main_v11
  let main_v13 : IVec S1x6400000 32 := (extractStridedSlice S1x6400000 ![1, 0] · slices_S2x6400000_S1x6400000_1_0) main_arg0
  let main_v14 : IVec S6400000 32 := shapeCast S6400000 main_v13 shapeCasts_S1x6400000_S6400000
  let main_c_3 : IVec S_ 32 := constantI S_ 32 100000#32
  let main_v15 : IVec S6400000 32 := broadcastInDim S6400000 ![] bcast_S_S6400000 main_c_3
  let main_v16 : IVec S6400000 1 := cmpi .slt main_v14 main_v15
  let main_v17 : IVec S6400000 1 := andi main_v12 main_v16
  fn_part1 (F := F) main_v8 main_v17
-- ==== Kernel.lean ====
abbrev S2x6400000 : Shape := ⟨2, ![2, 6400000]⟩
abbrev S6400000x1 : Shape := ⟨2, ![6400000, 1]⟩
abbrev S100000x1 : Shape := ⟨2, ![100000, 1]⟩
abbrev S8x8 : Shape := ⟨2, ![8, 8]⟩
abbrev S1x6400000 : Shape := ⟨2, ![1, 6400000]⟩
abbrev S6400000 : Shape := ⟨1, ![6400000]⟩
abbrev S_ : Shape := ⟨0, ![]⟩
abbrev S100000 : Shape := ⟨1, ![100000]⟩
abbrev S6400000x2 : Shape := ⟨2, ![6400000, 2]⟩
abbrev S2x3125x1x1024 : Shape := ⟨4, ![2, 3125, 1, 1024]⟩
abbrev S2x784x128 : Shape := ⟨3, ![2, 784, 128]⟩
abbrev S1x1x1x1024 : Shape := ⟨4, ![1, 1, 1, 1024]⟩
abbrev S1x784x128 : Shape := ⟨3, ![1, 784, 128]⟩
abbrev S784x128 : Shape := ⟨2, ![784, 128]⟩
abbrev S1x1024 : Shape := ⟨2, ![1, 1024]⟩
abbrev S784x1 : Shape := ⟨2, ![784, 1]⟩
abbrev S784x1024 : Shape := ⟨2, ![784, 1024]⟩
abbrev S128x1 : Shape := ⟨2, ![128, 1]⟩
abbrev S128x1024 : Shape := ⟨2, ![128, 1024]⟩
abbrev S100352 : Shape := ⟨1, ![100352]⟩

abbrev nBuf : Space → Nat
  | .hbm => 130
  | .vmem => 10
  | .smem => 0
  | _ => 0

abbrev hbmTy0_0 (i : Nat) : BufTy := match i % 128 with
  | 0 => ⟨S2x6400000, .i32⟩
  | 1 => ⟨S6400000x1, .f32⟩
  | 2 => ⟨S100000x1, .i32⟩
  | 3 => ⟨S8x8, .f32⟩
  | 4 => ⟨S1x6400000, .i32⟩
  | 5 => ⟨S6400000, .i32⟩
  | 6 => ⟨S1x6400000, .i32⟩
  | 7 => ⟨S6400000, .i32⟩
  | 8 => ⟨S_, .i32⟩
  | 9 => ⟨S6400000, .i32⟩
  | 10 => ⟨S6400000, .i1⟩
  | 11 => ⟨S_, .i32⟩
  | 12 => ⟨S6400000, .i32⟩
  | 13 => ⟨S6400000, .i1⟩
  | 14 => ⟨S6400000, .i1⟩
  | 15 => ⟨S_, .i32⟩
  | 16 => ⟨S_, .i32⟩
  | 17 => ⟨S_, .i32⟩
  | 18 => ⟨S6400000, .i32⟩
  | 19 => ⟨S6400000, .i32⟩
  | 20 => ⟨S_, .i32⟩
  | 21 => ⟨S6400000, .i32⟩
  | 22 => ⟨S6400000, .i32⟩
  | 23 => ⟨S_, .i32⟩
  | 24 => ⟨S_, .i32⟩
  | 25 => ⟨S_, .i32⟩
  | 26 => ⟨S6400000, .i32⟩
  | 27 => ⟨S6400000, .i32⟩
  | 28 => ⟨S_, .i32⟩
  | 29 => ⟨S6400000, .i32⟩
  | 30 => ⟨S6400000, .i32⟩
  | 31 => ⟨S100000, .i32⟩
  | 32 => ⟨S_, .i32⟩
  | 33 => ⟨S6400000, .i32⟩
  | 34 => ⟨S6400000, .i1⟩
  | 35 => ⟨S_, .i32⟩
  | 36 => ⟨S6400000, .i32⟩
  | 37 => ⟨S6400000, .i32⟩
  | 38 => ⟨S6400000, .i32⟩
  | 39 => ⟨S6400000x1, .i32⟩
  | 40 => ⟨S6400000, .i32⟩
  | 41 => ⟨S_, .i32⟩
  | 42 => ⟨S6400000, .i32⟩
  | 43 => ⟨S6400000, .i1⟩
  | 44 => ⟨S_, .i32⟩
  | 45 => ⟨S6400000, .i32⟩
  | 46 => ⟨S6400000, .i32⟩
  | 47 => ⟨S6400000, .i32⟩
  | 48 => ⟨S6400000x1, .i32⟩
  | 49 => ⟨S6400000, .i32⟩
  | 50 => ⟨S_, .i32⟩
  | 51 => ⟨S6400000, .i32⟩
  | 52 => ⟨S6400000, .i1⟩
  | 53 => ⟨S_, .i32⟩
  | 54 => ⟨S6400000, .i32⟩
  | 55 => ⟨S6400000, .i32⟩
  | 56 => ⟨S6400000, .i32⟩
  | 57 => ⟨S_, .i32⟩
  | 58 => ⟨S6400000, .i32⟩
  | 59 => ⟨S6400000, .i1⟩
  | 60 => ⟨S_, .i32⟩
  | 61 => ⟨S6400000, .i32⟩
  | 62 => ⟨S6400000, .i32⟩
  | 63 => ⟨S6400000, .i32⟩
  | 64 => ⟨S6400000x1, .i32⟩
  | 65 => ⟨S6400000x1, .i32⟩
  | 66 => ⟨S6400000x2, .i32⟩
  | 67 => ⟨S6400000, .f32⟩
  | 68 => ⟨S6400000, .f32⟩
  | 69 => ⟨S6400000, .f32⟩
  | 70 => ⟨S_, .f32⟩
  | 71 => ⟨S6400000, .f32⟩
  | 72 => ⟨S6400000, .f32⟩
  | 73 => ⟨S_, .f32⟩
  | 74 => ⟨S6400000, .f32⟩
  | 75 => ⟨S6400000, .f32⟩
  | 76 => ⟨S_, .i32⟩
  | 77 => ⟨S_, .i32⟩
  | 78 => ⟨S6400000, .i32⟩
  | 79 => ⟨S6400000, .i32⟩
  | 80 => ⟨S6400000, .i32⟩
  | 81 => ⟨S_, .i32⟩
  | 82 => ⟨S6400000, .i32⟩
  | 83 => ⟨S6400000, .i1⟩
  | 84 => ⟨S6400000, .i32⟩
  | 85 => ⟨S6400000, .i32⟩
  | 86 => ⟨S_, .i32⟩
  | 87 => ⟨S6400000, .i32⟩
  | 88 => ⟨S6400000, .i1⟩
  | 89 => ⟨S6400000, .i1⟩
  | 90 => ⟨S_, .i32⟩
  | 91 => ⟨S6400000, .i32⟩
  | 92 => ⟨S6400000, .i32⟩
  | 93 => ⟨S6400000, .i32⟩
  | 94 => ⟨S_, .i32⟩
  | 95 => ⟨S_, .i32⟩
  | 96 => ⟨S_, .i32⟩
  | 97 => ⟨S_, .i1⟩
  | 98 => ⟨S_, .i32⟩
  | 99 => ⟨S_, .i32⟩
  | 100 => ⟨S6400000, .i32⟩
  | 101 => ⟨S6400000, .i32⟩
  | 102 => ⟨S_, .i32⟩
  | 103 => ⟨S6400000, .i32⟩
  | 104 => ⟨S6400000, .i1⟩
  | 105 => ⟨S_, .i32⟩
  | 106 => ⟨S6400000, .i32⟩
  | 107 => ⟨S6400000, .i1⟩
  | 108 => ⟨S_, .i32⟩
  | 109 => ⟨S_, .i1⟩
  | 110 => ⟨S6400000, .i1⟩
  | 111 => ⟨S6400000, .i1⟩
  | 112 => ⟨S6400000, .i1⟩
  | 113 => ⟨S6400000, .i32⟩
  | 114 => ⟨S6400000, .i32⟩
  | 115 => ⟨S6400000, .i32⟩
  | 116 => ⟨S6400000, .bf16⟩
  | 117 => ⟨S6400000, .f32⟩
  | 118 => ⟨S6400000, .f32⟩
  | 119 => ⟨S6400000, .bf16⟩
  | 120 => ⟨S2x3125x1x1024, .i32⟩
  | 121 => ⟨S2x3125x1x1024, .i32⟩
  | 122 => ⟨S2x3125x1x1024, .bf16⟩
  | 123 => ⟨S2x3125x1x1024, .bf16⟩
  | 124 => ⟨S2x784x128, .f32⟩
  | 125 => ⟨S_, .f32⟩
  | 126 => ⟨S784x128, .f32⟩
  | 127 => ⟨S100352, .f32⟩
  | _ => ⟨S2x6400000, .i32⟩

abbrev hbmTy0_1 (i : Nat) : BufTy := match i % 128 with
  | 0 => ⟨S100000, .f32⟩
  | 1 => ⟨S100000x1, .f32⟩
  | _ => ⟨S2x6400000, .i32⟩

abbrev hbmTy (i : Nat) : BufTy := match i / 128 with
  | 0 => hbmTy0_0 i
  | 1 => hbmTy0_1 i
  | _ => ⟨S2x6400000, .i32⟩

abbrev bufTy : (tb : Table) → Fin (tcTables nBuf tb) → BufTy
  | .hbm, ⟨i, _⟩ => hbmTy i
  | .local _ .vmem, ⟨0, _⟩ => ⟨S1x1x1x1024, .i32⟩
  | .local _ .vmem, ⟨1, _⟩ => ⟨S1x1x1x1024, .i32⟩
  | .local _ .vmem, ⟨2, _⟩ => ⟨S1x1x1x1024, .i32⟩
  | .local _ .vmem, ⟨3, _⟩ => ⟨S1x1x1x1024, .i32⟩
  | .local _ .vmem, ⟨4, _⟩ => ⟨S1x1x1x1024, .bf16⟩
  | .local _ .vmem, ⟨5, _⟩ => ⟨S1x1x1x1024, .bf16⟩
  | .local _ .vmem, ⟨6, _⟩ => ⟨S1x1x1x1024, .bf16⟩
  | .local _ .vmem, ⟨7, _⟩ => ⟨S1x1x1x1024, .bf16⟩
  | .local _ .vmem, ⟨8, _⟩ => ⟨S1x784x128, .f32⟩
  | .local _ .vmem, ⟨9, _⟩ => ⟨S784x128, .f32⟩
  | _, _ => ⟨S2x6400000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c_1 : Ref sig .tc := ⟨.hbm, 15, rfl⟩
abbrev main_c_2 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_v9 : Ref sig .tc := ⟨.hbm, 22, rfl⟩
abbrev main_c_3 : Ref sig .tc := ⟨.hbm, 23, rfl⟩
abbrev main_c_4 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_call1_v3 : Ref sig .tc := ⟨.hbm, 28, rfl⟩
abbrev main_call1_v4 : Ref sig .tc := ⟨.hbm, 29, rfl⟩
abbrev main_v10 : Ref sig .tc := ⟨.hbm, 30, rfl⟩
abbrev main_v11 : Ref sig .tc := ⟨.hbm, 31, rfl⟩
abbrev main_c_5 : Ref sig .tc := ⟨.hbm, 32, rfl⟩
abbrev main_v12 : Ref sig .tc := ⟨.hbm, 33, rfl⟩
abbrev main_v13 : Ref sig .tc := ⟨.hbm, 34, rfl⟩
abbrev main_c_6 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_c_7 : Ref sig .tc := ⟨.hbm, 41, rfl⟩
abbrev main_v19 : Ref sig .tc := ⟨.hbm, 42, rfl⟩
abbrev main_v20 : Ref sig .tc := ⟨.hbm, 43, rfl⟩
abbrev main_c_8 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_c_9 : Ref sig .tc := ⟨.hbm, 50, rfl⟩
abbrev main_v26 : Ref sig .tc := ⟨.hbm, 51, rfl⟩
abbrev main_v27 : Ref sig .tc := ⟨.hbm, 52, rfl⟩
abbrev main_c_10 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_c_11 : Ref sig .tc := ⟨.hbm, 57, rfl⟩
abbrev main_v31 : Ref sig .tc := ⟨.hbm, 58, rfl⟩
abbrev main_v32 : Ref sig .tc := ⟨.hbm, 59, rfl⟩
abbrev main_c_12 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_cst : Ref sig .tc := ⟨.hbm, 70, rfl⟩
abbrev main_v42 : Ref sig .tc := ⟨.hbm, 71, rfl⟩
abbrev main_v43 : Ref sig .tc := ⟨.hbm, 72, rfl⟩
abbrev main_cst_13 : Ref sig .tc := ⟨.hbm, 73, rfl⟩
abbrev main_call2_v0 : Ref sig .tc := ⟨.hbm, 74, rfl⟩
abbrev main_v44 : Ref sig .tc := ⟨.hbm, 75, rfl⟩
abbrev main_c_14 : Ref sig .tc := ⟨.hbm, 76, rfl⟩
abbrev main_call3_v0 : Ref sig .tc := ⟨.hbm, 77, rfl⟩
abbrev main_call3_v1 : Ref sig .tc := ⟨.hbm, 78, rfl⟩
abbrev main_call3_v2 : Ref sig .tc := ⟨.hbm, 79, rfl⟩
abbrev main_call3_v3 : Ref sig .tc := ⟨.hbm, 80, rfl⟩
abbrev main_call3_v4 : Ref sig .tc := ⟨.hbm, 81, rfl⟩
abbrev main_call3_v5 : Ref sig .tc := ⟨.hbm, 82, rfl⟩
abbrev main_call3_v6 : Ref sig .tc := ⟨.hbm, 83, rfl⟩
abbrev main_call3_v7 : Ref sig .tc := ⟨.hbm, 84, rfl⟩
abbrev main_call3_v8 : Ref sig .tc := ⟨.hbm, 85, rfl⟩
abbrev main_call3_c : Ref sig .tc := ⟨.hbm, 86, rfl⟩
abbrev main_call3_v9 : Ref sig .tc := ⟨.hbm, 87, rfl⟩
abbrev main_call3_v10 : Ref sig .tc := ⟨.hbm, 88, rfl⟩
abbrev main_call3_v11 : Ref sig .tc := ⟨.hbm, 89, rfl⟩
abbrev main_call3_c_0 : Ref sig .tc := ⟨.hbm, 90, rfl⟩
abbrev main_call3_v12 : Ref sig .tc := ⟨.hbm, 91, rfl⟩
abbrev main_call3_v13 : Ref sig .tc := ⟨.hbm, 92, rfl⟩
abbrev main_v45 : Ref sig .tc := ⟨.hbm, 93, rfl⟩
abbrev main_c_15 : Ref sig .tc := ⟨.hbm, 94, rfl⟩
abbrev main_call4_v0 : Ref sig .tc := ⟨.hbm, 95, rfl⟩
abbrev main_call4_c : Ref sig .tc := ⟨.hbm, 96, rfl⟩
abbrev main_call4_v1 : Ref sig .tc := ⟨.hbm, 97, rfl⟩
abbrev main_call4_c_0 : Ref sig .tc := ⟨.hbm, 98, rfl⟩
abbrev main_call4_v2 : Ref sig .tc := ⟨.hbm, 99, rfl⟩
abbrev main_call4_v3 : Ref sig .tc := ⟨.hbm, 100, rfl⟩
abbrev main_call4_v4 : Ref sig .tc := ⟨.hbm, 101, rfl⟩
abbrev main_call4_c_1 : Ref sig .tc := ⟨.hbm, 102, rfl⟩
abbrev main_call4_v5 : Ref sig .tc := ⟨.hbm, 103, rfl⟩
abbrev main_call4_v6 : Ref sig .tc := ⟨.hbm, 104, rfl⟩
abbrev main_call4_c_2 : Ref sig .tc := ⟨.hbm, 105, rfl⟩
abbrev main_call4_v7 : Ref sig .tc := ⟨.hbm, 106, rfl⟩
abbrev main_call4_v8 : Ref sig .tc := ⟨.hbm, 107, rfl⟩
abbrev main_call4_c_3 : Ref sig .tc := ⟨.hbm, 108, rfl⟩
abbrev main_call4_v9 : Ref sig .tc := ⟨.hbm, 109, rfl⟩
abbrev main_call4_v10 : Ref sig .tc := ⟨.hbm, 110, rfl⟩
abbrev main_call4_v11 : Ref sig .tc := ⟨.hbm, 111, rfl⟩
abbrev main_call4_v12 : Ref sig .tc := ⟨.hbm, 112, rfl⟩
abbrev main_call4_v13 : Ref sig .tc := ⟨.hbm, 113, rfl⟩
abbrev main_call4_v14 : Ref sig .tc := ⟨.hbm, 114, rfl⟩
abbrev main_v46 : Ref sig .tc := ⟨.hbm, 115, rfl⟩
abbrev main_v47 : Ref sig .tc := ⟨.hbm, 116, rfl⟩
abbrev main_v48 : Ref sig .tc := ⟨.hbm, 117, rfl⟩
abbrev main_v49 : Ref sig .tc := ⟨.hbm, 118, rfl⟩
abbrev main_v50 : Ref sig .tc := ⟨.hbm, 119, rfl⟩
abbrev main_v51 : Ref sig .tc := ⟨.hbm, 120, rfl⟩
abbrev main_v52 : Ref sig .tc := ⟨.hbm, 121, rfl⟩
abbrev main_v53 : Ref sig .tc := ⟨.hbm, 122, rfl⟩
abbrev main_v54 : Ref sig .tc := ⟨.hbm, 123, rfl⟩
abbrev main_v55 : Ref sig .tc := ⟨.hbm, 124, rfl⟩
abbrev main_cst_16 : Ref sig .tc := ⟨.hbm, 125, rfl⟩
abbrev main_v56 : Ref sig .tc := ⟨.hbm, 126, rfl⟩
abbrev main_v57 : Ref sig .tc := ⟨.hbm, 127, rfl⟩
abbrev main_v58 : Ref sig .tc := ⟨.hbm, 128, rfl⟩
abbrev main_v59 : Ref sig .tc := ⟨.hbm, 129, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8

abbrev nD : Nat := 1
abbrev τ : Topo := Topo.v7x

variable {F : FTy → Type} [FloatOps F]

abbrev grid0 : Pipeline.Grid := ⟨2, ![2, 3125], ![false, false]⟩

def k0_cond2 (i : grid0.Coords) : BitVec 1 :=
  let arg1 : BitVec 32 := BitVec.ofNat 32 (i 1).val
  let c3124_i32 : BitVec 32 := 3124#32
  let v38 : BitVec 1 := Scalar.cmpi .eq arg1 c3124_i32
  let v39 : BitVec 32 := Scalar.extui v38
  let c0_i32_23 : BitVec 32 := 0#32
  let v40 : BitVec 1 := Scalar.cmpi .ne v39 c0_i32_23
  v40

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x1x1024 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x784x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

class Facts₀ : Prop where
  slices_S2x6400000_S1x6400000_0_0 : S2x6400000.Slices ![0, 0] S1x6400000
  shapeCasts_S1x6400000_S6400000 : S1x6400000.ShapeCasts S6400000
  slices_S2x6400000_S1x6400000_1_0 : S2x6400000.Slices ![1, 0] S1x6400000
  bcast_S_S6400000 : S_.BroadcastsInDim S6400000 (![] : Fin 0 → Fin S6400000.rank)
  shapeCasts_S100000x1_S100000 : S100000x1.ShapeCasts S100000
  bcast_S6400000_S6400000x1_0 : S6400000.BroadcastsInDim S6400000x1 (![0] : Fin 1 → Fin S6400000x1.rank)
  concatenates_S6400000x1_S6400000x1_S6400000x2_d1 : Shape.Concatenates [S6400000x1, S6400000x1] S6400000x2 1
  shapeCasts_S6400000x1_S6400000 : S6400000x1.ShapeCasts S6400000
  bitsLt_bf16_f32 : FTy.bits .bf16 < FTy.bits .f32
  shapeCasts_S6400000_S2x3125x1x1024 : S6400000.ShapeCasts S2x3125x1x1024
  inb_S784x128_S784x128_0_0 : ∀ a, (![0, 0] : Fin 2 → Nat) a + S784x128.size a ≤ S784x128.size a
  h_S784x128 : 0 < S784x128.numel
  shapeCasts_S784x128_S784x128 : S784x128.ShapeCasts S784x128
  inb_S1x1x1x1024_S1x1x1x1024_0_0_0_0 : ∀ a, (![0, 0, 0, 0] : Fin 4 → Nat) a + S1x1x1x1024.size a ≤ S1x1x1x1024.size a
  h_S1x1x1x1024 : 0 < S1x1x1x1024.numel
  shapeCasts_S1x1x1x1024_S1x1024 : S1x1x1x1024.ShapeCasts S1x1024
  iota_S784x1_d0_w32 : S784x1.Iotas .tc 32 [0]
  broadcasts_S784x1_S784x1024 : S784x1.Broadcasts S784x1024
  broadcasts_S1x1024_S784x1024 : S1x1024.Broadcasts S784x1024
  natLt_1_32 : 1 < 32
  iota_S128x1_d0_w32 : S128x1.Iotas .tc 32 [0]
  broadcasts_S128x1_S128x1024 : S128x1.Broadcasts S128x1024
  broadcasts_S1x1024_S128x1024 : S1x1024.Broadcasts S128x1024
  shapeCasts_S1x1024_S1x1024 : S1x1024.ShapeCasts S1x1024
  inb_S1x784x128_S1x784x128_0_0_0 : ∀ a, (![0, 0, 0] : Fin 3 → Nat) a + S1x784x128.size a ≤ S1x784x128.size a
  h_S1x784x128 : 0 < S1x784x128.numel
  shapeCasts_S1x784x128_S784x128 : S1x784x128.ShapeCasts S784x128
  shapeCasts_S784x128_S1x784x128 : S784x128.ShapeCasts S1x784x128
  reducesTo_S2x784x128_S784x128_d0 : S2x784x128.ReducesTo [0] S784x128
  h_S_ : 0 < S_.numel
  shapeCasts_S784x128_S100352 : S784x128.ShapeCasts S100352
  slices_S100352_S100000_0 : S100352.Slices ![0] S100000
  shapeCasts_S100000_S100000x1 : S100000.ShapeCasts S100000x1
  gather_S100000_S6400000x1_S6400000_n_0_n_n_0_1_1_wf : GatherDims.WF S100000 S6400000x1 S6400000 [] [0] [] [0] [] 1 ![1]
  gather_S8x8_S6400000x2_S6400000_n_01_n_n_01_1_11_wf : GatherDims.WF S8x8 S6400000x2 S6400000 [] [0, 1] [] [0, 1] [] 1 ![1, 1]
  dot_S784x1024_S128x1024_S784x128_1_1_0_0_n_n_wf : DotDims.WF S784x1024 S128x1024 S784x128 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x1x1024.size a ≤ S2x3125x1x1024.size a
  hwx0_0 : ∀ i : grid0.Coords, EltTy.bits .i32 = 32 ∨ (Rect.block (s := S2x3125x1x1024) S1x1x1x1024.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x1x1024.size a ≤ S2x3125x1x1024.size a
  hwx0_1 : ∀ i : grid0.Coords, EltTy.bits .i32 = 32 ∨ (Rect.block (s := S2x3125x1x1024) S1x1x1x1024.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1x1024.size a ≤ S2x3125x1x1024.size a
  hwx0_2 : ∀ i : grid0.Coords, EltTy.bits .bf16 = 32 ∨ (Rect.block (s := S2x3125x1x1024) S1x1x1x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1x1024.size a ≤ S2x3125x1x1024.size a
  hwx0_3 : ∀ i : grid0.Coords, EltTy.bits .bf16 = 32 ∨ (Rect.block (s := S2x3125x1x1024) S1x1x1x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x784x128.size a ≤ S2x784x128.size a
  hwx0_4 : ∀ i : grid0.Coords, EltTy.bits .f32 = 32 ∨ (Rect.block (s := S2x784x128) S1x784x128.size (cc0_transform_4 i) (hinb0_4 i)).WholeWords (EltTy.packing .f32)

variable [Facts₀]

def gather_S100000_S6400000x1_S6400000_n_0_n_n_0_1_1 : GatherDims S100000 S6400000x1 S6400000 where
  offsetDims := []
  collapsedSliceDims := [0]
  operandBatchingDims := []
  startIndicesBatchingDims := []
  startIndexMap := [0]
  indexVectorDim := 1
  sliceSizes := ![1]
  wf := gather_S100000_S6400000x1_S6400000_n_0_n_n_0_1_1_wf
def gather_S8x8_S6400000x2_S6400000_n_01_n_n_01_1_11 : GatherDims S8x8 S6400000x2 S6400000 where
  offsetDims := []
  collapsedSliceDims := [0, 1]
  operandBatchingDims := []
  startIndicesBatchingDims := []
  startIndexMap := [0, 1]
  indexVectorDim := 1
  sliceSizes := ![1, 1]
  wf := gather_S8x8_S6400000x2_S6400000_n_01_n_n_01_1_11_wf
def dot_S784x1024_S128x1024_S784x128_1_1_0_0_n_n : DotDims S784x1024 S128x1024 S784x128 where
  lhsContracting := [1]
  rhsContracting := [1]
  lhsNonContracting := [0]
  rhsNonContracting := [0]
  lhsBatch := []
  rhsBatch := []
  wf := dot_S784x1024_S128x1024_S784x128_1_1_0_0_n_n_wf

abbrev win0_0 : Pipeline.Window sig grid0 :=
  Pipeline.Window.ofSpec (Memref.whole main_v51) S1x1x1x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v52) S1x1x1x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v53) S1x1x1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v54) S1x1x1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v55) S1x784x128.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S2x6400000 : Shape := ⟨2, ![2, 6400000]⟩
abbrev S6400000x1 : Shape := ⟨2, ![6400000, 1]⟩
abbrev S100000x1 : Shape := ⟨2, ![100000, 1]⟩
abbrev S8x8 : Shape := ⟨2, ![8, 8]⟩
abbrev S1x6400000 : Shape := ⟨2, ![1, 6400000]⟩
abbrev S6400000 : Shape := ⟨1, ![6400000]⟩
abbrev S100000 : Shape := ⟨1, ![100000]⟩
abbrev S_ : Shape := ⟨0, ![]⟩
abbrev S6400000x2 : Shape := ⟨2, ![6400000, 2]⟩

abbrev nBuf : Space → Nat
  | .hbm => 54
  | .vmem => 0
  | .smem => 0
  | _ => 0

abbrev bufTy : (tb : Table) → Fin (tcTables nBuf tb) → BufTy
  | .hbm, ⟨0, _⟩ => ⟨S2x6400000, .i32⟩
  | .hbm, ⟨1, _⟩ => ⟨S6400000x1, .f32⟩
  | .hbm, ⟨2, _⟩ => ⟨S100000x1, .i32⟩
  | .hbm, ⟨3, _⟩ => ⟨S8x8, .f32⟩
  | .hbm, ⟨4, _⟩ => ⟨S1x6400000, .i32⟩
  | .hbm, ⟨5, _⟩ => ⟨S6400000, .i32⟩
  | .hbm, ⟨6, _⟩ => ⟨S1x6400000, .i32⟩
  | .hbm, ⟨7, _⟩ => ⟨S6400000, .i32⟩
  | .hbm, ⟨8, _⟩ => ⟨S100000, .i32⟩
  | .hbm, ⟨9, _⟩ => ⟨S_, .i32⟩
  | .hbm, ⟨10, _⟩ => ⟨S6400000, .i32⟩
  | .hbm, ⟨11, _⟩ => ⟨S6400000, .i1⟩
  | .hbm, ⟨12, _⟩ => ⟨S_, .i32⟩
  | .hbm, ⟨13, _⟩ => ⟨S6400000, .i32⟩
  | .hbm, ⟨14, _⟩ => ⟨S6400000, .i32⟩
  | .hbm, ⟨15, _⟩ => ⟨S6400000, .i32⟩
  | .hbm, ⟨16, _⟩ => ⟨S6400000x1, .i32⟩
  | .hbm, ⟨17, _⟩ => ⟨S6400000, .i32⟩
  | .hbm, ⟨18, _⟩ => ⟨S_, .i32⟩
  | .hbm, ⟨19, _⟩ => ⟨S6400000, .i32⟩
  | .hbm, ⟨20, _⟩ => ⟨S6400000, .i1⟩
  | .hbm, ⟨21, _⟩ => ⟨S_, .i32⟩
  | .hbm, ⟨22, _⟩ => ⟨S6400000, .i32⟩
  | .hbm, ⟨23, _⟩ => ⟨S6400000, .i32⟩
  | .hbm, ⟨24, _⟩ => ⟨S6400000, .i32⟩
  | .hbm, ⟨25, _⟩ => ⟨S6400000x1, .i32⟩
  | .hbm, ⟨26, _⟩ => ⟨S6400000, .i32⟩
  | .hbm, ⟨27, _⟩ => ⟨S_, .i32⟩
  | .hbm, ⟨28, _⟩ => ⟨S6400000, .i32⟩
  | .hbm, ⟨29, _⟩ => ⟨S6400000, .i1⟩
  | .hbm, ⟨30, _⟩ => ⟨S_, .i32⟩
  | .hbm, ⟨31, _⟩ => ⟨S6400000, .i32⟩
  | .hbm, ⟨32, _⟩ => ⟨S6400000, .i32⟩
  | .hbm, ⟨33, _⟩ => ⟨S6400000, .i32⟩
  | .hbm, ⟨34, _⟩ => ⟨S_, .i32⟩
  | .hbm, ⟨35, _⟩ => ⟨S6400000, .i32⟩
  | .hbm, ⟨36, _⟩ => ⟨S6400000, .i1⟩
  | .hbm, ⟨37, _⟩ => ⟨S_, .i32⟩
  | .hbm, ⟨38, _⟩ => ⟨S6400000, .i32⟩
  | .hbm, ⟨39, _⟩ => ⟨S6400000, .i32⟩
  | .hbm, ⟨40, _⟩ => ⟨S6400000, .i32⟩
  | .hbm, ⟨41, _⟩ => ⟨S6400000x1, .i32⟩
  | .hbm, ⟨42, _⟩ => ⟨S6400000x1, .i32⟩
  | .hbm, ⟨43, _⟩ => ⟨S6400000x2, .i32⟩
  | .hbm, ⟨44, _⟩ => ⟨S6400000, .f32⟩
  | .hbm, ⟨45, _⟩ => ⟨S6400000x1, .f32⟩
  | .hbm, ⟨46, _⟩ => ⟨S6400000x1, .f32⟩
  | .hbm, ⟨47, _⟩ => ⟨S_, .f32⟩
  | .hbm, ⟨48, _⟩ => ⟨S6400000x1, .f32⟩
  | .hbm, ⟨49, _⟩ => ⟨S6400000x1, .f32⟩
  | .hbm, ⟨50, _⟩ => ⟨S_, .f32⟩
  | .hbm, ⟨51, _⟩ => ⟨S100000x1, .f32⟩
  | .hbm, ⟨52, _⟩ => ⟨S6400000x1, .i32⟩
  | .hbm, ⟨53, _⟩ => ⟨S100000x1, .f32⟩
  | _, _ => ⟨S2x6400000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_v5 : Ref sig .tc := ⟨.hbm, 10, rfl⟩
abbrev main_v6 : Ref sig .tc := ⟨.hbm, 11, rfl⟩
abbrev main_c_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c_1 : Ref sig .tc := ⟨.hbm, 18, rfl⟩
abbrev main_v12 : Ref sig .tc := ⟨.hbm, 19, rfl⟩
abbrev main_v13 : Ref sig .tc := ⟨.hbm, 20, rfl⟩
abbrev main_c_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_c_3 : Ref sig .tc := ⟨.hbm, 27, rfl⟩
abbrev main_v19 : Ref sig .tc := ⟨.hbm, 28, rfl⟩
abbrev main_v20 : Ref sig .tc := ⟨.hbm, 29, rfl⟩
abbrev main_c_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_c_5 : Ref sig .tc := ⟨.hbm, 34, rfl⟩
abbrev main_v24 : Ref sig .tc := ⟨.hbm, 35, rfl⟩
abbrev main_v25 : Ref sig .tc := ⟨.hbm, 36, rfl⟩
abbrev main_c_6 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst : Ref sig .tc := ⟨.hbm, 47, rfl⟩
abbrev main_v35 : Ref sig .tc := ⟨.hbm, 48, rfl⟩
abbrev main_v36 : Ref sig .tc := ⟨.hbm, 49, rfl⟩
abbrev main_cst_7 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]

class Facts₀ : Prop where
  slices_S2x6400000_S1x6400000_0_0 : S2x6400000.Slices ![0, 0] S1x6400000
  shapeCasts_S1x6400000_S6400000 : S1x6400000.ShapeCasts S6400000
  slices_S2x6400000_S1x6400000_1_0 : S2x6400000.Slices ![1, 0] S1x6400000
  shapeCasts_S100000x1_S100000 : S100000x1.ShapeCasts S100000
  bcast_S_S6400000 : S_.BroadcastsInDim S6400000 (![] : Fin 0 → Fin S6400000.rank)
  bcast_S6400000_S6400000x1_0 : S6400000.BroadcastsInDim S6400000x1 (![0] : Fin 1 → Fin S6400000x1.rank)
  concatenates_S6400000x1_S6400000x1_S6400000x2_d1 : Shape.Concatenates [S6400000x1, S6400000x1] S6400000x2 1
  bcast_S_S6400000x1 : S_.BroadcastsInDim S6400000x1 (![] : Fin 0 → Fin S6400000x1.rank)
  bcast_S_S100000x1 : S_.BroadcastsInDim S100000x1 (![] : Fin 0 → Fin S100000x1.rank)
  gather_S100000_S6400000x1_S6400000_n_0_n_n_0_1_1_wf : GatherDims.WF S100000 S6400000x1 S6400000 [] [0] [] [0] [] 1 ![1]
  gather_S8x8_S6400000x2_S6400000_n_01_n_n_01_1_11_wf : GatherDims.WF S8x8 S6400000x2 S6400000 [] [0, 1] [] [0, 1] [] 1 ![1, 1]
  scatter_S100000x1_S6400000x1_S6400000x1_1_0_0_1_wf : ScatterDims.WF S100000x1 S6400000x1 S6400000x1 [1] [0] [0] 1

variable [Facts₀]

def gather_S100000_S6400000x1_S6400000_n_0_n_n_0_1_1 : GatherDims S100000 S6400000x1 S6400000 where
  offsetDims := []
  collapsedSliceDims := [0]
  operandBatchingDims := []
  startIndicesBatchingDims := []
  startIndexMap := [0]
  indexVectorDim := 1
  sliceSizes := ![1]
  wf := gather_S100000_S6400000x1_S6400000_n_0_n_n_0_1_1_wf
def gather_S8x8_S6400000x2_S6400000_n_01_n_n_01_1_11 : GatherDims S8x8 S6400000x2 S6400000 where
  offsetDims := []
  collapsedSliceDims := [0, 1]
  operandBatchingDims := []
  startIndicesBatchingDims := []
  startIndexMap := [0, 1]
  indexVectorDim := 1
  sliceSizes := ![1, 1]
  wf := gather_S8x8_S6400000x2_S6400000_n_01_n_n_01_1_11_wf
def scatter_S100000x1_S6400000x1_S6400000x1_1_0_0_1 : ScatterDims S100000x1 S6400000x1 S6400000x1 where
  updateWindowDims := [1]
  insertedWindowDims := [0]
  scatterDimsToOperandDims := [0]
  indexVectorDim := 1
  wf := scatter_S100000x1_S6400000x1_S6400000x1_1_0_0_1_wf

class Facts : Prop extends Facts₀ where

variable [Facts]
-- ==== Proof.LibIndex.lean ====
/-
  Row gathers and row scatters read at an index.

  `x[idx]` along the leading axis of a two-axis array lowers to a gather whose start indices are a column `[E, 1]`:
  result row `e` is operand row `idx[e, 0]`, the index read as a signed integer and clamped into `[0, N - 1]`. The same
  holds for a one-axis operand. A scatter of rows along the leading axis sends update row `e` to operand row `idx[e, 0]`,
  read signed and NOT clamped: an update whose row is outside the operand is dropped.
-/
import Idealize.ShloMosaic.PureOps.ShapeOps
import Idealize.ShloMosaic.Lib.ValueIdx

namespace Cert.Gcn

open Idealize.ShloMosaic Idealize.ShloMosaic.ValueIdx

/-- A signed 32-bit word clamped into `[0, N - 1]`, as a row number. -/
def crow (N : Nat) (hN : 0 < N) (v : BitVec 32) : Fin N := ⟨min v.toInt.toNat (N - 1), by omega⟩

/-- A word already in `[0, N)` is its own clamp. -/
theorem crow_val_of_range {N : Nat} (hN : 0 < N) (v : BitVec 32) (h0 : 0 ≤ v.toInt) (h1 : v.toInt < N) :
    ((crow N hN v).val : Int) = v.toInt := by
  show ((min v.toInt.toNat (N - 1) : Nat) : Int) = v.toInt
  omega

/-- The dimension numbers of a row gather: operand `[N, D]`, start indices `[E, 1]`, result `[E, D]`. -/
abbrev rowGatherDims (N E D : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- A row gather at `(e, c)` is the operand at row `clamp idx[e, 0]`, column `c`. -/
theorem gatherRows_apply {α : Type} {N E D : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ 32) (j : (⟨2, ![E, D]⟩ : Shape).Idx) :
    Host.gather (rowGatherDims N E D wf) x idx j = x (ix2 (crow N hN (idx (ix2 (j 0) 0))) (j 1)) := by
  unfold Host.gather
  congr 1
  funext a
  refine Fin.ext ?_
  match a with
  | ⟨0, _⟩ =>
    -- axis 0 is collapsed and named by the start index map: only the clamped start index, read at `[e, 0]`
    show (rowGatherDims N E D wf).start j idx 0 + (rowGatherDims N E D wf).batchCoord j 0
      + (rowGatherDims N E D wf).offCoord j 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E D wf).startIndexMap from List.mem_singleton.mpr rfl)]
    have hsi : (rowGatherDims N E D wf).siIdx j ⟨List.idxOf (0 : Fin 2) (rowGatherDims N E D wf).startIndexMap,
        List.idxOf_lt_length_iff.2 (List.mem_singleton.mpr rfl)⟩ = ix2 (j 0) 0 := by
      funext b; refine Fin.ext ?_
      match b with
      | ⟨0, _⟩ => rfl
      | ⟨1, _⟩ => rfl
    rw [hsi]
    rfl
  | ⟨1, _⟩ =>
    -- axis 1 is the one kept axis and no start index names it: start zero, offset the result's column
    show (rowGatherDims N E D wf).start j idx 1 + (rowGatherDims N E D wf).batchCoord j 1
      + (rowGatherDims N E D wf).offCoord j 1 = (j 1).val
    rw [GatherDims.batchCoord_eq_zero _ _ _ List.not_mem_nil]
    unfold GatherDims.start
    rw [dif_neg (show ¬ (1 : Fin 2) ∈ (rowGatherDims N E D wf).startIndexMap from
      (show ¬ (1 : Fin 2) ∈ ([0] : List (Fin 2)) by decide))]
    unfold GatherDims.offCoord
    rw [dif_pos (show (1 : Fin 2) ∈ (rowGatherDims N E D wf).sKept from
      (GatherDims.mem_sKept _ _).mpr ⟨(show ¬ (1 : Fin 2) ∈ ([0] : List (Fin 2)) by decide), List.not_mem_nil⟩)]
    simp only [Nat.zero_add, Nat.add_zero]
    rfl

/-- The dimension numbers of an element gather: operand `[N]`, start indices `[E, 1]`, result `[E]`. -/
abbrev vecGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- An element gather at `e` is the operand at `clamp idx[e, 0]`. -/
theorem gatherVec_apply {α : Type} {N E : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ 32) (e : (⟨1, ![E]⟩ : Shape).Idx) :
    Host.gather (vecGatherDims N E wf) x idx e = x (ix1 (crow N hN (idx (ix2 (e 0) 0)))) := by
  unfold Host.gather
  congr 1
  funext a
  obtain rfl : a = 0 := Subsingleton.elim _ _
  refine Fin.ext ?_
  -- the one operand axis is collapsed: no batching coordinate, no offset coordinate, only the clamped start
  show (vecGatherDims N E wf).start e idx 0 + (vecGatherDims N E wf).batchCoord e 0
    + (vecGatherDims N E wf).offCoord e 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N E wf).startIndexMap from List.mem_singleton.mpr rfl)]
  -- the start index is read at `[e, 0]`
  have hsi : (vecGatherDims N E wf).siIdx e ⟨List.idxOf (0 : Fin 1) (vecGatherDims N E wf).startIndexMap,
      List.idxOf_lt_length_iff.2 (List.mem_singleton.mpr rfl)⟩ = ix2 (e 0) 0 := by
    funext b; refine Fin.ext ?_
    match b with
    | ⟨0, _⟩ => rfl
    | ⟨1, _⟩ => rfl
  rw [hsi]
  rfl

/-- The dimension numbers of a row scatter: operand `[N, D]`, scatter indices `[E, 1]`, updates `[E, D]`. -/
abbrev rowScatterDims (N E D : Nat)
    (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

/-- An update `(e, c)` that lands at `(n, c')` has `idx[e, 0] = n` as a signed integer and `c = c'`. -/
theorem scatterRows_resultIdx {N E D : Nat}
    (wf : ScatterDims.WF ⟨2, ![N, D]⟩ ⟨2, ![E, 1]⟩ ⟨2, ![E, D]⟩ [1] [0] [0] 1)
    (idx : IVec ⟨2, ![E, 1]⟩ 32) (j : (⟨2, ![E, D]⟩ : Shape).Idx) (i : (⟨2, ![N, D]⟩ : Shape).Idx)
    (h : (rowScatterDims N E D wf).resultIdx? j idx = some i) :
    (idx (ix2 (j 0) 0)).toInt = ((i 0).val : Int) ∧ (j 1).val = (i 1).val := by
  unfold ScatterDims.resultIdx? at h
  split at h
  · rename_i hr
    have hf := Option.some.inj h
    have h0 : ((rowScatterDims N E D wf).start j idx 0 + ((rowScatterDims N E D wf).window j 0 : Nat)).toNat
        = (i 0).val := congrArg Fin.val (congrFun hf 0)
    have h1 : ((rowScatterDims N E D wf).start j idx 1 + ((rowScatterDims N E D wf).window j 1 : Nat)).toNat
        = (i 1).val := congrArg Fin.val (congrFun hf 1)
    have hr0 := hr 0
    have hr1 := hr 1
    -- axis 0 is named by the map and inserted: the start is the signed index, the window coordinate is zero
    have hs0 : (rowScatterDims N E D wf).start j idx 0 = (idx (ix2 (j 0) 0)).toInt := by
      unfold ScatterDims.start
      rw [dif_pos (show (0 : Fin 2) ∈ (rowScatterDims N E D wf).scatterDimsToOperandDims from
        List.mem_singleton.mpr rfl)]
      have hsi : (rowScatterDims N E D wf).siIdx j
          ⟨List.idxOf (0 : Fin 2) (rowScatterDims N E D wf).scatterDimsToOperandDims,
            List.idxOf_lt_length_iff.2 (List.mem_singleton.mpr rfl)⟩ = ix2 (j 0) 0 := by
        funext b; refine Fin.ext ?_
        match b with
        | ⟨0, _⟩ => rfl
        | ⟨1, _⟩ => rfl
      rw [hsi]
      rfl
    have hw0 : (rowScatterDims N E D wf).window j 0 = 0 := by
      unfold ScatterDims.window
      rw [dif_neg (show ¬ (0 : Fin 2) ∈ (rowScatterDims N E D wf).sKept from
        (show ¬ (0 : Fin 2) ∈ (List.finRange 2).filter (fun a => a ∉ ([0] : List (Fin 2))) by decide))]
    -- axis 1 is not named by the map and is the one window axis: the start is zero, the window coordinate is the update's column
    have hs1 : (rowScatterDims N E D wf).start j idx 1 = 0 := by
      unfold ScatterDims.start
      rw [dif_neg (show ¬ (1 : Fin 2) ∈ (rowScatterDims N E D wf).scatterDimsToOperandDims from
        (show ¬ (1 : Fin 2) ∈ ([0] : List (Fin 2)) by decide))]
    have hw1 : (rowScatterDims N E D wf).window j 1 = (j 1).val := by
      unfold ScatterDims.window
      rw [dif_pos (show (1 : Fin 2) ∈ (rowScatterDims N E D wf).sKept from
        (show (1 : Fin 2) ∈ (List.finRange 2).filter (fun a => a ∉ ([0] : List (Fin 2))) by decide))]
      rfl
    rw [hs0, hw0] at h0 hr0
    rw [hs1, hw1] at h1 hr1
    simp only [Nat.cast_zero, Int.add_zero, Int.zero_add, Int.toNat_natCast] at h0 h1 hr0
    refine ⟨?_, h1⟩
    omega
  · exact absurd h (by simp)

end Cert.Gcn
-- ==== Proof.Spec.lean ====
/-
  The per-edge quantities of the scaled edge-energy sum, as scalar functions of the four argument arrays.

  An edge `e` has a centre word `c = edge_index[0, e]` and a neighbour word `n = edge_index[1, e]`. A node's species is
  `atom_type[v, 0]` at a row number clamped into the table; an index word that is negative is first wrapped by the
  table's extent, as array indexing does. The scale of an edge is the entry of the 8 × 8 table at the two species, and its
  contribution is `edge_eng[e, 0] · scale · 1/8`.

  The reference adds each contribution into the node whose number is the centre word read as a signed integer, and drops
  an edge whose centre is no node. The kernel clips both words into the node range first, replaces the contribution of an
  edge whose centre is no node by zero, splits the clipped centre into a row `c / 128` and a lane `c mod 128`, and adds,
  tile by tile of 1024 edges, the products of a row selector and a lane selector carrying the contribution (and a second
  product carrying the contribution minus itself).
-/
import proofs.«408869_j46883863003658_3_alg».proof.Proof.LibIndex
import Idealize.ShloMosaic.PureOps.Ideal
import Idealize.ShloMosaic.Lib.ValueIdx

noncomputable section

namespace Cert.EdgeSum

open Idealize.ShloMosaic Idealize.ShloMosaic.ValueIdx

abbrev SEI : Shape := ⟨2, ![2, 6400000]⟩
abbrev SENG : Shape := ⟨2, ![6400000, 1]⟩
abbrev SAT : Shape := ⟨2, ![100000, 1]⟩
abbrev SPES : Shape := ⟨2, ![8, 8]⟩
abbrev STILES : Shape := ⟨4, ![2, 3125, 1, 1024]⟩
abbrev SPLANES : Shape := ⟨3, ![2, 784, 128]⟩
abbrev SOUT : Shape := ⟨2, ![100000, 1]⟩

/-- An index word wrapped by the extent `n` of the axis it indexes: `v + n` when `v` is negative, else `v`. -/
def wrapIdx (n v : BitVec 32) : BitVec 32 := Scalar.select (IntOp.cmpi .slt v 0#32) (IntOp.addi v n) v

/-- A word clipped into `[0, 99999]`: the smaller of 99999 and the larger of 0 and the word, as signed integers. -/
def clipIdx (v : BitVec 32) : BitVec 32 := IntOp.minsi 99999#32 (IntOp.maxsi 0#32 v)

/-- The flag "the word is a node number": `0 ≤ v` and `v < 100000`, as signed integers. -/
def isNode (v : BitVec 32) : BitVec 1 := IntOp.andi (IntOp.cmpi .sge v 0#32) (IntOp.cmpi .slt v 100000#32)

/-- The sign of a word: 0, -1 or 1. -/
def sgn (v : BitVec 32) : BitVec 32 := if v = 0 then 0 else if v.msb then -1 else 1

/-- The floor of the quotient by 128: the truncated quotient, less one when the signs differ and the division is inexact. -/
def rowOf (v : BitVec 32) : BitVec 32 :=
  Scalar.select
    (IntOp.andi (IntOp.cmpi .ne (sgn v) (sgn 128#32)) (IntOp.cmpi .ne (IntOp.remsi .host v 128#32) 0#32))
    (IntOp.subi (IntOp.divsi .host v 128#32) 1#32) (IntOp.divsi .host v 128#32)

/-- The divisor the remainder is taken by: 128, or 1 if that were zero. -/
def laneDiv : BitVec 32 := Scalar.select (IntOp.cmpi .eq 128#32 0#32) 1#32 128#32

/-- The remainder modulo 128 with the divisor's sign: the truncated remainder, plus the divisor when it is nonzero and
    its sign differs from the divisor's. -/
def laneOf (v : BitVec 32) : BitVec 32 :=
  Scalar.select
    (IntOp.andi
      (IntOp.cmpi .ne (IntOp.cmpi .slt (IntOp.remsi .host v laneDiv) 0#32) (IntOp.cmpi .slt laneDiv 0#32))
      (IntOp.cmpi .ne (IntOp.remsi .host v laneDiv) 0#32))
    (IntOp.addi (IntOp.remsi .host v laneDiv) laneDiv) (IntOp.remsi .host v laneDiv)

/-- The factor 1/8 as both programs spell it: the binary32 word `0x3E000000`. -/
def eighth : EReal := FloatOps.ofBits (F := Ideal) .f32 0x3E000000#32

/-- The zero both programs spell as the binary32 word `0x00000000`. -/
def zeroW : EReal := FloatOps.ofBits (F := Ideal) .f32 0x00000000#32

section
variable (ei : IVec SEI 32) (eng : SENG.Idx → EReal) (aty : IVec SAT 32) (pes : SPES.Idx → EReal)

/-- Edge `e`'s centre word. -/
def cen (e : Fin 6400000) : BitVec 32 := ei (ix2 (0 : Fin 2) e)
/-- Edge `e`'s neighbour word. -/
def nei (e : Fin 6400000) : BitVec 32 := ei (ix2 (1 : Fin 2) e)

/-- The species word of the node an index word names, the word clamped into the table's rows. -/
def species (v : BitVec 32) : BitVec 32 := aty (ix2 (Cert.Gcn.crow 100000 (by decide) v) (0 : Fin 1))

/-- The species of the node an index word names as array indexing reads it: wrapped when negative, then clamped. -/
def speciesAt (v : BitVec 32) : BitVec 32 := species aty (wrapIdx 100000#32 v)

/-- The scale of an edge with index words `c`, `n`: the table's entry at the two species, each wrapped when negative and
    clamped into `[0, 7]`. -/
def scaleAt (c n : BitVec 32) : EReal :=
  pes (ix2 (Cert.Gcn.crow 8 (by decide) (wrapIdx 8#32 (speciesAt aty c)))
    (Cert.Gcn.crow 8 (by decide) (wrapIdx 8#32 (speciesAt aty n))))

/-- The reference's contribution of edge `e`. -/
def updR (e : Fin 6400000) : EReal := eng (ix2 e (0 : Fin 1)) * scaleAt aty pes (cen ei e) (nei ei e) * eighth

/-- The reference's result at node `j`: zero plus the contributions of the edges whose centre word, read signed, is `j`. -/
def refOut (j : Fin 100000) : EReal :=
  zeroW + ∑ e ∈ Finset.univ.filter (fun e : Fin 6400000 => (cen ei e).toInt = (j.val : Int)), updR ei eng aty pes e

/-- The kernel's contribution of edge `e`: computed at the clipped words, and zero when the centre is no node. -/
def scaledK (e : Fin 6400000) : EReal :=
  Scalar.select (isNode (cen ei e))
    (eng (ix2 e (0 : Fin 1)) * scaleAt aty pes (clipIdx (cen ei e)) (clipIdx (nei ei e)) * eighth) zeroW

/-- The kernel's second carried value of edge `e`: the contribution minus itself. -/
def restK (e : Fin 6400000) : EReal := scaledK ei eng aty pes e - scaledK ei eng aty pes e

/-- The kernel's row word of edge `e`. -/
def rowK (e : Fin 6400000) : BitVec 32 := rowOf (clipIdx (cen ei e))
/-- The kernel's lane word of edge `e`. -/
def laneK (e : Fin 6400000) : BitVec 32 := laneOf (clipIdx (cen ei e))
end

/-- The row selector: 1 when row `r`'s number is the word, else 0. -/
def onehot (r : Fin 784) (w : BitVec 32) : EReal := if BitVec.ofNat 32 r.val = w then 1 else 0

/-- The lane selector carrying a value: the value when lane `k`'s number is the word, else 0. -/
def pick (k : Fin 128) (w : BitVec 32) (s : EReal) : EReal := if BitVec.ofNat 32 k.val = w then s else 0

/-- One tile's contribution at row `r`, lane `k`: over its 1024 edges, the row selector times the lane selector carrying the
    first value, plus the same with the second value. -/
def tile (row lane : Fin 1024 → BitVec 32) (hi lo : Fin 1024 → EReal) (r : Fin 784) (k : Fin 128) : EReal :=
  (∑ e : Fin 1024, onehot r (row e) * pick k (lane e) (hi e)) + (∑ e : Fin 1024, onehot r (row e) * pick k (lane e) (lo e))

/-- A core's plane at row `r`, lane `k`: the sum of its 3125 tiles' contributions, the tiles read off the four staged
    arrays of shape [2, 3125, 1, 1024]. -/
def planeOf (R L : IVec STILES 32) (H Lo : STILES.Idx → EReal) (c : Fin 2) (r : Fin 784) (k : Fin 128) : EReal :=
  ∑ i : Fin 3125, tile (fun e => R (ix4 c i (0 : Fin 1) e)) (fun e => L (ix4 c i (0 : Fin 1) e))
    (fun e => H (ix4 c i (0 : Fin 1) e)) (fun e => Lo (ix4 c i (0 : Fin 1) e)) r k

/-- The edge that core `c`, tile `i`, position `e` holds: edges are laid out core by core, tile by tile. -/
def edgeOf (c : Fin 2) (i : Fin 3125) (e : Fin 1024) : Fin 6400000 :=
  ⟨c.val * 3200000 + i.val * 1024 + e.val, by omega⟩

/-- The kernel's result at node `j`: zero plus, over the two cores, the core's plane at row `j / 128`, lane `j mod 128`,
    the planes built from the per-edge row, lane and value words. -/
def kerOut (ei : IVec SEI 32) (eng : SENG.Idx → EReal) (aty : IVec SAT 32) (pes : SPES.Idx → EReal) (j : Fin 100000) : EReal :=
  zeroW + ∑ c : Fin 2, ∑ i : Fin 3125,
    tile (fun e => rowK ei (edgeOf c i e)) (fun e => laneK ei (edgeOf c i e))
      (fun e => scaledK ei eng aty pes (edgeOf c i e)) (fun e => restK ei eng aty pes (edgeOf c i e))
      ⟨j.val / 128, by omega⟩ ⟨j.val % 128, by omega⟩

end Cert.EdgeSum

end
-- ==== Proof.KernelHostInt.lean ====
/-
  The integer arrays the host prepares for the region, read at an index. The row array and the lane array are the floor
  quotient and the remainder by 128 of the clipped centre words, laid out as [2, 3125, 1, 1024]: position `(p, i, 0, e)` holds
  edge `3200000 p + 1024 i + e`.

  The centre words are row 0 of the index array, flattened; they are clipped into `[0, 99999]` entry by entry; the floor
  quotient by 128 is the truncated quotient, less one where the signs of word and divisor differ and the division is
  inexact; the remainder is the truncated remainder, plus the divisor where it is nonzero and its sign differs from the
  divisor's. Each of these is one whole-array expression of the index array; the two arrays the region reads are those
  expressions, and reading them at a position reduces, entry by entry, to the scalar functions of the centre word.
-/
import proofs.«408869_j46883863003658_3_alg».proof.Proof.Gen.KernelIdeal.Frame
import proofs.«408869_j46883863003658_3_alg».proof.Proof.Spec
import proofs.«408869_j46883863003658_3_alg».proof.Proof.LibIndex
import Idealize.ShloMosaic.Lib.ValueIdx
import Idealize.ShloMosaic.Lib.Pipeline.Value
import Idealize.ShloMosaic.Lib.StableHlo.Run

set_option maxRecDepth 16384

noncomputable section

namespace Cert.KernelIdeal.HostInt

open Cert.KernelIdeal Cert.KernelIdeal.Gen
open Idealize.ShloMosaic Idealize.ShloMosaic.TcCoe Idealize.ShloMosaic.ValueIdx
open Idealize.SL Idealize.SL.Sem

variable (m : (ℓ : Loc nD τ sig) → Buf (Elt Ideal) ℓ)

/-- The four argument arrays as launched, at their literal types. -/
abbrev argEI (c : Dev nD) : IVec S2x6400000 32 := m ((c.tc : Thread nD τ).loc main_arg0)
abbrev argENG (c : Dev nD) : FVec Ideal S6400000x1 .f32 := m ((c.tc : Thread nD τ).loc main_arg1)
abbrev argAT (c : Dev nD) : IVec S100000x1 32 := m ((c.tc : Thread nD τ).loc main_arg2)
abbrev argPES (c : Dev nD) : FVec Ideal S8x8 .f32 := m ((c.tc : Thread nD τ).loc main_arg3)

abbrev rowsArr (c : Dev nD) : IVec S2x3125x1x1024 32 := V m c main_v51
abbrev lanesArr (c : Dev nD) : IVec S2x3125x1x1024 32 := V m c main_v52

/-! ## The whole-array expressions -/

/-- The scalar word `w` repeated along the flat edge axis. -/
abbrev bc {w : Nat} (v : IVec S_ w) : IVec S6400000 w := broadcastInDim S6400000 ![] bcast_S_S6400000 v

/-- Row 0 of the index array as a flat array: the centre words. -/
def cenArr (x : IVec S2x6400000 32) : IVec S6400000 32 :=
  shapeCast S6400000 (extractStridedSlice S1x6400000 ![0, 0] x slices_S2x6400000_S1x6400000_0_0) shapeCasts_S1x6400000_S6400000

/-- The centre words clipped into the node range, entry by entry. -/
def clipArr (x : IVec S2x6400000 32) : IVec S6400000 32 :=
  minsi (bc (constantI S_ 32 99999#32)) (maxsi (bc (constantI S_ 32 0#32)) (cenArr x))

/-- The floor quotient by 128, entry by entry. -/
def rowArr (v : IVec S6400000 32) : IVec S6400000 32 :=
  select
    (andi (cmpi .ne (signi v) (bc (signi (constantI S_ 32 128#32))))
      (cmpi .ne (Host.remsi v (bc (constantI S_ 32 128#32))) (bc (constantI S_ 32 0#32))))
    (subi (Host.divsi v (bc (constantI S_ 32 128#32))) (bc (constantI S_ 32 1#32)))
    (Host.divsi v (bc (constantI S_ 32 128#32)))

/-- The divisor of the remainder as a scalar array: 128, or 1 if that were zero. -/
def divW : IVec S_ 32 :=
  select (cmpi .eq (constantI S_ 32 128#32) (constantI S_ 32 0#32)) (constantI S_ 32 1#32) (constantI S_ 32 128#32)

/-- The remainder modulo 128 with the divisor's sign, entry by entry. -/
def laneArr (v : IVec S6400000 32) : IVec S6400000 32 :=
  select
    (andi
      (cmpi .ne (cmpi .slt (Host.remsi v (bc divW)) (bc (constantI S_ 32 0#32))) (bc (cmpi .slt divW (constantI S_ 32 0#32))))
      (cmpi .ne (Host.remsi v (bc divW)) (bc (constantI S_ 32 0#32))))
    (addi (Host.remsi v (bc divW)) (bc divW))
    (Host.remsi v (bc divW))

/-! ## The expressions read at an index -/

/-- The flat centre array at edge `E` is the index array at row 0, column `E`. -/
theorem cenArr_apply (x : IVec S2x6400000 32) (E : Fin 6400000) : cenArr x (ix1 E) = x (ix2 (0 : Fin 2) E) := by
  unfold cenArr
  refine (shapeCast_apply (extractStridedSlice S1x6400000 ![0, 0] x slices_S2x6400000_S1x6400000_0_0)
    shapeCasts_S1x6400000_S6400000 (ix1 E) (ix2 (0 : Fin 1) E) ?_).trans ?_
  · rw [Shape.rowMajor_val_two, Shape.rowMajor_val_one]
    show 0 * 6400000 + E.val = E.val
    omega
  · exact extractStridedSlice_apply ![0, 0] x slices_S2x6400000_S1x6400000_0_0 (ix2 (0 : Fin 1) E) (ix2 (0 : Fin 2) E)
      (fun a => match a with
        | ⟨0, _⟩ => by show (0 : Nat) = 0 + 0; omega
        | ⟨1, _⟩ => by show E.val = 0 + E.val; omega)

/-- The clipped centre array at edge `E` is the clipped centre word of `E`. -/
theorem clipArr_apply (x : IVec S2x6400000 32) (E : Fin 6400000) :
    clipArr x (ix1 E) = Cert.EdgeSum.clipIdx (Cert.EdgeSum.cen x E) := by
  show IntOp.minsi 99999#32 (IntOp.maxsi 0#32 (cenArr x (ix1 E))) = _
  rw [cenArr_apply]
  rfl

/-- The floor-quotient array at an index is the floor quotient of the entry. -/
theorem rowArr_apply (v : IVec S6400000 32) (k : S6400000.Idx) : rowArr v k = Cert.EdgeSum.rowOf (v k) := rfl

/-- The remainder array at an index is the remainder of the entry. -/
theorem laneArr_apply (v : IVec S6400000 32) (k : S6400000.Idx) : laneArr v k = Cert.EdgeSum.laneOf (v k) := rfl

/-- Position `(p, i, 0, e)` of the [2, 3125, 1, 1024] layout of a flat array holds its entry `3200000 p + 1024 i + e`. -/
theorem tiles_apply {α : Type} (y : S6400000.Idx → α) (p : Fin 2) (i : Fin 3125) (e : Fin 1024) :
    shapeCast S2x3125x1x1024 y shapeCasts_S6400000_S2x3125x1x1024 (ix4 p i (0 : Fin 1) e)
      = y (ix1 (Cert.EdgeSum.edgeOf p i e)) := by
  refine shapeCast_apply y shapeCasts_S6400000_S2x3125x1x1024 (ix4 p i (0 : Fin 1) e) (ix1 (Cert.EdgeSum.edgeOf p i e)) ?_
  rw [Shape.rowMajor_val_one, Shape.rowMajor_val_four]
  show p.val * 3200000 + i.val * 1024 + e.val = ((p.val * 3125 + i.val) * 1 + 0) * 1024 + e.val
  omega

/-! ## The two arrays the region reads, as expressions of the index array

Every host operation before the region writes its own buffer; following the row array and the lane array back through the
operations that feed them (the reshape, the floor quotient or the remainder, the clip, the slice of row 0) gives the two
expressions above, applied to the index array as launched. -/

set_option maxHeartbeats 4000000 in
theorem hostInt_eq (c : Dev nD) :
    (V m c main_v51 : IVec S2x3125x1x1024 32)
        = shapeCast S2x3125x1x1024 (rowArr (clipArr (argEI m c))) shapeCasts_S6400000_S2x3125x1x1024
      ∧ (V m c main_v52 : IVec S2x3125x1x1024 32)
        = shapeCast S2x3125x1x1024 (laneArr (clipArr (argEI m c))) shapeCasts_S6400000_S2x3125x1x1024 := by
  dsimp only [V, V0]
  simp only [hostOps0, hostOps0_1, hostOps0_2, hostOps0_3, hostOps0_4, hostOps0_5, hostOps0_6, hostOps0_7, hostOps0_8,
    hostOps0_9, hostOps0_10, List.flatten_cons, List.flatten_nil, List.append_nil, List.cons_append, List.nil_append]
  after_results_simp
  simp only [StableHlo.TRef.ofBuf, StableHlo.TRef.toBuf, cast_eq]
  exact ⟨rfl, rfl⟩

/-! ## Read at a position -/

theorem rows_apply (c : Dev nD) (p : Fin 2) (i : Fin 3125) (e : Fin 1024) :
    rowsArr m c (ix4 p i (0 : Fin 1) e) = Cert.EdgeSum.rowK (argEI m c) (Cert.EdgeSum.edgeOf p i e) := by
  show (V m c main_v51 : IVec S2x3125x1x1024 32) (ix4 p i (0 : Fin 1) e) = _
  rw [(hostInt_eq m c).1, tiles_apply, rowArr_apply, clipArr_apply]
  rfl

theorem lanes_apply (c : Dev nD) (p : Fin 2) (i : Fin 3125) (e : Fin 1024) :
    lanesArr m c (ix4 p i (0 : Fin 1) e) = Cert.EdgeSum.laneK (argEI m c) (Cert.EdgeSum.edgeOf p i e) := by
  show (V m c main_v52 : IVec S2x3125x1x1024 32) (ix4 p i (0 : Fin 1) e) = _
  rw [(hostInt_eq m c).2, tiles_apply, laneArr_apply, clipArr_apply]
  rfl

end Cert.KernelIdeal.HostInt

end
-- ==== Proof.LibPairGather.lean ====
/-
  A gather of single entries of a two-axis table by pairs of indices, read at an index.

  `x[i, j]` with two index arrays lowers to a gather whose start indices are the pairs `[E, 2]`, both operand axes
  collapsed: result element `e` is the table's entry at row `idx[e, 0]` and column `idx[e, 1]`, each read as a signed
  integer and clamped into its axis.
-/
import proofs.«408869_j46883863003658_3_alg».proof.Proof.LibIndex

namespace Cert.Gcn

open Idealize.ShloMosaic Idealize.ShloMosaic.ValueIdx

/-- The dimension numbers of a pair gather: operand `[A, B]`, start indices `[E, 2]`, result `[E]`. -/
abbrev pairGatherDims (A B E : Nat)
    (wf : GatherDims.WF ⟨2, ![A, B]⟩ ⟨2, ![E, 2]⟩ ⟨1, ![E]⟩ [] [0, 1] [] [0, 1] [] 1 ![1, 1]) :
    GatherDims ⟨2, ![A, B]⟩ ⟨2, ![E, 2]⟩ ⟨1, ![E]⟩ where
  offsetDims := []
  collapsedSliceDims := [0, 1]
  operandBatchingDims := []
  startIndicesBatchingDims := []
  startIndexMap := [0, 1]
  indexVectorDim := 1
  sliceSizes := ![1, 1]
  wf := wf

/-- A pair gather at `e` is the table at row `clamp idx[e, 0]`, column `clamp idx[e, 1]`. -/
theorem gatherPair_apply {α : Type} {A B E : Nat} (hA : 0 < A) (hB : 0 < B)
    (wf : GatherDims.WF ⟨2, ![A, B]⟩ ⟨2, ![E, 2]⟩ ⟨1, ![E]⟩ [] [0, 1] [] [0, 1] [] 1 ![1, 1])
    (x : (⟨2, ![A, B]⟩ : Shape).Idx → α) (idx : IVec ⟨2, ![E, 2]⟩ 32) (e : (⟨1, ![E]⟩ : Shape).Idx) :
    Host.gather (pairGatherDims A B E wf) x idx e
      = x (ix2 (crow A hA (idx (ix2 (e 0) (0 : Fin 2)))) (crow B hB (idx (ix2 (e 0) (1 : Fin 2))))) := by
  unfold Host.gather
  congr 1
  funext a
  refine Fin.ext ?_
  -- neither axis is a batching axis, and neither is kept (both are collapsed)
  have hnb : ∀ a : Fin 2, a ∉ (pairGatherDims A B E wf).operandBatchingDims := fun _ => List.not_mem_nil
  have hall : ∀ a : Fin 2, a ∈ ([0, 1] : List (Fin 2)) := by decide
  have hnk : ∀ a : Fin 2, a ∉ (pairGatherDims A B E wf).sKept := fun a h =>
    ((GatherDims.mem_sKept _ _).mp h).1 (hall a)
  match a with
  | ⟨0, _⟩ =>
    -- axis 0 is named first by the start index map: only the clamped start index, read at `[e, 0]`
    show (pairGatherDims A B E wf).start e idx 0 + (pairGatherDims A B E wf).batchCoord e 0
      + (pairGatherDims A B E wf).offCoord e 0 = _
    rw [GatherDims.batchCoord_eq_zero _ _ _ (hnb 0), GatherDims.offCoord_eq_zero _ _ _ (hnk 0)]
    simp only [Nat.add_zero]
    unfold GatherDims.start
    have hm : (0 : Fin 2) ∈ (pairGatherDims A B E wf).startIndexMap :=
      show (0 : Fin 2) ∈ ([0, 1] : List (Fin 2)) by decide
    rw [dif_pos hm]
    have hsi : (pairGatherDims A B E wf).siIdx e ⟨List.idxOf (0 : Fin 2) (pairGatherDims A B E wf).startIndexMap,
        List.idxOf_lt_length_iff.2 hm⟩ = ix2 (e 0) (0 : Fin 2) := by
      funext b; refine Fin.ext ?_
      match b with
      | ⟨0, _⟩ => rfl
      | ⟨1, _⟩ => rfl
    rw [hsi]
    rfl
  | ⟨1, _⟩ =>
    -- axis 1 is named second by the start index map: only the clamped start index, read at `[e, 1]`
    show (pairGatherDims A B E wf).start e idx 1 + (pairGatherDims A B E wf).batchCoord e 1
      + (pairGatherDims A B E wf).offCoord e 1 = _
    rw [GatherDims.batchCoord_eq_zero _ _ _ (hnb 1), GatherDims.offCoord_eq_zero _ _ _ (hnk 1)]
    simp only [Nat.add_zero]
    unfold GatherDims.start
    have hm : (1 : Fin 2) ∈ (pairGatherDims A B E wf).startIndexMap :=
      show (1 : Fin 2) ∈ ([0, 1] : List (Fin 2)) by decide
    rw [dif_pos hm]
    have hsi : (pairGatherDims A B E wf).siIdx e ⟨List.idxOf (1 : Fin 2) (pairGatherDims A B E wf).startIndexMap,
        List.idxOf_lt_length_iff.2 hm⟩ = ix2 (e 0) (1 : Fin 2) := by
      funext b; refine Fin.ext ?_
      match b with
      | ⟨0, _⟩ => rfl
      | ⟨1, _⟩ => rfl
    rw [hsi]
    rfl

end Cert.Gcn
-- ==== Proof.KernelHostFlt.lean ====
/-
  The float arrays the host prepares for the region, read at an index. The first is the per-edge contribution (computed at
  the clipped index words, zero where the centre is no node), the second that value minus itself; a change of float format
  is the identity on the extended reals. Both are laid out as [2, 3125, 1, 1024]: position `(p, i, 0, e)` holds edge
  `3200000 p + 1024 i + e`.
-/
import proofs.«408869_j46883863003658_3_alg».proof.Proof.Gen.KernelIdeal.Frame
import proofs.«408869_j46883863003658_3_alg».proof.Proof.Spec
import proofs.«408869_j46883863003658_3_alg».proof.Proof.LibIndex
import proofs.«408869_j46883863003658_3_alg».proof.Proof.LibPairGather
import Idealize.ShloMosaic.Lib.ValueIdx
import Idealize.ShloMosaic.Lib.Pipeline.Value
import Idealize.ShloMosaic.Lib.StableHlo.Run

set_option maxRecDepth 16384

noncomputable section

namespace Cert.KernelIdeal.HostFlt

open Cert.KernelIdeal Cert.KernelIdeal.Gen
open Idealize.ShloMosaic Idealize.ShloMosaic.TcCoe Idealize.ShloMosaic.ValueIdx
open Idealize.SL Idealize.SL.Sem

/-! ### The stages as whole-array functions

Each stage below is one step of the host's computation as a function of the arrays before it: a row of the index words,
a scalar spread over the edges, the clip into the node range, the wrap of a negative word by an extent, a vector as a
one-column array, the species gather, the two species columns side by side, the scale gather, the product with the edge
value and 1/8, the node test, the choice between the product and zero, and the two re-laid results. -/

/-- Row `k` of the index-word array as a vector over the edges. -/
def rowA (k : Nat) (ei : IVec S2x6400000 32) (h : S2x6400000.Slices ![k, 0] S1x6400000) : IVec S6400000 32 :=
  shapeCast S6400000 (extractStridedSlice S1x6400000 ![k, 0] ei h) Facts₀.shapeCasts_S1x6400000_S6400000

/-- An integer scalar spread over the edges. -/
def splatI (w : BitVec 32) : IVec S6400000 32 :=
  broadcastInDim S6400000 ![] Facts₀.bcast_S_S6400000 (constantI S_ 32 w)

/-- A float scalar (a binary32 word) spread over the edges. -/
def splatF (w : BitVec 32) : FVec Ideal S6400000 .f32 :=
  broadcastInDim S6400000 ![] Facts₀.bcast_S_S6400000 (constant (F := Ideal) S_ .f32 w)

def clipA (x : IVec S6400000 32) : IVec S6400000 32 :=
  minsi (splatI 99999#32) (maxsi (splatI 0#32) x)

def wrapA (n : BitVec 32) (x : IVec S6400000 32) : IVec S6400000 32 :=
  select (cmpi .slt x (splatI 0#32)) (addi x (splatI n)) x

def colA (x : IVec S6400000 32) : IVec S6400000x1 32 :=
  broadcastInDim S6400000x1 ![0] Facts₀.bcast_S6400000_S6400000x1_0 x

def specA (aty : IVec S100000x1 32) (x : IVec S6400000 32) : IVec S6400000 32 :=
  Host.gather gather_S100000_S6400000x1_S6400000_n_0_n_n_0_1_1
    (shapeCast S100000 aty Facts₀.shapeCasts_S100000x1_S100000) (colA (wrapA 100000#32 x))

def pairA (a b : IVec S6400000 32) : IVec S6400000x2 32 :=
  concatenate S6400000x2 1 [⟨S6400000x1, colA a⟩, ⟨S6400000x1, colA b⟩]
    Facts₀.concatenates_S6400000x1_S6400000x1_S6400000x2_d1

def scaleA (aty : IVec S100000x1 32) (pes : FVec Ideal S8x8 .f32) (cc nn : IVec S6400000 32) : FVec Ideal S6400000 .f32 :=
  Host.gather gather_S8x8_S6400000x2_S6400000_n_01_n_n_01_1_11 pes
    (pairA (wrapA 8#32 (specA aty cc)) (wrapA 8#32 (specA aty nn)))

def updA (eng : FVec Ideal S6400000x1 .f32) (aty : IVec S100000x1 32) (pes : FVec Ideal S8x8 .f32)
    (cc nn : IVec S6400000 32) : FVec Ideal S6400000 .f32 :=
  mulf (mulf (shapeCast S6400000 eng Facts₀.shapeCasts_S6400000x1_S6400000) (scaleA aty pes cc nn)) (splatF 0x3E000000#32)

def nodeA (x : IVec S6400000 32) : IVec S6400000 1 :=
  andi (cmpi .sge x (splatI 0#32)) (cmpi .slt x (splatI 100000#32))

def whereA (ei : IVec S2x6400000 32) (eng : FVec Ideal S6400000x1 .f32) (aty : IVec S100000x1 32)
    (pes : FVec Ideal S8x8 .f32) : FVec Ideal S6400000 .f32 :=
  select (nodeA (rowA 0 ei Facts₀.slices_S2x6400000_S1x6400000_0_0))
    (updA eng aty pes (clipA (rowA 0 ei Facts₀.slices_S2x6400000_S1x6400000_0_0))
      (clipA (rowA 1 ei Facts₀.slices_S2x6400000_S1x6400000_1_0)))
    (splatF 0x00000000#32)

def hiA (w : FVec Ideal S6400000 .f32) : FVec Ideal S2x3125x1x1024 .bf16 :=
  shapeCast S2x3125x1x1024 (truncf .bf16 w Facts₀.bitsLt_bf16_f32) Facts₀.shapeCasts_S6400000_S2x3125x1x1024

def loA (w : FVec Ideal S6400000 .f32) : FVec Ideal S2x3125x1x1024 .bf16 :=
  shapeCast S2x3125x1x1024
    (truncf .bf16 (subf w (extf .f32 (truncf .bf16 w Facts₀.bitsLt_bf16_f32) Facts₀.bitsLt_bf16_f32)) Facts₀.bitsLt_bf16_f32)
    Facts₀.shapeCasts_S6400000_S2x3125x1x1024

/-! ### The stages read at an index -/

theorem splatI_apply (w : BitVec 32) (j : S6400000.Idx) : splatI w j = w := rfl

theorem splatF_apply (w : BitVec 32) (j : S6400000.Idx) :
    splatF w j = FloatOps.ofBits (F := Ideal) .f32 w := rfl

theorem clipA_apply (x : IVec S6400000 32) (j : S6400000.Idx) :
    clipA x j = Cert.EdgeSum.clipIdx (x j) := rfl

theorem wrapA_apply (n : BitVec 32) (x : IVec S6400000 32) (j : S6400000.Idx) :
    wrapA n x j = Cert.EdgeSum.wrapIdx n (x j) := rfl

theorem nodeA_apply (x : IVec S6400000 32) (j : S6400000.Idx) :
    nodeA x j = Cert.EdgeSum.isNode (x j) := rfl

/-- Row `k` of the index words at edge `e` is the array's entry `(k, e)`. -/
theorem rowA_apply (k : Nat) (hk : k < 2) (ei : IVec S2x6400000 32) (h : S2x6400000.Slices ![k, 0] S1x6400000)
    (e : Fin 6400000) : rowA k ei h (ix1 e) = ei (ix2 (⟨k, hk⟩ : Fin 2) e) := by
  unfold rowA
  refine (shapeCast_apply (extractStridedSlice S1x6400000 ![k, 0] ei h) Facts₀.shapeCasts_S1x6400000_S6400000
    (ix1 e) (ix2 (0 : Fin 1) e) ?_).trans ?_
  · rw [Shape.rowMajor_val_two, Shape.rowMajor_val_one]
    show 0 * 6400000 + e.val = e.val
    omega
  · exact extractStridedSlice_apply ![k, 0] ei h (ix2 (0 : Fin 1) e) (ix2 (⟨k, hk⟩ : Fin 2) e) (fun a => match a with
      | ⟨0, _⟩ => by show k = k + 0; omega
      | ⟨1, _⟩ => by show e.val = 0 + e.val; omega)

/-- A vector laid out as a one-column array, read at `(e, 0)`. -/
theorem colA_apply (x : IVec S6400000 32) (e : Fin 6400000) : colA x (ix2 e (0 : Fin 1)) = x (ix1 e) := by
  unfold colA
  exact broadcastInDim_apply _ Facts₀.bcast_S6400000_S6400000x1_0 x (ix2 e (0 : Fin 1)) (ix1 e) (fun a => match a with
    | ⟨0, _⟩ => by
      show e.val = if (6400000 : Nat) = 1 then 0 else e.val
      rw [if_neg (by decide)])

/-- The species gather at edge `e`: the species of the node the word names, wrapped when negative and clamped. -/
theorem specA_apply (aty : IVec S100000x1 32) (x : IVec S6400000 32) (e : Fin 6400000) :
    specA aty x (ix1 e) = Cert.EdgeSum.speciesAt aty (x (ix1 e)) := by
  unfold specA
  refine (Cert.Gcn.gatherVec_apply (N := 100000) (E := 6400000) (by decide)
    Facts₀.gather_S100000_S6400000x1_S6400000_n_0_n_n_0_1_1_wf _ _ (ix1 e)).trans ?_
  have h1 : colA (wrapA 100000#32 x) (ix2 e (0 : Fin 1)) = Cert.EdgeSum.wrapIdx 100000#32 (x (ix1 e)) :=
    (colA_apply _ e).trans (wrapA_apply _ _ _)
  show shapeCast S100000 aty Facts₀.shapeCasts_S100000x1_S100000
    (ix1 (Cert.Gcn.crow 100000 (by decide) (colA (wrapA 100000#32 x) (ix2 e (0 : Fin 1))))) = _
  rw [h1]
  show _ = aty (ix2 (Cert.Gcn.crow 100000 (by decide) (Cert.EdgeSum.wrapIdx 100000#32 (x (ix1 e)))) (0 : Fin 1))
  generalize Cert.Gcn.crow 100000 _ (Cert.EdgeSum.wrapIdx 100000#32 (x (ix1 e))) = r
  exact shapeCast_apply aty Facts₀.shapeCasts_S100000x1_S100000 (ix1 r) (ix2 r (0 : Fin 1))
    (by rw [Shape.rowMajor_val_two, Shape.rowMajor_val_one]; show r.val * 1 + 0 = r.val; omega)

/-- The two index columns side by side, read at column 0. -/
theorem pairA_apply_zero (a b : IVec S6400000 32) (e : Fin 6400000) :
    pairA a b (ix2 e (0 : Fin 2)) = a (ix1 e) := by
  unfold pairA
  refine (concatenate_pair_apply_left _ (colA a) (colA b)
    Facts₀.concatenates_S6400000x1_S6400000x1_S6400000x2_d1 (ix2 e (0 : Fin 2)) rfl (ix2 e (0 : Fin 1))
    (fun k => match k with
      | ⟨0, _⟩ => rfl
      | ⟨1, _⟩ => rfl)).trans (colA_apply a e)

/-- The two index columns side by side, read at column 1. -/
theorem pairA_apply_one (a b : IVec S6400000 32) (e : Fin 6400000) :
    pairA a b (ix2 e (1 : Fin 2)) = b (ix1 e) := by
  unfold pairA
  refine (concatenate_pair_apply_right _ (colA a) (colA b)
    Facts₀.concatenates_S6400000x1_S6400000x1_S6400000x2_d1 (ix2 e (1 : Fin 2)) rfl rfl (ix2 e (0 : Fin 1))
    (fun k => match k with
      | ⟨0, _⟩ => fun _ => rfl
      | ⟨1, _⟩ => fun hne => absurd rfl hne) rfl).trans (colA_apply b e)

/-- The scale gather at edge `e`: the table's entry at the two species. -/
theorem scaleA_apply (aty : IVec S100000x1 32) (pes : FVec Ideal S8x8 .f32) (cc nn : IVec S6400000 32) (e : Fin 6400000) :
    scaleA aty pes cc nn (ix1 e) = Cert.EdgeSum.scaleAt aty pes (cc (ix1 e)) (nn (ix1 e)) := by
  unfold scaleA
  refine (Cert.Gcn.gatherPair_apply (A := 8) (B := 8) (E := 6400000) (by decide) (by decide)
    Facts₀.gather_S8x8_S6400000x2_S6400000_n_01_n_n_01_1_11_wf pes _ (ix1 e)).trans ?_
  show pes (ix2
      (Cert.Gcn.crow 8 (by decide) (pairA (wrapA 8#32 (specA aty cc)) (wrapA 8#32 (specA aty nn)) (ix2 e (0 : Fin 2))))
      (Cert.Gcn.crow 8 (by decide) (pairA (wrapA 8#32 (specA aty cc)) (wrapA 8#32 (specA aty nn)) (ix2 e (1 : Fin 2))))) = _
  rw [pairA_apply_zero, pairA_apply_one, wrapA_apply, wrapA_apply, specA_apply, specA_apply]
  rfl

/-- The contribution before the node test, at edge `e`. -/
theorem updA_apply (eng : FVec Ideal S6400000x1 .f32) (aty : IVec S100000x1 32) (pes : FVec Ideal S8x8 .f32)
    (cc nn : IVec S6400000 32) (e : Fin 6400000) :
    updA eng aty pes cc nn (ix1 e)
      = eng (ix2 e (0 : Fin 1)) * Cert.EdgeSum.scaleAt aty pes (cc (ix1 e)) (nn (ix1 e)) * Cert.EdgeSum.eighth := by
  have hE : shapeCast S6400000 eng Facts₀.shapeCasts_S6400000x1_S6400000 (ix1 e) = eng (ix2 e (0 : Fin 1)) :=
    shapeCast_apply eng Facts₀.shapeCasts_S6400000x1_S6400000 (ix1 e) (ix2 e (0 : Fin 1))
      (by rw [Shape.rowMajor_val_two, Shape.rowMajor_val_one]; show e.val * 1 + 0 = e.val; omega)
  show shapeCast S6400000 eng Facts₀.shapeCasts_S6400000x1_S6400000 (ix1 e) * scaleA aty pes cc nn (ix1 e)
    * Cert.EdgeSum.eighth = _
  rw [hE, scaleA_apply]

/-- The per-edge value at edge `e` is the contribution of the statement's vocabulary. -/
theorem whereA_apply (ei : IVec S2x6400000 32) (eng : FVec Ideal S6400000x1 .f32) (aty : IVec S100000x1 32)
    (pes : FVec Ideal S8x8 .f32) (e : Fin 6400000) :
    whereA ei eng aty pes (ix1 e) = Cert.EdgeSum.scaledK ei eng aty pes e := by
  show Scalar.select (nodeA (rowA 0 ei Facts₀.slices_S2x6400000_S1x6400000_0_0) (ix1 e))
    (updA eng aty pes (clipA (rowA 0 ei Facts₀.slices_S2x6400000_S1x6400000_0_0))
      (clipA (rowA 1 ei Facts₀.slices_S2x6400000_S1x6400000_1_0)) (ix1 e))
    (splatF 0x00000000#32 (ix1 e)) = _
  rw [updA_apply, nodeA_apply, clipA_apply, clipA_apply,
    rowA_apply 0 (by decide) ei Facts₀.slices_S2x6400000_S1x6400000_0_0 e,
    rowA_apply 1 (by decide) ei Facts₀.slices_S2x6400000_S1x6400000_1_0 e]
  rfl

/-- The reshape to [2, 3125, 1, 1024] at `(p, i, 0, e)` reads the edge vector at `3200000 p + 1024 i + e`. -/
theorem tiles_apply {α : Type} (w : S6400000.Idx → α) (p : Fin 2) (i : Fin 3125) (e : Fin 1024) :
    shapeCast S2x3125x1x1024 w Facts₀.shapeCasts_S6400000_S2x3125x1x1024 (ix4 p i (0 : Fin 1) e)
      = w (ix1 (Cert.EdgeSum.edgeOf p i e)) := by
  refine shapeCast_apply w Facts₀.shapeCasts_S6400000_S2x3125x1x1024 (ix4 p i (0 : Fin 1) e)
    (ix1 (Cert.EdgeSum.edgeOf p i e)) ?_
  rw [Shape.rowMajor_val_four, Shape.rowMajor_val_one]
  show p.val * 3200000 + i.val * 1024 + e.val = ((p.val * 3125 + i.val) * 1 + 0) * 1024 + e.val
  omega

theorem hiA_apply (w : FVec Ideal S6400000 .f32) (p : Fin 2) (i : Fin 3125) (e : Fin 1024) :
    hiA w (ix4 p i (0 : Fin 1) e) = w (ix1 (Cert.EdgeSum.edgeOf p i e)) := by
  unfold hiA
  rw [tiles_apply]
  rfl

theorem loA_apply (w : FVec Ideal S6400000 .f32) (p : Fin 2) (i : Fin 3125) (e : Fin 1024) :
    loA w (ix4 p i (0 : Fin 1) e) = w (ix1 (Cert.EdgeSum.edgeOf p i e)) - w (ix1 (Cert.EdgeSum.edgeOf p i e)) := by
  unfold loA
  rw [tiles_apply]
  rfl

variable (m : (ℓ : Loc nD τ sig) → Buf (Elt Ideal) ℓ)

/-- The four argument arrays as launched, at their literal types. -/
abbrev argEI (c : Dev nD) : IVec S2x6400000 32 := m ((c.tc : Thread nD τ).loc main_arg0)
abbrev argENG (c : Dev nD) : FVec Ideal S6400000x1 .f32 := m ((c.tc : Thread nD τ).loc main_arg1)
abbrev argAT (c : Dev nD) : IVec S100000x1 32 := m ((c.tc : Thread nD τ).loc main_arg2)
abbrev argPES (c : Dev nD) : FVec Ideal S8x8 .f32 := m ((c.tc : Thread nD τ).loc main_arg3)

abbrev hiArr (c : Dev nD) : FVec Ideal S2x3125x1x1024 .bf16 := V m c main_v53
abbrev loArr (c : Dev nD) : FVec Ideal S2x3125x1x1024 .bf16 := V m c main_v54

/-! ### The two arrays as the stages composed

What the region finds in each array is the composition of the host's operations before it, applied to the argument arrays
as launched: the operations are read off one by one, each result at its own buffer, every other buffer unchanged. -/

set_option maxHeartbeats 4000000 in
/-- The first array is the re-laid choice between the product and zero. -/
theorem hiArr_eq (c : Dev nD) :
    (V m c main_v53 : FVec Ideal S2x3125x1x1024 .bf16)
      = hiA (whereA (argEI m c) (argENG m c) (argAT m c) (argPES m c)) := by
  dsimp only [V, V0]
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results_simp
  rfl

set_option maxHeartbeats 4000000 in
/-- The second array is the re-laid difference of that choice and itself. -/
theorem loArr_eq (c : Dev nD) :
    (V m c main_v54 : FVec Ideal S2x3125x1x1024 .bf16)
      = loA (whereA (argEI m c) (argENG m c) (argAT m c) (argPES m c)) := by
  dsimp only [V, V0]
  simp only [hostOps0, hostOps0_1, hostOps0_2, hostOps0_3, hostOps0_4, hostOps0_5, hostOps0_6, hostOps0_7, hostOps0_8, hostOps0_9, hostOps0_10, List.flatten_cons, List.flatten_nil, List.append_nil, List.cons_append, List.nil_append]
  after_results_simp
  rfl

theorem his_apply (c : Dev nD) (p : Fin 2) (i : Fin 3125) (e : Fin 1024) :
    hiArr m c (ix4 p i (0 : Fin 1) e)
      = Cert.EdgeSum.scaledK (argEI m c) (argENG m c) (argAT m c) (argPES m c) (Cert.EdgeSum.edgeOf p i e) :=
  (congrFun (hiArr_eq m c) (ix4 p i (0 : Fin 1) e)).trans
    ((hiA_apply _ p i e).trans (whereA_apply _ _ _ _ _))

theorem los_apply (c : Dev nD) (p : Fin 2) (i : Fin 3125) (e : Fin 1024) :
    loArr m c (ix4 p i (0 : Fin 1) e)
      = Cert.EdgeSum.restK (argEI m c) (argENG m c) (argAT m c) (argPES m c) (Cert.EdgeSum.edgeOf p i e) := by
  refine (congrFun (loArr_eq m c) (ix4 p i (0 : Fin 1) e)).trans ((loA_apply _ p i e).trans ?_)
  rw [whereA_apply]
  rfl

end Cert.KernelIdeal.HostFlt

end
-- ==== Proof.KernelBody.lean ====
/-
  What each control case of the kernel body leaves behind, as the body's payloads of what it loaded. At a core's first tile
  the accumulator is reset and then updated, so it ends at the update of the reset value; at any other tile it ends at the
  update of what the tile before left; at a core's last tile the output block is the updated accumulator under a leading
  unit axis.
-/
import proofs.«408869_j46883863003658_3_alg».proof.Proof.Gen.KernelIdeal.Frame
import Idealize.ShloMosaic.Lib.Pipeline.Value

set_option maxRecDepth 16384

noncomputable section

namespace Cert.KernelIdeal.BodyValue

open Cert.KernelIdeal Cert.KernelIdeal.Gen
open Idealize.ShloMosaic Idealize.ShloMosaic.TcCoe Idealize.ShloMosaic.Tactic
open Idealize.SL Idealize.SL.Sem

variable {F : FTy → Type} [FloatOps F]

/-- The offsets `(0, 0)`, written as a pair, are the zero function: the rectangle they start is the whole 784 × 128 shape. -/
private theorem hz2 : (![0, 0] : Fin 2 → Nat) = fun _ => 0 := funext fun a => by fin_cases a <;> rfl
/-- The same for the three axes of the output block. -/
private theorem hz3 : (![0, 0, 0] : Fin 3 → Nat) = fun _ => 0 := funext fun a => by fin_cases a <;> rfl
/-- The same for the four axes of an input tile. -/
private theorem hz4 : (![0, 0, 0, 0] : Fin 4 → Nat) = fun _ => 0 := funext fun a => by fin_cases a <;> rfl

/-- First tile of a core: reset, then update. -/
theorem sout_A (c : Dev nD) (i : grid0.Coords) (arg2 : Memref sig .tc .vmem S1x1x1x1024 .i32) (harg2 : arg2.IsWhole) (arg3 : Memref sig .tc .vmem S1x1x1x1024 .i32) (harg3 : arg3.IsWhole) (arg4 : Memref sig .tc .vmem S1x1x1x1024 .bf16) (harg4 : arg4.IsWhole) (arg5 : Memref sig .tc .vmem S1x1x1x1024 .bf16) (harg5 : arg5.IsWhole) (arg6 : Memref sig .tc .vmem S1x784x128 .f32) (harg6 : arg6.IsWhole) (arg7 : Memref sig .tc .vmem S784x128 .f32) (harg7 : arg7.IsWhole) (hc0 : cond0_0 i) (hc1 : ¬cond0_1 i)
    (x0 : Vec F S1x1x1x1024 .i32) (x1 : Vec F S1x1x1x1024 .i32) (x2 : Vec F S1x1x1x1024 .bf16) (x3 : Vec F S1x1x1x1024 .bf16) :
    sout0_A_0 (F := F) c i arg2 harg2 arg3 harg3 arg4 harg4 arg5 harg5 arg6 harg6 arg7 harg7 hc0 hc1 x0 x1 x2 x3 = k0_pay1 (k0_pay4 x0 x1 x2 x3) (k0_pay3 (F := F)) := by
  -- two whole-shape stores, the later one covering: what is left is the later payload, whose accumulator operand is
  -- the read-back of the first store, that is the reset value; every input load reads its whole tile
  unfold sout0_A_0
  rw [View.read_writes_eq_canon _ _ _ (scover0_A_0 c i arg2 harg2 arg3 harg3 arg4 harg4 arg5 harg5 arg6 harg6 arg7 harg7 hc0 hc1 x0 x1 x2 x3)]
  unfold kernelRun0_A
  dsimp only
  sl_unfold_words
  rw [View.canon_cons_unit_zero (S := S784x128) hz2, View.readCov_unit_zero (S := S784x128) _ hz2]
  simp only [View.readAt_eq_ld, harg2.read_unread, harg3.read_unread, harg4.read_unread, harg5.read_unread,
    View.ld_unit_zero (S := S1x1x1x1024) hz4]

/-- A middle tile: update of what the tile before left. -/
theorem sout_B (c : Dev nD) (i : grid0.Coords) (arg2 : Memref sig .tc .vmem S1x1x1x1024 .i32) (harg2 : arg2.IsWhole) (arg3 : Memref sig .tc .vmem S1x1x1x1024 .i32) (harg3 : arg3.IsWhole) (arg4 : Memref sig .tc .vmem S1x1x1x1024 .bf16) (harg4 : arg4.IsWhole) (arg5 : Memref sig .tc .vmem S1x1x1x1024 .bf16) (harg5 : arg5.IsWhole) (arg6 : Memref sig .tc .vmem S1x784x128 .f32) (harg6 : arg6.IsWhole) (arg7 : Memref sig .tc .vmem S784x128 .f32) (harg7 : arg7.IsWhole) (hc0 : ¬cond0_0 i) (hc1 : ¬cond0_1 i)
    (x0 : Vec F S1x1x1x1024 .i32) (x1 : Vec F S1x1x1x1024 .i32) (x2 : Vec F S1x1x1x1024 .bf16) (x3 : Vec F S1x1x1x1024 .bf16) (xs0 : Vec F S784x128 .f32) :
    sout0_B_0 (F := F) c i arg2 harg2 arg3 harg3 arg4 harg4 arg5 harg5 arg6 harg6 arg7 harg7 hc0 hc1 x0 x1 x2 x3 xs0 = k0_pay1 (k0_pay4 x0 x1 x2 x3) xs0 := by
  -- one whole-shape store: what is left is its payload, each load reading the whole of what its buffer held
  unfold sout0_B_0
  rw [View.read_writes_eq_canon _ _ _ (scover0_B_0 c i arg2 harg2 arg3 harg3 arg4 harg4 arg5 harg5 arg6 harg6 arg7 harg7 hc0 hc1 x0 x1 x2 x3 xs0)]
  unfold kernelRun0_B
  dsimp only
  sl_unfold_words
  rw [View.canon_unit_zero (S := S784x128) hz2]
  simp only [View.readAt_eq_ld, harg2.read_unread, harg3.read_unread, harg4.read_unread, harg5.read_unread, harg7.read_unread,
    View.ld_unit_zero (S := S784x128) hz2, View.ld_unit_zero (S := S1x1x1x1024) hz4]

/-- Last tile of a core, the accumulator: update of what the tile before left. -/
theorem sout_C (c : Dev nD) (i : grid0.Coords) (arg2 : Memref sig .tc .vmem S1x1x1x1024 .i32) (harg2 : arg2.IsWhole) (arg3 : Memref sig .tc .vmem S1x1x1x1024 .i32) (harg3 : arg3.IsWhole) (arg4 : Memref sig .tc .vmem S1x1x1x1024 .bf16) (harg4 : arg4.IsWhole) (arg5 : Memref sig .tc .vmem S1x1x1x1024 .bf16) (harg5 : arg5.IsWhole) (arg6 : Memref sig .tc .vmem S1x784x128 .f32) (harg6 : arg6.IsWhole) (arg7 : Memref sig .tc .vmem S784x128 .f32) (harg7 : arg7.IsWhole) (hc0 : ¬cond0_0 i) (hc1 : cond0_1 i)
    (x0 : Vec F S1x1x1x1024 .i32) (x1 : Vec F S1x1x1x1024 .i32) (x2 : Vec F S1x1x1x1024 .bf16) (x3 : Vec F S1x1x1x1024 .bf16) (xs0 : Vec F S784x128 .f32) :
    sout0_C_0 (F := F) c i arg2 harg2 arg3 harg3 arg4 harg4 arg5 harg5 arg6 harg6 arg7 harg7 hc0 hc1 x0 x1 x2 x3 xs0 = k0_pay1 (k0_pay4 x0 x1 x2 x3) xs0 := by
  -- one whole-shape store into the accumulator, as at a middle tile
  unfold sout0_C_0
  rw [View.read_writes_eq_canon _ _ _ (scover0_C_0 c i arg2 harg2 arg3 harg3 arg4 harg4 arg5 harg5 arg6 harg6 arg7 harg7 hc0 hc1 x0 x1 x2 x3 xs0)]
  unfold kernelRun0_C
  dsimp only
  sl_unfold_words
  rw [View.canon_unit_zero (S := S784x128) hz2]
  simp only [View.readAt_eq_ld, harg2.read_unread, harg3.read_unread, harg4.read_unread, harg5.read_unread, harg7.read_unread,
    View.ld_unit_zero (S := S784x128) hz2, View.ld_unit_zero (S := S1x1x1x1024) hz4]

/-- Last tile of a core, the output block: the updated accumulator under a leading unit axis. -/
theorem out_C (c : Dev nD) (i : grid0.Coords) (arg2 : Memref sig .tc .vmem S1x1x1x1024 .i32) (harg2 : arg2.IsWhole) (arg3 : Memref sig .tc .vmem S1x1x1x1024 .i32) (harg3 : arg3.IsWhole) (arg4 : Memref sig .tc .vmem S1x1x1x1024 .bf16) (harg4 : arg4.IsWhole) (arg5 : Memref sig .tc .vmem S1x1x1x1024 .bf16) (harg5 : arg5.IsWhole) (arg6 : Memref sig .tc .vmem S1x784x128 .f32) (harg6 : arg6.IsWhole) (arg7 : Memref sig .tc .vmem S784x128 .f32) (harg7 : arg7.IsWhole) (hc0 : ¬cond0_0 i) (hc1 : cond0_1 i)
    (x0 : Vec F S1x1x1x1024 .i32) (x1 : Vec F S1x1x1x1024 .i32) (x2 : Vec F S1x1x1x1024 .bf16) (x3 : Vec F S1x1x1x1024 .bf16) (xs0 : Vec F S784x128 .f32) :
    out0_C_4 (F := F) c i arg2 harg2 arg3 harg3 arg4 harg4 arg5 harg5 arg6 harg6 arg7 harg7 hc0 hc1 x0 x1 x2 x3 xs0 = k0_pay2 (k0_pay1 (k0_pay4 x0 x1 x2 x3) xs0) := by
  -- one whole-shape store into the output block, of the accumulator read back after its own update store
  unfold out0_C_4
  rw [View.read_writes_eq_canon _ _ _ (cover0_C_4 c i arg2 harg2 arg3 harg3 arg4 harg4 arg5 harg5 arg6 harg6 arg7 harg7 hc0 hc1 x0 x1 x2 x3 xs0)]
  unfold kernelRun0_C
  dsimp only
  sl_unfold_words
  rw [View.canon_unit_zero (S := S1x784x128) hz3, View.readCov_unit_zero (S := S784x128) _ hz2]
  simp only [View.readAt_eq_ld, harg2.read_unread, harg3.read_unread, harg4.read_unread, harg5.read_unread, harg7.read_unread,
    View.ld_unit_zero (S := S784x128) hz2, View.ld_unit_zero (S := S1x1x1x1024) hz4]

end Cert.KernelIdeal.BodyValue

end
-- ==== Proof.KernelPay.lean ====
/-
  The kernel body's arithmetic read at an index, at the extended reals: one tile's two matrix products of a row selector
  with a lane selector carrying a value are the specification's `tile`; the accumulator update is a sum; the reset is zero;
  the output block is the accumulator under a leading unit axis.
-/
import proofs.«408869_j46883863003658_3_alg».proof.Proof.Gen.KernelIdeal.Skeleton
import proofs.«408869_j46883863003658_3_alg».proof.Proof.Spec
import Idealize.ShloMosaic.PureOps.Ideal.Laws
import Idealize.ShloMosaic.Lib.ValueIdx
import Idealize.ShloMosaic.Lib.Pipeline.Value
import Idealize.ShloMosaic.Lib.ValueLayout

noncomputable section

namespace Cert.KernelIdeal.PayValue

open Cert.KernelIdeal Cert.KernelIdeal.Gen Idealize.ShloMosaic Idealize.ShloMosaic.ValueIdx

/-! ## The matrix product's operand indices

At output entry `(row, column)` and shared position `q`, the left operand is read at `(row, q)` and the right one at
`(column, q)`: one statement per operand axis. -/

theorem lhs_pay_0 (i : S784x128.Idx) (q : dot_S784x1024_S128x1024_S784x128_1_1_0_0_n_n.contr.Idx) :
    (dot_S784x1024_S128x1024_S784x128_1_1_0_0_n_n.lhsIdx i q 0).val = (i 0).val := by
  unfold DotDims.lhsIdx
  rw [dif_neg (show ¬(0 : Fin S784x1024.rank) ∈ dot_S784x1024_S128x1024_S784x128_1_1_0_0_n_n.lhsBatch by decide),
    dif_pos (show (0 : Fin S784x1024.rank) ∈ dot_S784x1024_S128x1024_S784x128_1_1_0_0_n_n.lhsNonContracting by decide)]
  rfl

theorem lhs_pay_1 (i : S784x128.Idx) (q : dot_S784x1024_S128x1024_S784x128_1_1_0_0_n_n.contr.Idx) :
    (dot_S784x1024_S128x1024_S784x128_1_1_0_0_n_n.lhsIdx i q 1).val = (q ⟨0, by decide⟩).val :=
  dot_S784x1024_S128x1024_S784x128_1_1_0_0_n_n.lhsIdx_val_of_single rfl i q

theorem rhs_pay_0 (i : S784x128.Idx) (q : dot_S784x1024_S128x1024_S784x128_1_1_0_0_n_n.contr.Idx) :
    (dot_S784x1024_S128x1024_S784x128_1_1_0_0_n_n.rhsIdx i q 0).val = (i 1).val := by
  unfold DotDims.rhsIdx
  rw [dif_neg (show ¬(0 : Fin S128x1024.rank) ∈ dot_S784x1024_S128x1024_S784x128_1_1_0_0_n_n.rhsBatch by decide),
    dif_pos (show (0 : Fin S128x1024.rank) ∈ dot_S784x1024_S128x1024_S784x128_1_1_0_0_n_n.rhsNonContracting by decide)]
  rfl

theorem rhs_pay_1 (i : S784x128.Idx) (q : dot_S784x1024_S128x1024_S784x128_1_1_0_0_n_n.contr.Idx) :
    (dot_S784x1024_S128x1024_S784x128_1_1_0_0_n_n.rhsIdx i q 1).val = (q ⟨0, by decide⟩).val :=
  dot_S784x1024_S128x1024_S784x128_1_1_0_0_n_n.rhsIdx_val_of_single rfl i q

/-- The product of a [784, 1024] matrix with the transpose of a [128, 1024] one, into the zero accumulator, at
    row `r`, column `k`: the sum over the 1024 shared positions of the two entries' product. -/
theorem matmul_pay_apply (P : FVec Ideal S784x1024 .bf16) (L : FVec Ideal S128x1024 .bf16) (r : Fin 784) (k : Fin 128) :
    matmul dot_S784x1024_S128x1024_S784x128_1_1_0_0_n_n none P L (constant (F := Ideal) S784x128 .f32 0x00000000#32) (ix2 r k)
      = ∑ e : Fin 1024, P (ix2 r e) * L (ix2 k e) := by
  show FloatOps.matmul dot_S784x1024_S128x1024_S784x128_1_1_0_0_n_n none P L (constant (F := Ideal) S784x128 .f32 0x00000000#32) (ix2 r k) = _
  rw [Ideal.matmul_constant_zero_apply,
    ← Equiv.sum_comp (contrEquiv1 dot_S784x1024_S128x1024_S784x128_1_1_0_0_n_n 1024 rfl rfl).symm]
  refine Finset.sum_congr rfl fun e _ => ?_
  have hk := contrEquiv1_symm_val dot_S784x1024_S128x1024_S784x128_1_1_0_0_n_n 1024 rfl rfl e
  have el : dot_S784x1024_S128x1024_S784x128_1_1_0_0_n_n.lhsIdx (ix2 r k)
      ((contrEquiv1 dot_S784x1024_S128x1024_S784x128_1_1_0_0_n_n 1024 rfl rfl).symm e) = ix2 r e :=
    funext fun a => Fin.ext (by
      match a with
      | ⟨0, _⟩ => exact lhs_pay_0 _ _
      | ⟨1, _⟩ => exact (lhs_pay_1 _ _).trans hk)
  have er : dot_S784x1024_S128x1024_S784x128_1_1_0_0_n_n.rhsIdx (ix2 r k)
      ((contrEquiv1 dot_S784x1024_S128x1024_S784x128_1_1_0_0_n_n 1024 rfl rfl).symm e) = ix2 k e :=
    funext fun a => Fin.ext (by
      match a with
      | ⟨0, _⟩ => exact rhs_pay_0 _ _
      | ⟨1, _⟩ => exact (rhs_pay_1 _ _).trans hk)
  rw [el, er]

/-! ## Layout steps at an index -/

/-- A column `[a, 1]` spread over `[a, b]` reads, at `(p, c)`, the column's entry at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A `[1, 1, 1, n]` array viewed `[1, n]` reads, at `(u, e)`, the operand at `(0, 0, 0, e)`. -/
theorem shapeCast_111n_1n_apply {α : Type} {n : ℕ} (x : (⟨4, ![1, 1, 1, n]⟩ : Shape).Idx → α)
    (h : (⟨4, ![1, 1, 1, n]⟩ : Shape).ShapeCasts ⟨2, ![1, n]⟩) (u : Fin 1) (e : Fin n) :
    shapeCast ⟨2, ![1, n]⟩ x h (ix2 u e) = x (ix4 (0 : Fin 1) (0 : Fin 1) (0 : Fin 1) e) :=
  shapeCast_apply x h _ _ (by
    have hu : u.val = 0 := by omega
    rw [Shape.rowMajor_val_four, Shape.rowMajor_val_two]
    show ((0 * 1 + 0) * 1 + 0) * n + e.val = u.val * n + e.val
    rw [hu])

/-- The zero-or-one word of an equality test, widened to 32 bits and read as a number: 1 when the words are equal, else 0. -/
theorem sitofp_cmpi_eq (a b : BitVec 32) :
    (FloatOps.sitofp (F := Ideal) .f32 ((IntOp.cmpi .eq a b).setWidth 32) : EReal) = if a = b then 1 else 0 := by
  show ((((IntOp.cmpi .eq a b).setWidth 32).toInt : ℝ) : EReal) = _
  by_cases h : a = b
  · simp [IntOp.cmpi, h]
  · have hb : (a == b) = false := by simpa using h
    simp [IntOp.cmpi, h, hb]

/-- A select on the bit of an equality test is the `if` on the equality. -/
theorem select_cmpi_eq {α : Type} (a b : BitVec 32) (s t : α) :
    Scalar.select (IntOp.cmpi .eq a b) s t = if a = b then s else t := by
  by_cases h : a = b
  · simp [IntOp.cmpi, Scalar.select, h]
  · have hb : (a == b) = false := by simpa using h
    simp [IntOp.cmpi, Scalar.select, h, hb]

/-- The bf16 zero word is the number zero. -/
theorem ofBits_zero_bf16 : Ideal.ofBits .bf16 0x0000#16 = 0 := by simp [Ideal.ofBits, Ideal.ieee]

/-- The row selector's entry at row `r`, position `e`: 1 when the row's number is the word at `e`, else 0. -/
theorem rowSel_apply (x : IVec S1x1x1x1024 32) (hc : S1x1x1x1024.ShapeCasts S1x1024) (hi : S784x1.Iotas .tc 32 [0])
    (hb : S784x1.Broadcasts S784x1024) (hb' : S1x1024.Broadcasts S784x1024) (hw : 1 < 32) (hf : FTy.bits .bf16 < FTy.bits .f32)
    (r : Fin 784) (e : Fin 1024) :
    (truncf .bf16 (sitofp (F := Ideal) .f32 (extui 32 (cmpi .eq (broadcastTo S784x1024 (iota .tc S784x1 32 [0] hi) hb)
      (broadcastTo S784x1024 (shapeCast S1x1024 x hc) hb')) hw)) hf) (ix2 r e)
      = Cert.EdgeSum.onehot r (x (ix4 (0 : Fin 1) (0 : Fin 1) (0 : Fin 1) e)) := by
  show FloatOps.sitofp (F := Ideal) .f32 ((IntOp.cmpi .eq (broadcastTo S784x1024 (iota .tc S784x1 32 [0] hi) hb (ix2 r e))
    (broadcastTo S784x1024 (shapeCast S1x1024 x hc) hb' (ix2 r e))).setWidth 32) = _
  rw [broadcastTo_a1_ab_apply, broadcastTo_1b_ab_apply, shapeCast_111n_1n_apply, iota_single_apply, sitofp_cmpi_eq]
  rfl

/-- The lane selector's entry at lane `k`, position `e`: the carried value at `e` when the lane's number is the word
    at `e`, else zero. -/
theorem laneSel_apply (x : IVec S1x1x1x1024 32) (y : FVec Ideal S1x1x1x1024 .bf16) (hc : S1x1x1x1024.ShapeCasts S1x1024)
    (hc' : S1x1024.ShapeCasts S1x1024) (hi : S128x1.Iotas .tc 32 [0]) (hb : S128x1.Broadcasts S128x1024)
    (hb' : S1x1024.Broadcasts S128x1024) (k : Fin 128) (e : Fin 1024) :
    select (cmpi .eq (broadcastTo S128x1024 (iota .tc S128x1 32 [0] hi) hb) (broadcastTo S128x1024 (shapeCast S1x1024 x hc) hb'))
      (broadcastTo S128x1024 (shapeCast S1x1024 (shapeCast S1x1024 y hc) hc') hb')
      (broadcast S128x1024 (FloatOps.ofBits (F := Ideal) .bf16 0x0000#16)) (ix2 k e)
      = Cert.EdgeSum.pick k (x (ix4 (0 : Fin 1) (0 : Fin 1) (0 : Fin 1) e)) (y (ix4 (0 : Fin 1) (0 : Fin 1) (0 : Fin 1) e)) := by
  show Scalar.select (IntOp.cmpi .eq (broadcastTo S128x1024 (iota .tc S128x1 32 [0] hi) hb (ix2 k e))
      (broadcastTo S128x1024 (shapeCast S1x1024 x hc) hb' (ix2 k e)))
    (broadcastTo S128x1024 (shapeCast S1x1024 (shapeCast S1x1024 y hc) hc') hb' (ix2 k e)) (Ideal.ofBits .bf16 0x0000#16) = _
  rw [shapeCast_self, broadcastTo_a1_ab_apply, broadcastTo_1b_ab_apply, broadcastTo_1b_ab_apply, shapeCast_111n_1n_apply,
    shapeCast_111n_1n_apply, iota_single_apply, select_cmpi_eq, ofBits_zero_bf16]
  rfl

/-! ## The four payloads -/

theorem pay4_apply (x0 x1 : Vec Ideal S1x1x1x1024 .i32) (x2 x3 : Vec Ideal S1x1x1x1024 .bf16) (r : Fin 784) (k : Fin 128) :
    k0_pay4 (F := Ideal) x0 x1 x2 x3 (ix2 r k)
      = Cert.EdgeSum.tile (fun e => x0 (ix4 (0 : Fin 1) (0 : Fin 1) (0 : Fin 1) e)) (fun e => x1 (ix4 (0 : Fin 1) (0 : Fin 1) (0 : Fin 1) e))
          (fun e => x2 (ix4 (0 : Fin 1) (0 : Fin 1) (0 : Fin 1) e)) (fun e => x3 (ix4 (0 : Fin 1) (0 : Fin 1) (0 : Fin 1) e)) r k := by
  unfold k0_pay4
  rw [addf_apply, matmul_pay_apply, matmul_pay_apply]
  unfold Cert.EdgeSum.tile
  congr 1
  · refine Finset.sum_congr rfl fun e _ => ?_
    rw [rowSel_apply, laneSel_apply]
  · refine Finset.sum_congr rfl fun e _ => ?_
    rw [rowSel_apply, laneSel_apply]

theorem pay1_apply (v32 : FVec Ideal S784x128 .f32) (v33 : Vec Ideal S784x128 .f32) (y : S784x128.Idx) :
    k0_pay1 (F := Ideal) v32 v33 y = (v33 y : EReal) + v32 y := by
  unfold k0_pay1
  rw [shapeCast_self]
  rfl

theorem pay3_apply (y : S784x128.Idx) : k0_pay3 (F := Ideal) y = (0 : EReal) := by
  unfold k0_pay3
  rw [shapeCast_self]
  exact Ideal.ofBits_zero_f32

theorem pay2_apply (v41 : Vec Ideal S784x128 .f32) (r : Fin 784) (k : Fin 128) :
    k0_pay2 (F := Ideal) v41 (ix3 (0 : Fin 1) r k) = v41 (ix2 r k) := by
  unfold k0_pay2
  exact shapeCast_ab_1ab_apply v41 _ 0 r k

end Cert.KernelIdeal.PayValue

end
-- ==== Proof.KernelAcc.lean ====
/-
  The accumulation over the grid. The grid runs core by core, 3125 tiles each; after tile `i` of core `p` the accumulator
  holds the sum of that core's tiles `0 … i`, and the core's last tile writes that sum into plane `p` of the output array.
  So the output array after the run is, plane by plane, the sum of the core's 3125 tiles' contributions.
-/
import proofs.«408869_j46883863003658_3_alg».proof.Proof.Gen.KernelIdeal.Frame
import proofs.«408869_j46883863003658_3_alg».proof.Proof.KernelBody
import proofs.«408869_j46883863003658_3_alg».proof.Proof.KernelPay
import proofs.«408869_j46883863003658_3_alg».proof.Proof.Spec

set_option maxRecDepth 16384

noncomputable section

namespace Cert.KernelIdeal.AccValue

open Cert.KernelIdeal Cert.KernelIdeal.Gen
open Idealize.ShloMosaic Idealize.ShloMosaic.TcCoe Idealize.ShloMosaic.ValueIdx
open Idealize.SL Idealize.SL.Sem

variable (m : (ℓ : Loc nD τ sig) → Buf (Elt Ideal) ℓ)

/-- The four staged arrays as the region finds them, at their literal types. -/
abbrev rowsArr (c : Dev nD) : IVec S2x3125x1x1024 32 := V m c main_v51
abbrev lanesArr (c : Dev nD) : IVec S2x3125x1x1024 32 := V m c main_v52
abbrev hiArr (c : Dev nD) : FVec Ideal S2x3125x1x1024 .bf16 := V m c main_v53
abbrev loArr (c : Dev nD) : FVec Ideal S2x3125x1x1024 .bf16 := V m c main_v54

/-- The output array after the run, at its literal type. -/
abbrev planes (c : Dev nD) : FVec Ideal S2x784x128 .f32 := (dats m 0 c).arrAt 4 cfg0.N

/-- The four input blocks the body finds at point `t`, at their literal types. -/
abbrev xblk0 (c : Dev nD) (t : Fin cfg0.N) : IVec S1x1x1x1024 32 := iblk m c 0 t
abbrev xblk1 (c : Dev nD) (t : Fin cfg0.N) : IVec S1x1x1x1024 32 := iblk m c 1 t
abbrev xblk2 (c : Dev nD) (t : Fin cfg0.N) : FVec Ideal S1x1x1x1024 .bf16 := iblk m c 2 t
abbrev xblk3 (c : Dev nD) (t : Fin cfg0.N) : FVec Ideal S1x1x1x1024 .bf16 := iblk m c 3 t

/-- The accumulator after point `n`, at its literal type. -/
abbrev accAfter (c : Dev nD) (n : ℕ) (h : n < cfg0.N) : FVec Ideal S784x128 .f32 := (outsAt0 m c n h).2

/-- The block index maps over the grid: point `t` is core `t / 3125`, tile `t % 3125`; an input block is that core's
    that tile, the output block that core's plane. -/
theorem idx_facts : ∀ t : Fin cfg0.N,
    (win0_0.index t (0 : Fin 4) = t.val / 3125 ∧ win0_0.index t (1 : Fin 4) = t.val % 3125
      ∧ win0_0.index t (2 : Fin 4) = 0 ∧ win0_0.index t (3 : Fin 4) = 0)
    ∧ (win0_1.index t (0 : Fin 4) = t.val / 3125 ∧ win0_1.index t (1 : Fin 4) = t.val % 3125
      ∧ win0_1.index t (2 : Fin 4) = 0 ∧ win0_1.index t (3 : Fin 4) = 0)
    ∧ (win0_2.index t (0 : Fin 4) = t.val / 3125 ∧ win0_2.index t (1 : Fin 4) = t.val % 3125
      ∧ win0_2.index t (2 : Fin 4) = 0 ∧ win0_2.index t (3 : Fin 4) = 0)
    ∧ (win0_3.index t (0 : Fin 4) = t.val / 3125 ∧ win0_3.index t (1 : Fin 4) = t.val % 3125
      ∧ win0_3.index t (2 : Fin 4) = 0 ∧ win0_3.index t (3 : Fin 4) = 0)
    ∧ (win0_4.index t (0 : Fin 3) = t.val / 3125 ∧ win0_4.index t (1 : Fin 3) = 0 ∧ win0_4.index t (2 : Fin 3) = 0) :=
  (by decide +kernel : ∀ t : Fin grid0.N, _)

theorem core_lt (t : Fin cfg0.N) : t.val / 3125 < 2 := by
  have hN : cfg0.N = 6250 := N_0
  have := t.isLt
  omega

theorem tile_lt (t : Fin cfg0.N) : t.val % 3125 < 3125 := Nat.mod_lt _ (by decide)

/-- Position `e` of the first input block at point `t` is the array at core `t / 3125`, tile `t % 3125`, position `e`. -/
theorem xblk0_apply (c : Dev nD) (t : Fin cfg0.N) (e : Fin 1024) :
    xblk0 m c t (ix4 (0 : Fin 1) (0 : Fin 1) (0 : Fin 1) e)
      = rowsArr m c (ix4 (⟨t.val / 3125, core_lt t⟩ : Fin 2) (⟨t.val % 3125, tile_lt t⟩ : Fin 3125) (0 : Fin 1) e) := by
  obtain ⟨⟨e0, e1, e2, e3⟩, -⟩ := idx_facts t
  show V m c main_v51 (((cfg0.win 0).blk t).view.emb (ix4 (0 : Fin 1) (0 : Fin 1) (0 : Fin 1) e)) = V m c main_v51 _
  refine congrArg (V m c main_v51) (funext fun a => Fin.ext ?_)
  match a with
  | ⟨0, _⟩ => show win0_0.index t (0 : Fin 4) * 1 + 1 * 0 = t.val / 3125; omega
  | ⟨1, _⟩ => show win0_0.index t (1 : Fin 4) * 1 + 1 * 0 = t.val % 3125; omega
  | ⟨2, _⟩ => show win0_0.index t (2 : Fin 4) * 1 + 1 * 0 = 0; omega
  | ⟨3, _⟩ => show win0_0.index t (3 : Fin 4) * 1024 + 1 * e.val = e.val; omega

theorem xblk1_apply (c : Dev nD) (t : Fin cfg0.N) (e : Fin 1024) :
    xblk1 m c t (ix4 (0 : Fin 1) (0 : Fin 1) (0 : Fin 1) e)
      = lanesArr m c (ix4 (⟨t.val / 3125, core_lt t⟩ : Fin 2) (⟨t.val % 3125, tile_lt t⟩ : Fin 3125) (0 : Fin 1) e) := by
  obtain ⟨e0, e1, e2, e3⟩ := (idx_facts t).2.1
  show V m c main_v52 (((cfg0.win 1).blk t).view.emb (ix4 (0 : Fin 1) (0 : Fin 1) (0 : Fin 1) e)) = V m c main_v52 _
  refine congrArg (V m c main_v52) (funext fun a => Fin.ext ?_)
  match a with
  | ⟨0, _⟩ => show win0_1.index t (0 : Fin 4) * 1 + 1 * 0 = t.val / 3125; omega
  | ⟨1, _⟩ => show win0_1.index t (1 : Fin 4) * 1 + 1 * 0 = t.val % 3125; omega
  | ⟨2, _⟩ => show win0_1.index t (2 : Fin 4) * 1 + 1 * 0 = 0; omega
  | ⟨3, _⟩ => show win0_1.index t (3 : Fin 4) * 1024 + 1 * e.val = e.val; omega

theorem xblk2_apply (c : Dev nD) (t : Fin cfg0.N) (e : Fin 1024) :
    xblk2 m c t (ix4 (0 : Fin 1) (0 : Fin 1) (0 : Fin 1) e)
      = hiArr m c (ix4 (⟨t.val / 3125, core_lt t⟩ : Fin 2) (⟨t.val % 3125, tile_lt t⟩ : Fin 3125) (0 : Fin 1) e) := by
  obtain ⟨e0, e1, e2, e3⟩ := (idx_facts t).2.2.1
  show V m c main_v53 (((cfg0.win 2).blk t).view.emb (ix4 (0 : Fin 1) (0 : Fin 1) (0 : Fin 1) e)) = V m c main_v53 _
  refine congrArg (V m c main_v53) (funext fun a => Fin.ext ?_)
  match a with
  | ⟨0, _⟩ => show win0_2.index t (0 : Fin 4) * 1 + 1 * 0 = t.val / 3125; omega
  | ⟨1, _⟩ => show win0_2.index t (1 : Fin 4) * 1 + 1 * 0 = t.val % 3125; omega
  | ⟨2, _⟩ => show win0_2.index t (2 : Fin 4) * 1 + 1 * 0 = 0; omega
  | ⟨3, _⟩ => show win0_2.index t (3 : Fin 4) * 1024 + 1 * e.val = e.val; omega

theorem xblk3_apply (c : Dev nD) (t : Fin cfg0.N) (e : Fin 1024) :
    xblk3 m c t (ix4 (0 : Fin 1) (0 : Fin 1) (0 : Fin 1) e)
      = loArr m c (ix4 (⟨t.val / 3125, core_lt t⟩ : Fin 2) (⟨t.val % 3125, tile_lt t⟩ : Fin 3125) (0 : Fin 1) e) := by
  obtain ⟨e0, e1, e2, e3⟩ := (idx_facts t).2.2.2.1
  show V m c main_v54 (((cfg0.win 3).blk t).view.emb (ix4 (0 : Fin 1) (0 : Fin 1) (0 : Fin 1) e)) = V m c main_v54 _
  refine congrArg (V m c main_v54) (funext fun a => Fin.ext ?_)
  match a with
  | ⟨0, _⟩ => show win0_3.index t (0 : Fin 4) * 1 + 1 * 0 = t.val / 3125; omega
  | ⟨1, _⟩ => show win0_3.index t (1 : Fin 4) * 1 + 1 * 0 = t.val % 3125; omega
  | ⟨2, _⟩ => show win0_3.index t (2 : Fin 4) * 1 + 1 * 0 = 0; omega
  | ⟨3, _⟩ => show win0_3.index t (3 : Fin 4) * 1024 + 1 * e.val = e.val; omega

/-- Tile `i` of core `p` at row `r`, lane `k`, read off the four staged arrays; zero when `(p, i)` names no tile. -/
def tileN (c : Dev nD) (p i : ℕ) (r : Fin 784) (k : Fin 128) : EReal :=
  if h : p < 2 ∧ i < 3125 then
    Cert.EdgeSum.tile (fun e => rowsArr m c (ix4 (⟨p, h.1⟩ : Fin 2) (⟨i, h.2⟩ : Fin 3125) (0 : Fin 1) e))
      (fun e => lanesArr m c (ix4 (⟨p, h.1⟩ : Fin 2) (⟨i, h.2⟩ : Fin 3125) (0 : Fin 1) e))
      (fun e => hiArr m c (ix4 (⟨p, h.1⟩ : Fin 2) (⟨i, h.2⟩ : Fin 3125) (0 : Fin 1) e))
      (fun e => loArr m c (ix4 (⟨p, h.1⟩ : Fin 2) (⟨i, h.2⟩ : Fin 3125) (0 : Fin 1) e)) r k
  else 0

/-- The tile the body computes from the blocks at point `t` is tile `t % 3125` of core `t / 3125`. -/
theorem tile_blk (c : Dev nD) (t : Fin cfg0.N) (r : Fin 784) (k : Fin 128) :
    Cert.EdgeSum.tile (fun e => xblk0 m c t (ix4 (0 : Fin 1) (0 : Fin 1) (0 : Fin 1) e))
      (fun e => xblk1 m c t (ix4 (0 : Fin 1) (0 : Fin 1) (0 : Fin 1) e))
      (fun e => xblk2 m c t (ix4 (0 : Fin 1) (0 : Fin 1) (0 : Fin 1) e))
      (fun e => xblk3 m c t (ix4 (0 : Fin 1) (0 : Fin 1) (0 : Fin 1) e)) r k
      = tileN m c (t.val / 3125) (t.val % 3125) r k := by
  unfold tileN
  rw [dif_pos ⟨core_lt t, tile_lt t⟩]
  have h0 := funext (xblk0_apply m c t)
  have h1 := funext (xblk1_apply m c t)
  have h2 := funext (xblk2_apply m c t)
  have h3 := funext (xblk3_apply m c t)
  rw [h0, h1, h2, h3]

/-- At a core's first tile the accumulator ends at that tile's contribution. -/
theorem acc_first (c : Dev nD) (t : Fin cfg0.N) (h0 : t.val % 3125 = 0) (r : Fin 784) (k : Fin 128) :
    accAfter m c t.val t.isLt (ix2 r k) = tileN m c (t.val / 3125) (t.val % 3125) r k := by
  have h1 : ¬t.val % 3125 = 3124 := by omega
  show (outsAt0 m c t.val t.isLt).2 (ix2 r k) = _
  rw [outsAt0_A m c t h0 h1]
  dsimp only
  refine (congrFun (BodyValue.sout_A (F := Ideal) c (grid0.coords t) (ms0_0 t) (hs0_0 t) (ms0_1 t) (hs0_1 t) (ms0_2 t) (hs0_2 t)
    (ms0_3 t) (hs0_3 t) (ms0_4 t) (hs0_4 t) scM0_0 (Memref.isWhole_whole _) ((hcond0_0 t).mpr h0)
    (fun h => h1 ((hcond0_1 t).mp h)) (xblk0 m c t) (xblk1 m c t) (xblk2 m c t) (xblk3 m c t)) (ix2 r k)).trans ?_
  rw [PayValue.pay1_apply, PayValue.pay3_apply, PayValue.pay4_apply, zero_add]
  exact tile_blk m c t r k

/-- At any later tile the accumulator ends at what the tile before left plus that tile's contribution. -/
theorem acc_step (c : Dev nD) (t : Fin cfg0.N) (h0 : ¬t.val % 3125 = 0) (r : Fin 784) (k : Fin 128) :
    accAfter m c t.val t.isLt (ix2 r k)
      = accAfter m c (t.val - 1) (Nat.lt_of_le_of_lt (Nat.sub_le _ _) t.isLt) (ix2 r k)
        + tileN m c (t.val / 3125) (t.val % 3125) r k := by
  show (outsAt0 m c t.val t.isLt).2 (ix2 r k) = _
  by_cases h1 : t.val % 3125 = 3124
  · rw [outsAt0_C m c t h0 h1]
    dsimp only
    refine (congrFun (BodyValue.sout_C (F := Ideal) c (grid0.coords t) (ms0_0 t) (hs0_0 t) (ms0_1 t) (hs0_1 t) (ms0_2 t) (hs0_2 t)
      (ms0_3 t) (hs0_3 t) (ms0_4 t) (hs0_4 t) scM0_0 (Memref.isWhole_whole _)
      (fun h => h0 ((hcond0_0 t).mp h)) ((hcond0_1 t).mpr h1) (xblk0 m c t) (xblk1 m c t) (xblk2 m c t) (xblk3 m c t)
      (accAfter m c (t.val - 1) (Nat.lt_of_le_of_lt (Nat.sub_le _ _) t.isLt))) (ix2 r k)).trans ?_
    rw [PayValue.pay1_apply, PayValue.pay4_apply, tile_blk m c t r k]
  · rw [outsAt0_B m c t h0 h1]
    dsimp only
    refine (congrFun (BodyValue.sout_B (F := Ideal) c (grid0.coords t) (ms0_0 t) (hs0_0 t) (ms0_1 t) (hs0_1 t) (ms0_2 t) (hs0_2 t)
      (ms0_3 t) (hs0_3 t) (ms0_4 t) (hs0_4 t) scM0_0 (Memref.isWhole_whole _)
      (fun h => h0 ((hcond0_0 t).mp h)) (fun h => h1 ((hcond0_1 t).mp h)) (xblk0 m c t) (xblk1 m c t) (xblk2 m c t) (xblk3 m c t)
      (accAfter m c (t.val - 1) (Nat.lt_of_le_of_lt (Nat.sub_le _ _) t.isLt))) (ix2 r k)).trans ?_
    rw [PayValue.pay1_apply, PayValue.pay4_apply, tile_blk m c t r k]

/-- THE INVARIANT: after point `n`, tile `n % 3125` of core `n / 3125`, the accumulator holds the sum of that core's tiles
    `0 … n % 3125`. By induction on the point: a core's first tile resets, every other adds to what the one before left. -/
theorem acc_eq (c : Dev nD) (r : Fin 784) (k : Fin 128) (n : ℕ) : ∀ h : n < cfg0.N,
    accAfter m c n h (ix2 r k) = ∑ s ∈ Finset.range (n % 3125 + 1), tileN m c (n / 3125) s r k := by
  induction n with
  | zero =>
    intro h
    refine (acc_first m c ⟨0, h⟩ (Nat.zero_mod _) r k).trans ?_
    show tileN m c (0 / 3125) (0 % 3125) r k = _
    rw [Finset.sum_range_succ, Nat.zero_mod, Finset.sum_range_zero, zero_add]
  | succ n ih =>
    intro h
    by_cases h0 : (n + 1) % 3125 = 0
    · refine (acc_first m c ⟨n + 1, h⟩ h0 r k).trans ?_
      show tileN m c ((n + 1) / 3125) ((n + 1) % 3125) r k = _
      rw [Finset.sum_range_succ, h0, Finset.sum_range_zero, zero_add]
    · have hN : cfg0.N = 6250 := N_0
      have e1 : (n + 1) / 3125 = n / 3125 := by omega
      have e2 : (n + 1) % 3125 = n % 3125 + 1 := by omega
      refine (acc_step m c ⟨n + 1, h⟩ h0 r k).trans ?_
      show accAfter m c n (Nat.lt_of_succ_lt h) (ix2 r k) + tileN m c ((n + 1) / 3125) ((n + 1) % 3125) r k = _
      rw [Finset.sum_range_succ, e1, e2, ih (Nat.lt_of_succ_lt h)]

/-- After a core's last tile the accumulator holds the sum of all the core's tiles: the specification's plane. -/
theorem acc_last (c : Dev nD) (t : Fin cfg0.N) (h1 : t.val % 3125 = 3124) (r : Fin 784) (k : Fin 128) :
    accAfter m c t.val t.isLt (ix2 r k)
      = Cert.EdgeSum.planeOf (rowsArr m c) (lanesArr m c) (hiArr m c) (loArr m c) (⟨t.val / 3125, core_lt t⟩ : Fin 2) r k := by
  have e : t.val % 3125 + 1 = 3125 := by omega
  rw [acc_eq m c r k t.val t.isLt, e, Finset.sum_range]
  unfold Cert.EdgeSum.planeOf
  refine Finset.sum_congr rfl fun i _ => ?_
  unfold tileN
  exact dif_pos ⟨core_lt t, i.isLt⟩

/-- At a core's last tile the output block is the accumulator under a leading unit axis. -/
theorem out_last (c : Dev nD) (t : Fin cfg0.N) (h1 : t.val % 3125 = 3124) (r : Fin 784) (k : Fin 128) :
    ((outsAt0 m c t.val t.isLt).1 : FVec Ideal S1x784x128 .f32) (ix3 (0 : Fin 1) r k) = accAfter m c t.val t.isLt (ix2 r k) := by
  have h0 : ¬t.val % 3125 = 0 := by omega
  show (outsAt0 m c t.val t.isLt).1 (ix3 (0 : Fin 1) r k) = (outsAt0 m c t.val t.isLt).2 (ix2 r k)
  rw [outsAt0_C m c t h0 h1]
  dsimp only
  refine (congrFun (BodyValue.out_C (F := Ideal) c (grid0.coords t) (ms0_0 t) (hs0_0 t) (ms0_1 t) (hs0_1 t) (ms0_2 t) (hs0_2 t)
      (ms0_3 t) (hs0_3 t) (ms0_4 t) (hs0_4 t) scM0_0 (Memref.isWhole_whole _)
    (fun h => h0 ((hcond0_0 t).mp h)) ((hcond0_1 t).mpr h1) (xblk0 m c t) (xblk1 m c t) (xblk2 m c t) (xblk3 m c t)
    (accAfter m c (t.val - 1) (Nat.lt_of_le_of_lt (Nat.sub_le _ _) t.isLt))) (ix3 (0 : Fin 1) r k)).trans ?_
  refine (PayValue.pay2_apply _ r k).trans ?_
  exact (congrFun (BodyValue.sout_C (F := Ideal) c (grid0.coords t) (ms0_0 t) (hs0_0 t) (ms0_1 t) (hs0_1 t) (ms0_2 t) (hs0_2 t)
      (ms0_3 t) (hs0_3 t) (ms0_4 t) (hs0_4 t) scM0_0 (Memref.isWhole_whole _)
    (fun h => h0 ((hcond0_0 t).mp h)) ((hcond0_1 t).mpr h1) (xblk0 m c t) (xblk1 m c t) (xblk2 m c t) (xblk3 m c t)
    (accAfter m c (t.val - 1) (Nat.lt_of_le_of_lt (Nat.sub_le _ _) t.isLt))) (ix2 r k)).symm

/-- The output array the run is to end at: plane by plane the specification's sum over the core's tiles. -/
abbrev planesG (c : Dev nD) : FVec Ideal S2x784x128 .f32 := fun y =>
  Cert.EdgeSum.planeOf (rowsArr m c) (lanesArr m c) (hiArr m c) (loArr m c) (y 0) (y 1) (y 2)

/-- What a core's last tile writes back is its block — plane `t / 3125` — of that array. -/
theorem flushed_eq (c : Dev nD) (t : Fin cfg0.N) (hf : (cfg0.win 4).flush t = true) :
    (dats m 0 c).flushed 4 t = ((cfg0.win 4).blk t).view.read (Elt Ideal) (planesG m c) := by
  have h1 : t.val % 3125 = 3124 := (flush0_4 t).mp hf
  obtain ⟨e0, e1, e2⟩ := (idx_facts t).2.2.2.2
  show (cfg0.win 4).cut (grid0.coords t) ((dats m 0 c).after 4 t) = _
  rw [after0_4]
  funext y
  obtain ⟨a, r, k, rfl⟩ : ∃ (a : Fin 1) (r : Fin 784) (k : Fin 128), y = ix3 a r k := ⟨y 0, y 1, y 2, eq_ix3 y⟩
  obtain rfl : a = 0 := Subsingleton.elim _ _
  show (outsAt0 m c t.val t.isLt).1 (ix3 (0 : Fin 1) r k)
    = planesG m c (((cfg0.win 4).blk t).view.emb (ix3 (0 : Fin 1) r k))
  have hemb : ((cfg0.win 4).blk t).view.emb (ix3 (0 : Fin 1) r k) = ix3 (⟨t.val / 3125, core_lt t⟩ : Fin 2) r k := by
    funext a; apply Fin.ext
    match a with
    | ⟨0, _⟩ => show win0_4.index t (0 : Fin 3) * 1 + 1 * 0 = t.val / 3125; omega
    | ⟨1, _⟩ => show win0_4.index t (1 : Fin 3) * 784 + 1 * r.val = r.val; omega
    | ⟨2, _⟩ => show win0_4.index t (2 : Fin 3) * 128 + 1 * k.val = k.val; omega
  have hA := (out_last m c t h1 r k).trans (acc_last m c t h1 r k)
  have hB : planesG m c (ix3 (⟨t.val / 3125, core_lt t⟩ : Fin 2) r k)
      = Cert.EdgeSum.planeOf (rowsArr m c) (lanesArr m c) (hiArr m c) (loArr m c) (⟨t.val / 3125, core_lt t⟩ : Fin 2) r k := rfl
  have hC : planesG m c (((cfg0.win 4).blk t).view.emb (ix3 (0 : Fin 1) r k)) = planesG m c (ix3 (⟨t.val / 3125, core_lt t⟩ : Fin 2) r k) :=
    congrArg (planesG m c) hemb
  exact hA.trans (hB.symm.trans hC.symm)

/-- Every index of the output array is in the block some core's last tile writes back: plane `p` is core `p`'s. -/
theorem cover (i : S2x784x128.Idx) :
    ∃ t : Fin cfg0.N, (cfg0.win 4).flush t = true ∧ i ∈ ((cfg0.win 4).blk t).view.set := by
  have hN : cfg0.N = 6250 := N_0
  have hp : (i 0).val < 2 := (i 0).isLt
  have hr : (i 1).val < 784 := (i 1).isLt
  have hk : (i 2).val < 128 := (i 2).isLt
  obtain ⟨t, ht⟩ : ∃ t : Fin cfg0.N, t.val = 3125 * (i 0).val + 3124 := ⟨⟨3125 * (i 0).val + 3124, by omega⟩, rfl⟩
  obtain ⟨e0, e1, e2⟩ := (idx_facts t).2.2.2.2
  refine ⟨t, (flush0_4 t).mpr (by omega), ?_⟩
  show i ∈ ((View.whole main_v55).slice (win0_4.rect t)).set
  rw [View.set_slice_whole, Rect.mem_set_unit]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 784 ≤ (i 1).val ∧ (i 1).val < win0_4.index t (1 : Fin 3) * 784 + 784; omega
  | ⟨2, _⟩ => show win0_4.index t (2 : Fin 3) * 128 ≤ (i 2).val ∧ (i 2).val < win0_4.index t (2 : Fin 3) * 128 + 128; omega

/-- Plane `p`, row `r`, lane `k` of the output array after the run is the sum of core `p`'s tiles' contributions there. -/
theorem planes_apply (c : Dev nD) (p : Fin 2) (r : Fin 784) (k : Fin 128) :
    planes m c (ix3 p r k) = Cert.EdgeSum.planeOf (rowsArr m c) (lanesArr m c) (hiArr m c) (loArr m c) p r k := by
  have h : planes m c = planesG m c :=
    (dats m 0 c).arrAt_eq_of_cover 4 (planesG m c) (flushed_eq m c) cover
  exact congrFun h (ix3 p r k)

end Cert.KernelIdeal.AccValue

end
-- ==== Proof.KernelTail.lean ====
/-
  The host operations after the region: the two cores' planes are added (onto a zero), the [784, 128] sum is laid out as a
  vector of 100352, its first 100000 entries are kept and reshaped to a column. Entry `j` of the column is therefore zero plus
  the two planes' entries at row `j / 128`, lane `j mod 128`.
-/
import proofs.«408869_j46883863003658_3_alg».proof.Proof.Gen.KernelIdeal.Frame
import proofs.«408869_j46883863003658_3_alg».proof.Proof.Spec
import Idealize.ShloMosaic.PureOps.Ideal.Laws
import Idealize.ShloMosaic.Lib.ValueIdx
import Idealize.ShloMosaic.Lib.Pipeline.Value

set_option maxRecDepth 16384

noncomputable section

namespace Cert.KernelIdeal.TailValue

open Cert.KernelIdeal Cert.KernelIdeal.Gen
open Idealize.ShloMosaic Idealize.ShloMosaic.TcCoe Idealize.ShloMosaic.ValueIdx
open Idealize.SL Idealize.SL.Sem

variable (m : (ℓ : Loc nD τ sig) → Buf (Elt Ideal) ℓ)

/-- The output array after the run, at its literal type. -/
abbrev planes (c : Dev nD) : FVec Ideal S2x784x128 .f32 := (dats m 0 c).arrAt 4 cfg0.N

/-- The result column after the host tail, at its literal type. -/
abbrev resultCol (c : Dev nD) : FVec Ideal S100000x1 .f32 :=
  Pipeline.afterTail₀ cfgs (dats m) 0 (V0 m) [hostOps1] c main_v59

/-- The sum over the first axis of the [2, 784, 128] array leaves the [784, 128] array: the witness that names the inserted
    coordinate. -/
theorem reduces_planes : S2x784x128.Reduces [0] S784x128 := by decide

/-- Entry `j` of the result column: zero plus the two planes at row `j / 128`, lane `j mod 128`. -/
theorem result_apply (c : Dev nD) (y : S100000x1.Idx) :
    resultCol m c y = Cert.EdgeSum.zeroW
      + ∑ p : Fin 2, planes m c (ix3 p (⟨(y 0).val / 128, by have h : (y 0).val < 100000 := (y 0).isLt; omega⟩ : Fin 784)
          (⟨(y 0).val % 128, Nat.mod_lt _ (by decide)⟩ : Fin 128)) := by
  have hy0 : (y 0).val < 100000 := (y 0).isLt
  have hy1 : (y 1).val = 0 := by have h : (y 1).val < 1 := (y 1).isLt; omega
  -- what the region leaves in the output array is the array after the last grid point
  have hX : Pipeline.withArrays (cfgs 0).spec c (V0 m c) (fun w => (dats m 0 c).arrAt w (cfgs 0).N)
      (Proc.devRef .tc main_v55) = planes m c :=
    Pipeline.withArrays_arr spec0 launch0.win.arr_inj c _ _ 4
  unfold resultCol Pipeline.afterTail₀
  show StableHlo.after hostOps1 _ (Proc.devRef .tc main_v59) y = _
  after_results
  rw [hX]
  -- the column's entry (j, 0) is the vector's entry j: the same row-major position
  refine (shapeCast_apply (s := S100000) (t := S100000x1) _ shapeCasts_S100000_S100000x1 y
    (ix1 (⟨(y 0).val, hy0⟩ : Fin 100000)) ?_).trans ?_
  · rw [Shape.rowMajor_val_one, Shape.rowMajor_val_two]
    show (y 0).val = (y 0).val * 1 + (y 1).val
    omega
  -- the kept entries are the first 100000 entries of the vector of 100352
  refine (extractStridedSlice_apply (s := S100352) (t := S100000) ![0] _ slices_S100352_S100000_0
    (ix1 (⟨(y 0).val, hy0⟩ : Fin 100000)) (ix1 (⟨(y 0).val, by omega⟩ : Fin 100352)) ?_).trans ?_
  · intro a
    match a with
    | ⟨0, _⟩ => show (y 0).val = 0 + (y 0).val; omega
  -- entry j of the vector of 100352 is the [784, 128] array's entry at row j / 128, lane j mod 128,
  -- since (j / 128) * 128 + j mod 128 = j
  refine (shapeCast_apply (s := S784x128) (t := S100352) _ shapeCasts_S784x128_S100352
    (ix1 (⟨(y 0).val, by omega⟩ : Fin 100352))
    (ix2 (⟨(y 0).val / 128, by omega⟩ : Fin 784) (⟨(y 0).val % 128, Nat.mod_lt _ (by decide)⟩ : Fin 128)) ?_).trans ?_
  · rw [Shape.rowMajor_val_two, Shape.rowMajor_val_one]
    show (y 0).val / 128 * 128 + (y 0).val % 128 = (y 0).val
    omega
  -- the exact sum over the first axis: the initial value plus the entries of the two planes
  refine (Ideal.hostReduceAdd_single reducesTo_S2x784x128_S784x128_d0 reduces_planes
    (planes m c) (constant (F := Ideal) S_ .f32 0x00000000#32 (Shape.Idx.first h_S_)) _).trans ?_
  show Cert.EdgeSum.zeroW + ∑ p : Fin 2, planes m c (reduces_planes.lift
      (ix2 (⟨(y 0).val / 128, by omega⟩ : Fin 784) (⟨(y 0).val % 128, Nat.mod_lt _ (by decide)⟩ : Fin 128)) p) = _
  -- the index with plane p inserted before (row, lane) is (p, row, lane), coordinate by coordinate
  refine congrArg (Cert.EdgeSum.zeroW + ·) (Finset.sum_congr rfl fun p _ => ?_)
  refine congrArg (planes m c) (funext fun a => ?_)
  match a with
  | ⟨0, _⟩ => rfl
  | ⟨1, _⟩ => rfl
  | ⟨2, _⟩ => rfl

end Cert.KernelIdeal.TailValue

end
-- ==== Proof.KernelRun.lean ====
/-
  The kernel's run with its result named: every execution ends with the result column holding, at node `j`, zero plus the two
  cores' planes at row `j / 128`, lane `j mod 128`, each plane the sum of its core's tiles, each tile read off the per-edge row,
  lane and value words the host prepared.
-/
import proofs.«408869_j46883863003658_3_alg».proof.Proof.Gen.KernelIdeal.Frame
import proofs.«408869_j46883863003658_3_alg».proof.Proof.KernelHostInt
import proofs.«408869_j46883863003658_3_alg».proof.Proof.KernelHostFlt
import proofs.«408869_j46883863003658_3_alg».proof.Proof.KernelAcc
import proofs.«408869_j46883863003658_3_alg».proof.Proof.KernelTail
import proofs.«408869_j46883863003658_3_alg».proof.Proof.Spec

set_option maxRecDepth 16384

noncomputable section

namespace Cert.KernelIdeal.RunValue

open Cert.KernelIdeal Cert.KernelIdeal.Gen
open Idealize.ShloMosaic Idealize.ShloMosaic.TcCoe Idealize.ShloMosaic.ValueIdx
open Idealize.SL Idealize.SL.Sem

variable (m : (ℓ : Loc nD τ sig) → Buf (Elt Ideal) ℓ) (ρ : Dev nD → PrngReg)

/-- The kernel's result at node `y 0`, as the specification's function of the argument arrays. -/
abbrev outCol (c : Dev nD) : FVec Ideal S100000x1 .f32 := fun y =>
  Cert.EdgeSum.kerOut (HostInt.argEI m c) (HostInt.argENG m c) (HostInt.argAT m c) (HostInt.argPES m c) (y 0)

theorem result_eq (c : Dev nD) (y : S100000x1.Idx) : TailValue.resultCol m c y = outCol m c y := by
  rw [TailValue.result_apply]
  unfold outCol Cert.EdgeSum.kerOut
  refine congrArg (Cert.EdgeSum.zeroW + ·) (Finset.sum_congr rfl fun p _ => ?_)
  refine (AccValue.planes_apply m c p _ _).trans ?_
  unfold Cert.EdgeSum.planeOf
  refine Finset.sum_congr rfl fun i _ => ?_
  have hr : (fun e : Fin 1024 => AccValue.rowsArr m c (ix4 p i (0 : Fin 1) e))
      = fun e => Cert.EdgeSum.rowK (HostInt.argEI m c) (Cert.EdgeSum.edgeOf p i e) :=
    funext fun e => HostInt.rows_apply m c p i e
  have hl : (fun e : Fin 1024 => AccValue.lanesArr m c (ix4 p i (0 : Fin 1) e))
      = fun e => Cert.EdgeSum.laneK (HostInt.argEI m c) (Cert.EdgeSum.edgeOf p i e) :=
    funext fun e => HostInt.lanes_apply m c p i e
  have hh : (fun e : Fin 1024 => AccValue.hiArr m c (ix4 p i (0 : Fin 1) e))
      = fun e => Cert.EdgeSum.scaledK (HostInt.argEI m c) (HostInt.argENG m c) (HostInt.argAT m c) (HostInt.argPES m c)
          (Cert.EdgeSum.edgeOf p i e) :=
    funext fun e => HostFlt.his_apply m c p i e
  have hlo : (fun e : Fin 1024 => AccValue.loArr m c (ix4 p i (0 : Fin 1) e))
      = fun e => Cert.EdgeSum.restK (HostInt.argEI m c) (HostInt.argENG m c) (HostInt.argAT m c) (HostInt.argPES m c)
          (Cert.EdgeSum.edgeOf p i e) :=
    funext fun e => HostFlt.los_apply m c p i e
  rw [hr, hl, hh, hlo]

/-- Every weakly fair execution of the kernel's program ends with the result column at `outCol` and the arguments as launched. -/
theorem run : θ_run defs (onTc (τ := τ) (main (F := Ideal))) ⟨m, fun _ => 0, ρ⟩ (fun r => ∀ c : Dev nD,
      r.2.mem ((c.tc : Thread nD τ).loc main_v59) = outCol m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v59 (Pipeline.mem_restRefs_of main_v59 (by decide) (by decide))).trans (funext (result_eq m c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.RunValue

end
-- ==== Proof.LibScatter.lean ====
/-
  Accumulating scatters read at an index, and a filtered sum over a concatenation split at the seam.

  At the extended reals the host's scatter-add holds, at each operand element, the element plus the sum of the updates whose
  result index is that element. For a scatter of elements (operand [N], indices [E, 1], updates [E]) update e lands on element
  idx[e, 0] read as a signed integer; for a scatter of rows (operand [N, D], updates [E, D]) update (e, q) lands on (idx[e, 0], q).
  An update whose row is outside the operand lands nowhere.
-/
import proofs.«408869_j46883863003658_3_alg».proof.Proof.LibIndex
import Idealize.ShloMosaic.PureOps.Ideal
import Idealize.ShloMosaic.PureOps.Ideal.Laws

noncomputable section

namespace Cert.Gcn

open Idealize.ShloMosaic Idealize.ShloMosaic.ValueIdx

/-- The dimension numbers of an element scatter: operand `[N]`, scatter indices `[E, 1]`, updates `[E]`. -/
abbrev vecScatterDims (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- A one-axis index set is the range of its coordinate. -/
def idxEquiv1 {n : Nat} : (⟨1, ![n]⟩ : Shape).Idx ≃ Fin n where
  toFun j := j 0
  invFun a := ix1 a
  left_inv j := (eq_ix1 j).symm
  right_inv _ := rfl

/-- A sum over a one-axis index type is the sum over its coordinate. -/
theorem sum_idx1 {M : Type*} [AddCommMonoid M] {n : Nat} (f : (⟨1, ![n]⟩ : Shape).Idx → M) :
    ∑ j, f j = ∑ a : Fin n, f (ix1 a) := by
  rw [← Equiv.sum_comp (idxEquiv1 (n := n)).symm f]
  rfl

/-- Element scatter, the one operand axis: it is named by the map, so the window starts at the signed index read at `[e, 0]`. -/
theorem scatterVec_start {N E : Nat} (wf : ScatterDims.WF ⟨1, ![N]⟩ ⟨2, ![E, 1]⟩ ⟨1, ![E]⟩ [] [0] [0] 1)
    (idx : IVec ⟨2, ![E, 1]⟩ 32) (j : (⟨1, ![E]⟩ : Shape).Idx) :
    (vecScatterDims N E wf).start j idx 0 = (idx (ix2 (j 0) 0)).toInt := by
  unfold ScatterDims.start
  rw [dif_pos (show (0 : Fin 1) ∈ (vecScatterDims N E wf).scatterDimsToOperandDims from List.mem_singleton.mpr rfl)]
  have hsi : (vecScatterDims N E wf).siIdx j
      ⟨List.idxOf (0 : Fin 1) (vecScatterDims N E wf).scatterDimsToOperandDims,
        List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

/-- Element scatter, the one operand axis: it is inserted, so its window coordinate is zero. -/
theorem scatterVec_window {N E : Nat} (wf : ScatterDims.WF ⟨1, ![N]⟩ ⟨2, ![E, 1]⟩ ⟨1, ![E]⟩ [] [0] [0] 1)
    (j : (⟨1, ![E]⟩ : Shape).Idx) : (vecScatterDims N E wf).window j 0 = 0 := by
  unfold ScatterDims.window
  rw [dif_neg (show ¬ (0 : Fin 1) ∈ (vecScatterDims N E wf).sKept from
    (show ¬ (0 : Fin 1) ∈ (List.finRange 1).filter (fun a => a ∉ ([0] : List (Fin 1))) by decide))]

/-- Update `e` of an element scatter lands at element `n` exactly when `idx[e, 0] = n` as a signed integer. -/
theorem scatterVec_resultIdx_iff {N E : Nat} (wf : ScatterDims.WF ⟨1, ![N]⟩ ⟨2, ![E, 1]⟩ ⟨1, ![E]⟩ [] [0] [0] 1)
    (idx : IVec ⟨2, ![E, 1]⟩ 32) (j : (⟨1, ![E]⟩ : Shape).Idx) (i : (⟨1, ![N]⟩ : Shape).Idx) :
    (vecScatterDims N E wf).resultIdx? j idx = some i ↔ (idx (ix2 (j 0) 0)).toInt = ((i 0).val : Int) := by
  have hs := scatterVec_start wf idx j
  have hw := scatterVec_window wf j
  have hi : (i 0).val < N := (i 0).isLt
  constructor
  · intro h
    unfold ScatterDims.resultIdx? at h
    split at h
    · rename_i hr
      have hf := Option.some.inj h
      have h0 : ((vecScatterDims N E wf).start j idx 0 + ((vecScatterDims N E wf).window j 0 : Nat)).toNat
          = (i 0).val := congrArg Fin.val (congrFun hf 0)
      have hr0 := hr 0
      rw [hs, hw] at h0 hr0
      simp only [Nat.cast_zero, Int.add_zero] at h0 hr0
      omega
    · exact absurd h (by simp)
  · intro h
    have hall : ∀ a, 0 ≤ (vecScatterDims N E wf).start j idx a + ((vecScatterDims N E wf).window j a : Nat) ∧
        (vecScatterDims N E wf).start j idx a + ((vecScatterDims N E wf).window j a : Nat)
          < ((⟨1, ![N]⟩ : Shape).size a : Nat) := by
      intro a
      obtain rfl : a = 0 := Subsingleton.elim _ _
      rw [hs, hw, h]
      simp only [Nat.cast_zero, Int.add_zero]
      refine ⟨by omega, ?_⟩
      show ((i 0).val : Int) < (N : Int)
      omega
    unfold ScatterDims.resultIdx?
    rw [dif_pos hall]
    congr 1
    funext a
    obtain rfl : a = 0 := Subsingleton.elim _ _
    refine Fin.ext ?_
    show ((vecScatterDims N E wf).start j idx 0 + ((vecScatterDims N E wf).window j 0 : Nat)).toNat = (i 0).val
    rw [hs, hw, h]
    simp only [Nat.cast_zero, Int.add_zero, Int.toNat_natCast]

/-- Row scatter, axis 0: it is named by the map, so the window starts at the signed index read at `[e, 0]`. -/
theorem scatterRows_start0 {N E D : Nat} (wf : ScatterDims.WF ⟨2, ![N, D]⟩ ⟨2, ![E, 1]⟩ ⟨2, ![E, D]⟩ [1] [0] [0] 1)
    (idx : IVec ⟨2, ![E, 1]⟩ 32) (j : (⟨2, ![E, D]⟩ : Shape).Idx) :
    (rowScatterDims N E D wf).start j idx 0 = (idx (ix2 (j 0) 0)).toInt := by
  unfold ScatterDims.start
  rw [dif_pos (show (0 : Fin 2) ∈ (rowScatterDims N E D wf).scatterDimsToOperandDims from List.mem_singleton.mpr rfl)]
  have hsi : (rowScatterDims N E D wf).siIdx j
      ⟨List.idxOf (0 : Fin 2) (rowScatterDims N E D wf).scatterDimsToOperandDims,
        List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

/-- Row scatter, axis 0: it is inserted, so its window coordinate is zero. -/
theorem scatterRows_window0 {N E D : Nat} (wf : ScatterDims.WF ⟨2, ![N, D]⟩ ⟨2, ![E, 1]⟩ ⟨2, ![E, D]⟩ [1] [0] [0] 1)
    (j : (⟨2, ![E, D]⟩ : Shape).Idx) : (rowScatterDims N E D wf).window j 0 = 0 := by
  unfold ScatterDims.window
  rw [dif_neg (show ¬ (0 : Fin 2) ∈ (rowScatterDims N E D wf).sKept from
    (show ¬ (0 : Fin 2) ∈ (List.finRange 2).filter (fun a => a ∉ ([0] : List (Fin 2))) by decide))]

/-- Row scatter, axis 1: the map does not name it, so the window starts at zero. -/
theorem scatterRows_start1 {N E D : Nat} (wf : ScatterDims.WF ⟨2, ![N, D]⟩ ⟨2, ![E, 1]⟩ ⟨2, ![E, D]⟩ [1] [0] [0] 1)
    (idx : IVec ⟨2, ![E, 1]⟩ 32) (j : (⟨2, ![E, D]⟩ : Shape).Idx) :
    (rowScatterDims N E D wf).start j idx 1 = 0 := by
  unfold ScatterDims.start
  rw [dif_neg (show ¬ (1 : Fin 2) ∈ (rowScatterDims N E D wf).scatterDimsToOperandDims from
    (show ¬ (1 : Fin 2) ∈ ([0] : List (Fin 2)) by decide))]

/-- Row scatter, axis 1: it is the one window axis, so its window coordinate is the update's column. -/
theorem scatterRows_window1 {N E D : Nat} (wf : ScatterDims.WF ⟨2, ![N, D]⟩ ⟨2, ![E, 1]⟩ ⟨2, ![E, D]⟩ [1] [0] [0] 1)
    (j : (⟨2, ![E, D]⟩ : Shape).Idx) : (rowScatterDims N E D wf).window j 1 = (j 1).val := by
  unfold ScatterDims.window
  rw [dif_pos (show (1 : Fin 2) ∈ (rowScatterDims N E D wf).sKept from
    (show (1 : Fin 2) ∈ (List.finRange 2).filter (fun a => a ∉ ([0] : List (Fin 2))) by decide))]
  rfl

/-- Update `(e, c)` of a row scatter lands at `(n, c')` exactly when `idx[e, 0] = n` as a signed integer and `c = c'`. -/
theorem scatterRows_resultIdx_iff {N E D : Nat}
    (wf : ScatterDims.WF ⟨2, ![N, D]⟩ ⟨2, ![E, 1]⟩ ⟨2, ![E, D]⟩ [1] [0] [0] 1)
    (idx : IVec ⟨2, ![E, 1]⟩ 32) (j : (⟨2, ![E, D]⟩ : Shape).Idx) (i : (⟨2, ![N, D]⟩ : Shape).Idx) :
    (rowScatterDims N E D wf).resultIdx? j idx = some i
      ↔ (idx (ix2 (j 0) 0)).toInt = ((i 0).val : Int) ∧ j 1 = i 1 := by
  constructor
  · intro h
    obtain ⟨h0, h1⟩ := scatterRows_resultIdx wf idx j i h
    exact ⟨h0, Fin.ext h1⟩
  · rintro ⟨h0, h1⟩
    have hs0 := scatterRows_start0 wf idx j
    have hw0 := scatterRows_window0 wf j
    have hs1 := scatterRows_start1 wf idx j
    have hw1 := scatterRows_window1 wf j
    have hi0 : (i 0).val < N := idx2_lt0 i
    have hi1 : (i 1).val < D := idx2_lt1 i
    have h1v : (j 1).val = (i 1).val := congrArg Fin.val h1
    have hall : ∀ a, 0 ≤ (rowScatterDims N E D wf).start j idx a + ((rowScatterDims N E D wf).window j a : Nat) ∧
        (rowScatterDims N E D wf).start j idx a + ((rowScatterDims N E D wf).window j a : Nat)
          < ((⟨2, ![N, D]⟩ : Shape).size a : Nat) := by
      intro a
      match a with
      | ⟨0, _⟩ =>
        show 0 ≤ (rowScatterDims N E D wf).start j idx 0 + ((rowScatterDims N E D wf).window j 0 : Nat) ∧
          (rowScatterDims N E D wf).start j idx 0 + ((rowScatterDims N E D wf).window j 0 : Nat) < (N : Int)
        rw [hs0, hw0, h0]
        simp only [Nat.cast_zero, Int.add_zero]
        omega
      | ⟨1, _⟩ =>
        show 0 ≤ (rowScatterDims N E D wf).start j idx 1 + ((rowScatterDims N E D wf).window j 1 : Nat) ∧
          (rowScatterDims N E D wf).start j idx 1 + ((rowScatterDims N E D wf).window j 1 : Nat) < (D : Int)
        rw [hs1, hw1, h1v]
        simp only [Int.zero_add]
        omega
    unfold ScatterDims.resultIdx?
    rw [dif_pos hall]
    congr 1
    funext a
    refine Fin.ext ?_
    match a with
    | ⟨0, _⟩ =>
      show ((rowScatterDims N E D wf).start j idx 0 + ((rowScatterDims N E D wf).window j 0 : Nat)).toNat = (i 0).val
      rw [hs0, hw0, h0]
      simp only [Nat.cast_zero, Int.add_zero, Int.toNat_natCast]
    | ⟨1, _⟩ =>
      show ((rowScatterDims N E D wf).start j idx 1 + ((rowScatterDims N E D wf).window j 1 : Nat)).toNat = (i 1).val
      rw [hs1, hw1, h1v]
      simp only [Int.zero_add, Int.toNat_natCast]

/-- An element scatter-add at element `i`: the operand there plus the updates whose index word, read signed, is `i`. -/
theorem scatterAddVec_apply {N E : Nat} (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ 32) (upd : (⟨1, ![E]⟩ : Shape).Idx → EReal) (i : Fin N) :
    Ideal.hostScatterAdd (vecScatterDims N E wf) x idx upd (ix1 i)
      = x (ix1 i) + ∑ e ∈ Finset.univ.filter (fun e : Fin E => (idx (ix2 e (0 : Fin 1))).toInt = (i.val : Int)), upd (ix1 e) := by
  show x (ix1 i) + ∑ j ∈ Finset.univ.filter
      (fun j => (vecScatterDims N E wf).resultIdx? j idx = some (ix1 i)), upd j = _
  congr 1
  -- the updates that land at element `i` are, through the coordinate, the `e` whose index word is `i`
  refine Finset.sum_nbij' (fun j => j 0) (fun e => ix1 e) ?_ ?_ ?_ ?_ ?_
  · intro j hj
    exact Finset.mem_filter.mpr ⟨Finset.mem_univ _,
      (scatterVec_resultIdx_iff wf idx j (ix1 i)).mp (Finset.mem_filter.mp hj).2⟩
  · intro e he
    exact Finset.mem_filter.mpr ⟨Finset.mem_univ _,
      (scatterVec_resultIdx_iff wf idx (ix1 e) (ix1 i)).mpr (Finset.mem_filter.mp he).2⟩
  · intro j _
    exact (eq_ix1 j).symm
  · intro e _
    rfl
  · intro j _
    exact congrArg upd (eq_ix1 j)

/-- A row scatter-add at `(i, q)`: the operand there plus column `q` of the update rows whose index word, read signed, is `i`. -/
theorem scatterAddRows_apply {N E D : Nat} (wf : ScatterDims.WF ⟨2, ![N, D]⟩ ⟨2, ![E, 1]⟩ ⟨2, ![E, D]⟩ [1] [0] [0] 1)
    (x : (⟨2, ![N, D]⟩ : Shape).Idx → EReal) (idx : IVec ⟨2, ![E, 1]⟩ 32) (upd : (⟨2, ![E, D]⟩ : Shape).Idx → EReal)
    (i : Fin N) (q : Fin D) :
    Ideal.hostScatterAdd (rowScatterDims N E D wf) x idx upd (ix2 i q)
      = x (ix2 i q) + ∑ e ∈ Finset.univ.filter (fun e : Fin E => (idx (ix2 e (0 : Fin 1))).toInt = (i.val : Int)), upd (ix2 e q) := by
  show x (ix2 i q) + ∑ j ∈ Finset.univ.filter
      (fun j => (rowScatterDims N E D wf).resultIdx? j idx = some (ix2 i q)), upd j = _
  congr 1
  -- an update that lands at `(i, q)` has column `q`, so it is `(e, q)` for a row `e` whose index word is `i`
  have hcol : ∀ j : (⟨2, ![E, D]⟩ : Shape).Idx,
      (rowScatterDims N E D wf).resultIdx? j idx = some (ix2 i q) → ix2 (j 0) q = j := by
    intro j hj
    have hq : j 1 = q := ((scatterRows_resultIdx_iff wf idx j (ix2 i q)).mp hj).2
    rw [← hq]
    exact (eq_ix2 j).symm
  refine Finset.sum_nbij' (fun j => j 0) (fun e => ix2 e q) ?_ ?_ ?_ ?_ ?_
  · intro j hj
    exact Finset.mem_filter.mpr ⟨Finset.mem_univ _,
      ((scatterRows_resultIdx_iff wf idx j (ix2 i q)).mp (Finset.mem_filter.mp hj).2).1⟩
  · intro e he
    exact Finset.mem_filter.mpr ⟨Finset.mem_univ _,
      (scatterRows_resultIdx_iff wf idx (ix2 e q) (ix2 i q)).mpr ⟨(Finset.mem_filter.mp he).2, rfl⟩⟩
  · intro j hj
    exact hcol j (Finset.mem_filter.mp hj).2
  · intro e _
    rfl
  · intro j hj
    exact congrArg upd (hcol j (Finset.mem_filter.mp hj).2).symm

/-- A filtered sum over `Fin (A + B)` splits at `A`. -/
theorem sum_filter_fin_add {M : Type*} [AddCommMonoid M] (A B : Nat) (p : Fin (A + B) → Prop) [DecidablePred p]
    (u : Fin (A + B) → M) :
    ∑ j ∈ Finset.univ.filter p, u j
      = ∑ a ∈ Finset.univ.filter (fun a : Fin A => p (Fin.castAdd B a)), u (Fin.castAdd B a)
        + ∑ b ∈ Finset.univ.filter (fun b : Fin B => p (Fin.natAdd A b)), u (Fin.natAdd A b) := by
  -- a filtered sum is the sum of the terms switched off where the predicate fails; that sum splits at the seam
  rw [Finset.sum_filter, Finset.sum_filter, Finset.sum_filter, Fin.sum_univ_add]

end Cert.Gcn

end
-- ==== Proof.RefValue.lean ====
/-
  The reference's result, read at a node: its last operation is an accumulating scatter of the per-edge contributions into
  a column of zeros by the centre words; the contribution of edge `e` is `edge_eng[e, 0]` times the table's entry at the two
  species times 1/8.
-/
import proofs.«408869_j46883863003658_3_alg».proof.Proof.Gen.ReferenceIdeal.Run
import proofs.«408869_j46883863003658_3_alg».proof.Proof.Gen.ReferenceIdeal.Read
import proofs.«408869_j46883863003658_3_alg».proof.Proof.Spec
import proofs.«408869_j46883863003658_3_alg».proof.Proof.LibScatter
import proofs.«408869_j46883863003658_3_alg».proof.Proof.LibPairGather

noncomputable section

namespace Cert.ReferenceIdeal.RefValue

open Cert.ReferenceIdeal Cert.ReferenceIdeal.Gen Idealize.ShloMosaic Idealize.ShloMosaic.ValueIdx
open Cert.EdgeSum (cen nei wrapIdx speciesAt species scaleAt updR refOut eighth zeroW)
open Cert.Gcn (crow vecGatherDims pairGatherDims rowScatterDims gatherVec_apply gatherPair_apply scatterAddRows_apply)

section
variable (x0 : (⟨S2x6400000, .i32⟩ : BufTy).Contents (Elt Ideal)) (x1 : (⟨S6400000x1, .f32⟩ : BufTy).Contents (Elt Ideal))
  (x2 : (⟨S100000x1, .i32⟩ : BufTy).Contents (Elt Ideal)) (x3 : (⟨S8x8, .f32⟩ : BufTy).Contents (Elt Ideal))

/-- The scatter's dimension numbers are the row scatter's. -/
theorem scatter_rec : scatter_S100000x1_S6400000x1_S6400000x1_1_0_0_1
    = rowScatterDims 100000 6400000 1 scatter_S100000x1_S6400000x1_S6400000x1_1_0_0_1_wf := rfl

/-- The species gathers' dimension numbers are the element gather's. -/
theorem gatherVec_rec : gather_S100000_S6400000x1_S6400000_n_0_n_n_0_1_1
    = vecGatherDims 100000 6400000 gather_S100000_S6400000x1_S6400000_n_0_n_n_0_1_1_wf := rfl

/-- The table gather's dimension numbers are the pair gather's. -/
theorem gatherPair_rec : gather_S8x8_S6400000x2_S6400000_n_01_n_n_01_1_11
    = pairGatherDims 8 8 6400000 gather_S8x8_S6400000x2_S6400000_n_01_n_n_01_1_11_wf := rfl

/-- A column `[E, 1]` made from a vector `[E]` is read at `(e, 0)` from the vector at `e`; here for the centre's column. -/
theorem idx29 (e : Fin 6400000) : Read.idx_main_v29 (ix2 e (0 : Fin 1)) = ix1 e := by
  funext a
  match a with
  | ⟨0, _⟩ => rfl

/-- The same for the neighbour's column. -/
theorem idx30 (e : Fin 6400000) : Read.idx_main_v30 (ix2 e (0 : Fin 1)) = ix1 e := by
  funext a
  match a with
  | ⟨0, _⟩ => rfl

/-- The same for the column of scales. -/
theorem idx33 (e : Fin 6400000) : Read.idx_main_v33 (ix2 e (0 : Fin 1)) = ix1 e := by
  funext a
  match a with
  | ⟨0, _⟩ => rfl

/-- The same for the scatter's index column. -/
theorem idx38 (e : Fin 6400000) : Read.idx_main_v38 (ix2 e (0 : Fin 1)) = ix1 e := by
  funext a
  match a with
  | ⟨0, _⟩ => rfl

/-- Row 0 of the index pairs, as a vector, is the centre words. -/
theorem v1_read (e : Fin 6400000) : Read.val_main_v1 (F := Ideal) x0 (ix1 e) = cen x0 e := by
  rw [Read.val_main_v1_apply, Read.val_main_v0_apply]
  show x0 _ = x0 _
  congr 1
  funext a
  refine Fin.ext ?_
  match a with
  | ⟨0, _⟩ => rfl
  | ⟨1, _⟩ => exact Nat.mod_eq_of_lt e.isLt

/-- Row 1 of the index pairs, as a vector, is the neighbour words. -/
theorem v3_read (e : Fin 6400000) : Read.val_main_v3 (F := Ideal) x0 (ix1 e) = nei x0 e := by
  rw [Read.val_main_v3_apply, Read.val_main_v2_apply]
  show x0 _ = x0 _
  congr 1
  funext a
  refine Fin.ext ?_
  match a with
  | ⟨0, _⟩ => rfl
  | ⟨1, _⟩ => exact Nat.mod_eq_of_lt e.isLt

/-- The centre word wrapped by the number of nodes. -/
theorem v9_read (e : Fin 6400000) : Read.val_main_v9 (F := Ideal) x0 (ix1 e) = wrapIdx 100000#32 (cen x0 e) := by
  rw [Read.val_main_v9_apply, Read.val_main_v6_apply, Read.val_main_v8_apply, Read.val_main_v5_apply,
    Read.val_main_v7_apply, Read.val_main_c_apply, Read.val_main_c_0_apply, v1_read]
  rfl

/-- The neighbour word wrapped by the number of nodes. -/
theorem v16_read (e : Fin 6400000) : Read.val_main_v16 (F := Ideal) x0 (ix1 e) = wrapIdx 100000#32 (nei x0 e) := by
  rw [Read.val_main_v16_apply, Read.val_main_v13_apply, Read.val_main_v15_apply, Read.val_main_v12_apply,
    Read.val_main_v14_apply, Read.val_main_c_1_apply, Read.val_main_c_2_apply, v3_read]
  rfl

/-- The species column as a vector. -/
theorem v4_read (r : Fin 100000) : Read.val_main_v4 (F := Ideal) x2 (ix1 r) = x2 (ix2 r (0 : Fin 1)) := by
  rw [Read.val_main_v4_apply]
  show x2 _ = x2 _
  congr 1
  funext a
  refine Fin.ext ?_
  match a with
  | ⟨0, _⟩ => exact Nat.div_one _
  | ⟨1, _⟩ => rfl

/-- The species of the centre. -/
theorem v11_read (e : Fin 6400000) : Read.val_main_v11 (F := Ideal) x0 x2 (ix1 e) = speciesAt x2 (cen x0 e) := by
  unfold Read.val_main_v11
  rw [gatherVec_rec, gatherVec_apply (N := 100000) (E := 6400000) (by decide), v4_read, Read.val_main_v10_apply]
  show x2 (ix2 (crow 100000 _ (Read.val_main_v9 (F := Ideal) x0 (ix1 e))) (0 : Fin 1)) = _
  rw [v9_read]
  rfl

/-- The species of the neighbour. -/
theorem v18_read (e : Fin 6400000) : Read.val_main_v18 (F := Ideal) x0 x2 (ix1 e) = speciesAt x2 (nei x0 e) := by
  unfold Read.val_main_v18
  rw [gatherVec_rec, gatherVec_apply (N := 100000) (E := 6400000) (by decide), v4_read, Read.val_main_v17_apply]
  show x2 (ix2 (crow 100000 _ (Read.val_main_v16 (F := Ideal) x0 (ix1 e))) (0 : Fin 1)) = _
  rw [v16_read]
  rfl

/-- The centre's species wrapped by the table's extent. -/
theorem v23_read (e : Fin 6400000) :
    Read.val_main_v23 (F := Ideal) x0 x2 (ix1 e) = wrapIdx 8#32 (speciesAt x2 (cen x0 e)) := by
  rw [Read.val_main_v23_apply, Read.val_main_v20_apply, Read.val_main_v22_apply, Read.val_main_v19_apply,
    Read.val_main_v21_apply, Read.val_main_c_3_apply, Read.val_main_c_4_apply, v11_read]
  rfl

/-- The neighbour's species wrapped by the table's extent. -/
theorem v28_read (e : Fin 6400000) :
    Read.val_main_v28 (F := Ideal) x0 x2 (ix1 e) = wrapIdx 8#32 (speciesAt x2 (nei x0 e)) := by
  rw [Read.val_main_v28_apply, Read.val_main_v25_apply, Read.val_main_v27_apply, Read.val_main_v24_apply,
    Read.val_main_v26_apply, Read.val_main_c_5_apply, Read.val_main_c_6_apply, v18_read]
  rfl

/-- Column 0 of the joined index pairs is the first column. -/
theorem v31_read0 (e : Fin 6400000) :
    Read.val_main_v31 (F := Ideal) x0 x2 (ix2 e (0 : Fin 2)) = wrapIdx 8#32 (speciesAt x2 (cen x0 e)) := by
  unfold Read.val_main_v31
  refine (concatenate_pair_apply_left (1 : Fin S6400000x2.rank) (Read.val_main_v29 (F := Ideal) x0 x2)
    (Read.val_main_v30 (F := Ideal) x0 x2) concatenates_S6400000x1_S6400000x1_S6400000x2_d1 (ix2 e (0 : Fin 2)) rfl
    (ix2 e (0 : Fin 1)) ?_).trans ?_
  · intro b
    match b with
    | ⟨0, _⟩ => rfl
    | ⟨1, _⟩ => rfl
  · rw [Read.val_main_v29_apply]
    rw [idx29, v23_read]

/-- Column 1 of the joined index pairs is the second column. -/
theorem v31_read1 (e : Fin 6400000) :
    Read.val_main_v31 (F := Ideal) x0 x2 (ix2 e (1 : Fin 2)) = wrapIdx 8#32 (speciesAt x2 (nei x0 e)) := by
  unfold Read.val_main_v31
  refine (concatenate_pair_apply_right (1 : Fin S6400000x2.rank) (Read.val_main_v29 (F := Ideal) x0 x2)
    (Read.val_main_v30 (F := Ideal) x0 x2) concatenates_S6400000x1_S6400000x1_S6400000x2_d1 (ix2 e (1 : Fin 2)) rfl rfl
    (ix2 e (0 : Fin 1)) ?_ ?_).trans ?_
  · intro b hb
    match b, hb with
    | ⟨0, _⟩, _ => rfl
    | ⟨1, _⟩, hb => exact absurd rfl hb
  · rfl
  · rw [Read.val_main_v30_apply]
    rw [idx30, v28_read]

/-- The table's entry at the two species. -/
theorem v32_read (e : Fin 6400000) :
    Read.val_main_v32 (F := Ideal) x0 x2 x3 (ix1 e) = scaleAt x2 x3 (cen x0 e) (nei x0 e) := by
  unfold Read.val_main_v32
  rw [gatherPair_rec, gatherPair_apply (A := 8) (B := 8) (E := 6400000) (by decide) (by decide)]
  show x3 (ix2 (crow 8 _ (Read.val_main_v31 (F := Ideal) x0 x2 (ix2 e (0 : Fin 2))))
    (crow 8 _ (Read.val_main_v31 (F := Ideal) x0 x2 (ix2 e (1 : Fin 2))))) = _
  rw [v31_read0, v31_read1]
  rfl

/-- The contribution of an edge. -/
theorem v36_read (e : Fin 6400000) :
    Read.val_main_v36 (F := Ideal) x0 x1 x2 x3 (ix2 e (0 : Fin 1)) = updR x0 x1 x2 x3 e := by
  rw [Read.val_main_v36_apply, Read.val_main_v34_apply, Read.val_main_v33_apply, Read.val_main_v35_apply,
    Read.val_main_cst_apply]
  rw [idx33, v32_read]
  rfl

/-- The scatter's index column is the centre words. -/
theorem v38_read (e : Fin 6400000) : Read.val_main_v38 (F := Ideal) x0 (ix2 e (0 : Fin 1)) = cen x0 e := by
  rw [Read.val_main_v38_apply]
  rw [idx38, v1_read]

end

/-- At the extended reals the host's accumulating scatter is the exact one. -/
theorem scatterAdd_ideal {s si u : Shape} {φ : FTy} {w : Nat} (d : ScatterDims s si u) (x : FVec Ideal s φ) (idx : IVec si w)
    (upd : FVec Ideal u φ) : Host.scatterAdd (F := Ideal) d x idx upd = Ideal.hostScatterAdd d x idx upd := rfl

/-- The reference's result column at node `y 0` is the specification's `refOut`. -/
theorem result_apply (x0 : (⟨S2x6400000, .i32⟩ : BufTy).Contents (Elt Ideal)) (x1 : (⟨S6400000x1, .f32⟩ : BufTy).Contents (Elt Ideal))
    (x2 : (⟨S100000x1, .i32⟩ : BufTy).Contents (Elt Ideal)) (x3 : (⟨S8x8, .f32⟩ : BufTy).Contents (Elt Ideal)) (y : S100000x1.Idx) :
    Cert.ReferenceIdeal.Read.val_main_v39 (F := Ideal) x0 x1 x2 x3 y = Cert.EdgeSum.refOut x0 x1 x2 x3 (y 0) := by
  obtain ⟨j, q, rfl⟩ : ∃ (j : Fin 100000) (q : Fin 1), y = ix2 j q := ⟨y 0, y 1, eq_ix2 y⟩
  obtain rfl : q = 0 := Subsingleton.elim _ _
  show Read.val_main_v39 (F := Ideal) x0 x1 x2 x3 (ix2 j (0 : Fin 1)) = refOut x0 x1 x2 x3 j
  have h0 : Read.val_main_v37 (F := Ideal) (ix2 j (0 : Fin 1)) = zeroW := by
    rw [Read.val_main_v37_apply, Read.val_main_cst_7_apply]
    rfl
  unfold Read.val_main_v39
  rw [scatterAdd_ideal, scatter_rec, scatterAddRows_apply]
  unfold Cert.EdgeSum.refOut
  rewrite [h0]
  refine congrArg (fun s => zeroW + s) ?_
  refine Finset.sum_congr (Finset.filter_congr (fun e _ => ?_)) (fun e _ => ?_)
  · rw [v38_read]
  · exact v36_read x0 x1 x2 x3 e

end Cert.ReferenceIdeal.RefValue

end
-- ==== Proof.IntFacts.lean ====
/-
  Integer facts about the index words: when a word is a node number the clip leaves it alone, a nonnegative word is not
  wrapped, and for a word in the node range the floor quotient and remainder by 128 are the row and lane numbers, so the
  row selector and the lane selector together pick exactly one node.
-/
import proofs.«408869_j46883863003658_3_alg».proof.Proof.Spec

noncomputable section

namespace Cert.EdgeSum

open Idealize.ShloMosaic Idealize.ShloMosaic.ValueIdx

/-- A one-bit flag made from a truth value is 1 exactly when the truth value is true. -/
theorem ofBool_eq_one_iff (b : Bool) : BitVec.ofBool b = 1#1 ↔ b = true := by
  cases b <;> decide

/-- A natural number below 2^31, made a 32-bit word, reads back signed as itself. -/
theorem toInt_ofNat_of_lt (n : Nat) (h : n < 2147483648) : (BitVec.ofNat 32 n).toInt = (n : Int) := by
  have hn : (BitVec.ofNat 32 n).toNat = n := by
    rw [BitVec.toNat_ofNat]; exact Nat.mod_eq_of_lt (by omega)
  rw [BitVec.toInt_eq_toNat_of_lt (by rw [hn]; omega), hn]

/-- A word that reads signed as a nonnegative number reads unsigned as the same number. -/
theorem toNat_of_toInt_nonneg (v : BitVec 32) (h : 0 ≤ v.toInt) : (v.toNat : Int) = v.toInt := by
  have := (BitVec.toInt_pos_iff (x := v)).1 h
  rw [BitVec.toInt_eq_toNat_of_lt this]

theorem isNode_iff (v : BitVec 32) : isNode v = 1#1 ↔ (0 ≤ v.toInt ∧ v.toInt < 100000) := by
  have e0 : (0#32).toInt = 0 := by decide
  have e1 : (100000#32).toInt = 100000 := by decide
  have ha : (0#32).sle v = decide (0 ≤ v.toInt) := by rw [BitVec.sle_eq_decide, e0]
  have hb : v.slt 100000#32 = decide (v.toInt < 100000) := by rw [BitVec.slt_eq_decide, e1]
  unfold isNode
  simp only [IntOp.andi, IntOp.cmpi, ha, hb, BitVec.ofBool_and_ofBool, ofBool_eq_one_iff, Bool.and_eq_true,
    decide_eq_true_eq]

theorem clipIdx_of_range (v : BitVec 32) (h0 : 0 ≤ v.toInt) (h1 : v.toInt < 100000) : clipIdx v = v := by
  have e0 : (0#32).toInt = 0 := by decide
  have e1 : (99999#32).toInt = 99999 := by decide
  have ha : v.slt 0#32 = false := by
    rw [BitVec.slt_eq_decide, e0]; exact decide_eq_false (by omega)
  have hb : (99999#32).slt v = false := by
    rw [BitVec.slt_eq_decide, e1]; exact decide_eq_false (by omega)
  unfold clipIdx
  simp [IntOp.minsi, IntOp.maxsi, ha, hb]

theorem clipIdx_range (v : BitVec 32) : 0 ≤ (clipIdx v).toInt ∧ (clipIdx v).toInt < 100000 := by
  have e0 : (0#32).toInt = 0 := by decide
  have e1 : (99999#32).toInt = 99999 := by decide
  unfold clipIdx
  simp only [IntOp.minsi, IntOp.maxsi, BitVec.slt_eq_decide, e0, e1]
  by_cases ha : v.toInt < 0
  · simp [ha, e0]
  · by_cases hb : 99999 < v.toInt
    · simp [ha, hb, e1]
    · simp only [ha, hb, decide_false, decide_true, if_false, Bool.false_eq_true]
      omega

theorem wrapIdx_of_nonneg (n v : BitVec 32) (h : 0 ≤ v.toInt) : wrapIdx n v = v := by
  have e0 : (0#32).toInt = 0 := by decide
  have ha : v.slt 0#32 = false := by
    rw [BitVec.slt_eq_decide, e0]; exact decide_eq_false (by omega)
  unfold wrapIdx
  simp [Scalar.select, IntOp.cmpi, ha]

/-- The quotient of a word by 128 is off the division's corner: it is the truncating signed quotient. -/
theorem divsi_host_128 (v : BitVec 32) : IntOp.divsi .host v 128#32 = v.sdiv 128#32 := by
  have hc : ¬ IntOp.SDivCorner v 128#32 := by
    unfold IntOp.SDivCorner
    rintro (h | ⟨_, h⟩)
    · exact absurd h (by decide)
    · exact absurd h (by decide)
  simp only [IntOp.divsi, if_neg hc]

/-- The remainder of a word by 128 is off the division's corner: it is the truncating signed remainder. -/
theorem remsi_host_128 (v : BitVec 32) : IntOp.remsi .host v 128#32 = v.srem 128#32 := by
  have hc : ¬ IntOp.SDivCorner v 128#32 := by
    unfold IntOp.SDivCorner
    rintro (h | ⟨_, h⟩)
    · exact absurd h (by decide)
    · exact absurd h (by decide)
  simp only [IntOp.remsi, if_neg hc]

theorem toInt_srem_128 (v : BitVec 32) (h0 : 0 ≤ v.toInt) : (v.srem 128#32).toInt = v.toInt % 128 := by
  have e : (128#32).toInt = 128 := by decide
  rw [BitVec.toInt_srem, Int.tmod_eq_emod_of_nonneg h0, e]

theorem toInt_sdiv_128 (v : BitVec 32) (h0 : 0 ≤ v.toInt) : (v.sdiv 128#32).toInt = v.toInt / 128 := by
  have e : (128#32).toInt = 128 := by decide
  rw [BitVec.toInt_sdiv_of_ne_or_ne v 128#32 (Or.inr (by decide)), Int.tdiv_eq_ediv_of_nonneg h0, e]

theorem laneDiv_eq : laneDiv = 128#32 := by decide

/-- For a nonnegative word the floor quotient by 128 is the truncated quotient: the signs agree unless the word is zero,
    and then the division is exact. -/
theorem rowOf_of_nonneg (v : BitVec 32) (h0 : 0 ≤ v.toInt) : rowOf v = v.sdiv 128#32 := by
  have hm : v.msb = false := by rw [BitVec.msb_eq_toInt]; exact decide_eq_false (by omega)
  have hs : sgn 128#32 = 1#32 := by decide
  unfold rowOf
  rw [divsi_host_128, remsi_host_128, hs]
  by_cases hv : v = 0
  · subst hv
    simp [Scalar.select, IntOp.andi, IntOp.cmpi]
  · have hv' : ¬ v = 0#32 := hv
    have h1 : sgn v = 1#32 := by simp [sgn, hv', hm]
    rw [h1]
    simp [Scalar.select, IntOp.andi, IntOp.cmpi]

/-- For a nonnegative word the remainder modulo 128 with the divisor's sign is the truncated remainder, which is already
    nonnegative. -/
theorem laneOf_of_nonneg (v : BitVec 32) (h0 : 0 ≤ v.toInt) : laneOf v = v.srem 128#32 := by
  have e0 : (0#32).toInt = 0 := by decide
  have ha : (v.srem 128#32).slt 0#32 = false := by
    rw [BitVec.slt_eq_decide, e0, toInt_srem_128 v h0]; exact decide_eq_false (by omega)
  have hb : (128#32).slt 0#32 = false := by decide
  unfold laneOf
  rw [laneDiv_eq, remsi_host_128]
  simp [Scalar.select, IntOp.andi, IntOp.cmpi, ha, hb]

/-- The row word of a word in the node range is its number's quotient by 128. -/
theorem rowOf_of_range (v : BitVec 32) (h0 : 0 ≤ v.toInt) (h1 : v.toInt < 100000) :
    rowOf v = BitVec.ofNat 32 (v.toNat / 128) := by
  have hn := toNat_of_toInt_nonneg v h0
  rw [rowOf_of_nonneg v h0]
  apply BitVec.eq_of_toInt_eq
  rw [toInt_sdiv_128 v h0, toInt_ofNat_of_lt _ (by omega)]
  omega

/-- The lane word of a word in the node range is its number's remainder modulo 128. -/
theorem laneOf_of_range (v : BitVec 32) (h0 : 0 ≤ v.toInt) (h1 : v.toInt < 100000) :
    laneOf v = BitVec.ofNat 32 (v.toNat % 128) := by
  have hn := toNat_of_toInt_nonneg v h0
  rw [laneOf_of_nonneg v h0]
  apply BitVec.eq_of_toInt_eq
  rw [toInt_srem_128 v h0, toInt_ofNat_of_lt _ (by omega)]
  omega

/-- Two natural numbers below 2^31 give the same 32-bit word only when they are equal. -/
theorem ofNat_inj_of_lt (a b : Nat) (ha : a < 2147483648) (hb : b < 2147483648) :
    BitVec.ofNat 32 a = BitVec.ofNat 32 b ↔ a = b := by
  constructor
  · intro h
    have := congrArg BitVec.toInt h
    rw [toInt_ofNat_of_lt a ha, toInt_ofNat_of_lt b hb] at this
    omega
  · intro h; rw [h]

/-- For a word in the node range the row selector at `r` and the lane selector at `k` both fire exactly when the word is
    `128 r + k`. -/
theorem sel_iff (v : BitVec 32) (h0 : 0 ≤ v.toInt) (h1 : v.toInt < 100000) (r : Fin 784) (k : Fin 128) :
    (BitVec.ofNat 32 r.val = rowOf v ∧ BitVec.ofNat 32 k.val = laneOf v) ↔ v.toInt = ((r.val * 128 + k.val : Nat) : Int) := by
  have hn := toNat_of_toInt_nonneg v h0
  have hr := r.isLt
  have hk := k.isLt
  rw [rowOf_of_range v h0 h1, laneOf_of_range v h0 h1,
    ofNat_inj_of_lt r.val (v.toNat / 128) (by omega) (by omega),
    ofNat_inj_of_lt k.val (v.toNat % 128) (by omega) (by omega)]
  omega

end Cert.EdgeSum

end
-- ==== Proof.Law.lean ====
/-
  The two sums are one. With every contribution a real number the kernel's second carried value is zero; a row selector
  times a lane selector carrying a value is the value when the clipped centre is the node and zero otherwise; an edge whose
  centre is no node contributes zero; an edge whose centre is a node has its clipped words equal to its words (the
  neighbour by hypothesis in range). Summing over cores, tiles and positions is summing over edges.
-/
import proofs.«408869_j46883863003658_3_alg».proof.Proof.Spec
import proofs.«408869_j46883863003658_3_alg».proof.Proof.IntFacts

noncomputable section

namespace Cert.EdgeSum

open Idealize.ShloMosaic Idealize.ShloMosaic.ValueIdx

namespace Law

/-! ### Real numbers among the extended reals -/

/-- A product of two real numbers is a real number. -/
theorem mul_real {a b : EReal} (ha : a ≠ ⊤ ∧ a ≠ ⊥) (hb : b ≠ ⊤ ∧ b ≠ ⊥) : a * b ≠ ⊤ ∧ a * b ≠ ⊥ := by
  lift a to ℝ using ha
  lift b to ℝ using hb
  rw [← EReal.coe_mul]
  exact ⟨EReal.coe_ne_top _, EReal.coe_ne_bot _⟩

/-- A bit pattern whose exponent field is not all ones denotes a real number: a subnormal or a normal, never an infinity
    and never the junk value. -/
theorem ieee_real (e m : Nat) {w : Nat} (b : BitVec w) (h : (b.extractLsb' m e).toNat ≠ 2 ^ e - 1) :
    Ideal.ieee e m b ≠ ⊤ ∧ Ideal.ieee e m b ≠ ⊥ := by
  unfold Ideal.ieee
  simp only []
  rw [if_neg h]
  split <;> exact ⟨EReal.coe_ne_top _, EReal.coe_ne_bot _⟩

/-- The zero word is the number zero. -/
theorem zeroW_eq : zeroW = 0 := by
  show Ideal.ofBits .f32 0x00000000#32 = 0
  simp [Ideal.ofBits, Ideal.ieee]

/-- The word `0x3E000000` has exponent field 124, not the all-ones field 255, so it is a real number. -/
theorem eighth_real : eighth ≠ ⊤ ∧ eighth ≠ ⊥ :=
  ieee_real 8 23 (0x3E000000#32) (by decide)

section
variable (ei : IVec SEI 32) (eng : SENG.Idx → EReal) (aty : IVec SAT 32) (pes : SPES.Idx → EReal)

/-- Every contribution the kernel carries is a real number. -/
theorem scaledK_real (hE : ∀ e : Fin 6400000, eng (ix2 e (0 : Fin 1)) ≠ ⊤ ∧ eng (ix2 e (0 : Fin 1)) ≠ ⊥)
    (hP : ∀ p q : Fin 8, pes (ix2 p q) ≠ ⊤ ∧ pes (ix2 p q) ≠ ⊥) (e : Fin 6400000) :
    scaledK ei eng aty pes e ≠ ⊤ ∧ scaledK ei eng aty pes e ≠ ⊥ := by
  unfold scaledK Scalar.select
  split
  · exact mul_real (mul_real (hE e) (hP _ _)) eighth_real
  · rw [zeroW_eq]; exact ⟨EReal.zero_ne_top, EReal.zero_ne_bot⟩

/-- So the second carried value, a real number minus itself, is zero. -/
theorem restK_zero (hE : ∀ e : Fin 6400000, eng (ix2 e (0 : Fin 1)) ≠ ⊤ ∧ eng (ix2 e (0 : Fin 1)) ≠ ⊥)
    (hP : ∀ p q : Fin 8, pes (ix2 p q) ≠ ⊤ ∧ pes (ix2 p q) ≠ ⊥) (e : Fin 6400000) :
    restK ei eng aty pes e = 0 := by
  unfold restK
  exact EReal.sub_self (scaledK_real ei eng aty pes hE hP e).1 (scaledK_real ei eng aty pes hE hP e).2

end

/-! ### One selector product -/

/-- For a word in the node range, the row selector at `r` times the lane selector at `k` carrying `s` is `s` when the word is
    the node `128 r + k` and zero otherwise. -/
theorem sel_term (v : BitVec 32) (h0 : 0 ≤ v.toInt) (h1 : v.toInt < 100000) (r : Fin 784) (k : Fin 128) (j : Nat)
    (hj : r.val * 128 + k.val = j) (s : EReal) :
    onehot r (rowOf v) * pick k (laneOf v) s = if v.toInt = (j : Int) then s else 0 := by
  subst hj
  unfold onehot pick
  by_cases hr : BitVec.ofNat 32 r.val = rowOf v
  · by_cases hk : BitVec.ofNat 32 k.val = laneOf v
    · rw [if_pos hr, if_pos hk, if_pos ((sel_iff v h0 h1 r k).1 ⟨hr, hk⟩), one_mul]
    · rw [if_pos hr, if_neg hk, if_neg (fun h => hk ((sel_iff v h0 h1 r k).2 h).2), mul_zero]
  · rw [if_neg hr, if_neg (fun h => hr ((sel_iff v h0 h1 r k).2 h).1), zero_mul]

section
variable (ei : IVec SEI 32) (eng : SENG.Idx → EReal) (aty : IVec SAT 32) (pes : SPES.Idx → EReal)

/-- The first product of an edge at node `j`'s row and lane is the reference's contribution when the edge's centre word is
    `j`, and zero otherwise. A centre that is a node is its own clip, and so is the neighbour, so the two contributions are
    the same product; a centre that is no node gives zero on the kernel's side and is not `j` on the reference's. -/
theorem edge_term (hN : ∀ e : Fin 6400000, 0 ≤ (nei ei e).toInt ∧ (nei ei e).toInt < 100000)
    (j : Fin 100000) (E : Fin 6400000) :
    onehot ⟨j.val / 128, by omega⟩ (rowK ei E) * pick ⟨j.val % 128, by omega⟩ (laneK ei E) (scaledK ei eng aty pes E)
      = if (cen ei E).toInt = (j.val : Int) then updR ei eng aty pes E else 0 := by
  have hc := clipIdx_range (cen ei E)
  unfold rowK laneK
  rw [sel_term _ hc.1 hc.2 ⟨j.val / 128, by omega⟩ ⟨j.val % 128, by omega⟩ j.val (by show j.val / 128 * 128 + j.val % 128 = j.val; omega)]
  by_cases hn : isNode (cen ei E) = 1#1
  · have hr := (isNode_iff _).1 hn
    have hcc := clipIdx_of_range _ hr.1 hr.2
    have hnn := clipIdx_of_range _ (hN E).1 (hN E).2
    have hs : scaledK ei eng aty pes E = updR ei eng aty pes E := by
      unfold scaledK updR Scalar.select
      rw [if_pos (show isNode (cen ei E) = 1 from hn), hcc, hnn]
    rw [hs, hcc]
  · have hs : scaledK ei eng aty pes E = 0 := by
      unfold scaledK Scalar.select
      rw [if_neg (show ¬ isNode (cen ei E) = 1 from hn), zeroW_eq]
    have hj := j.isLt
    have hne : ¬ (cen ei E).toInt = (j.val : Int) := fun h => hn ((isNode_iff _).2 ⟨by omega, by omega⟩)
    rw [hs, if_neg hne, ite_self]

/-- The second product of an edge is zero, its carried value being zero. -/
theorem rest_term (hE : ∀ e : Fin 6400000, eng (ix2 e (0 : Fin 1)) ≠ ⊤ ∧ eng (ix2 e (0 : Fin 1)) ≠ ⊥)
    (hP : ∀ p q : Fin 8, pes (ix2 p q) ≠ ⊤ ∧ pes (ix2 p q) ≠ ⊥) (r : Fin 784) (k : Fin 128) (E : Fin 6400000) :
    onehot r (rowK ei E) * pick k (laneK ei E) (restK ei eng aty pes E) = 0 := by
  rw [restK_zero ei eng aty pes hE hP E]
  unfold pick
  rw [ite_self, mul_zero]

end

/-! ### Cores, tiles and positions number the edges -/

/-- The layout of the edges is a bijection: core `c`, tile `i`, position `e` hold edge `3200000 c + 1024 i + e`, and an edge
    `E` sits at core `E / 3200000`, tile `(E mod 3200000) / 1024`, position `E mod 1024`. -/
def edgeEquiv : Fin 2 × Fin 3125 × Fin 1024 ≃ Fin 6400000 where
  toFun p := edgeOf p.1 p.2.1 p.2.2
  invFun E := (⟨E.val / 3200000, by omega⟩, ⟨E.val % 3200000 / 1024, by omega⟩, ⟨E.val % 1024, by omega⟩)
  left_inv := by
    rintro ⟨c, i, e⟩
    refine Prod.ext (Fin.ext ?_) (Prod.ext (Fin.ext ?_) (Fin.ext ?_))
    · show (c.val * 3200000 + i.val * 1024 + e.val) / 3200000 = c.val
      omega
    · show (c.val * 3200000 + i.val * 1024 + e.val) % 3200000 / 1024 = i.val
      omega
    · show (c.val * 3200000 + i.val * 1024 + e.val) % 1024 = e.val
      omega
  right_inv := by
    intro E
    refine Fin.ext ?_
    show E.val / 3200000 * 3200000 + E.val % 3200000 / 1024 * 1024 + E.val % 1024 = E.val
    omega

/-- So a sum over cores, tiles and positions of a function of the edge held there is the sum over all edges. -/
theorem sum_edges {M : Type} [AddCommMonoid M] (f : Fin 6400000 → M) :
    ∑ c : Fin 2, ∑ i : Fin 3125, ∑ e : Fin 1024, f (edgeOf c i e) = ∑ E : Fin 6400000, f E := by
  rw [← Fintype.sum_equiv edgeEquiv (fun p => f (edgeOf p.1 p.2.1 p.2.2)) f (fun _ => rfl)]
  rw [Fintype.sum_prod_type]
  refine Finset.sum_congr rfl fun c _ => ?_
  rw [Fintype.sum_prod_type]

end Law

/-! ### The law -/

theorem kerOut_eq_refOut (ei : IVec SEI 32) (eng : SENG.Idx → EReal) (aty : IVec SAT 32) (pes : SPES.Idx → EReal)
    (hE : ∀ e : Fin 6400000, eng (ix2 e (0 : Fin 1)) ≠ ⊤ ∧ eng (ix2 e (0 : Fin 1)) ≠ ⊥)
    (hP : ∀ p q : Fin 8, pes (ix2 p q) ≠ ⊤ ∧ pes (ix2 p q) ≠ ⊥)
    (hN : ∀ e : Fin 6400000, 0 ≤ (nei ei e).toInt ∧ (nei ei e).toInt < 100000)
    (j : Fin 100000) :
    kerOut ei eng aty pes j = refOut ei eng aty pes j := by
  unfold kerOut refOut
  refine congrArg (fun x => zeroW + x) ?_
  rw [Finset.sum_filter, ← Law.sum_edges]
  refine Finset.sum_congr rfl fun c _ => Finset.sum_congr rfl fun i _ => ?_
  unfold tile
  rw [Finset.sum_congr rfl fun e _ => Law.edge_term ei eng aty pes hN j (edgeOf c i e),
    Finset.sum_congr rfl fun e _ => Law.rest_term ei eng aty pes hE hP _ _ (edgeOf c i e),
    Finset.sum_const_zero, add_zero]

end Cert.EdgeSum

end
-- ==== Proof.PreFacts.lean ====
/-
  What the precondition says, entry by entry: every edge energy and every table entry is a real number (its absolute value
  is below +∞), and every neighbour word is a node number.
-/
import proofs.«408869_j46883863003658_3_alg».proof.Defs
import proofs.«408869_j46883863003658_3_alg».proof.Proof.Gen.Pre_finite_inputs
import Idealize.ShloMosaic.Lib.ValueIdx
import Idealize.ShloMosaic.Lib.ReduceAll
import Idealize.ShloMosaic.Lib.StableHlo.Predicate
import Idealize.ShloMosaic.Lib.Pipeline.Value
import Idealize.ShloMosaic.PureOps.Ideal.Laws

noncomputable section

namespace Cert.PreFacts

open Idealize.ShloMosaic Idealize.ShloMosaic.ValueIdx Cert.Pre_finite_inputs

/-- The scalar shape has one index. -/
instance : Subsingleton S_.Idx := ⟨fun a b => funext fun d => d.elim0⟩

/-- The binary32 word `0x7F800000` denotes +∞. -/
theorem inf_word : FloatOps.ofBits (F := Ideal) .f32 0x7F800000#32 = (⊤ : EReal) := by
  simp [Ideal.ofBits, Ideal.ieee]

/-- An extended real whose absolute value `max x (-x)` is below +∞ is neither infinity: |⊤| and |⊥| are both ⊤. -/
theorem real_of_abs_lt (x : EReal)
    (h : FloatOps.cmpf (F := Ideal) (φ := .f32) .olt (FloatOps.hostAbsf (F := Ideal) (φ := .f32) x)
      (FloatOps.ofBits (F := Ideal) .f32 0x7F800000#32) = 1#1) : x ≠ (⊤ : EReal) ∧ x ≠ (⊥ : EReal) := by
  rw [inf_word] at h
  change Ideal.cmp .olt (max x (-x)) ⊤ = 1#1 at h
  unfold Ideal.cmp at h
  rw [StableHlo.Predicate.ofBool_eq_one_iff] at h
  simp only [decide_eq_true_eq] at h
  refine ⟨?_, ?_⟩ <;> rintro rfl <;> simp at h

theorem of_pre [Cert.Pre_finite_inputs.Facts] (a0 : IVec S2x6400000 32) (a1 : FVec Ideal S6400000x1 .f32) (a2 : IVec S100000x1 32)
    (a3 : FVec Ideal S8x8 .f32)
    (h : Cert.Pre_finite_inputs.fn (F := Ideal) a0 a1 a2 a3 = fun _ => 1#1) :
    (∀ e : Fin 6400000, a1 (ix2 e (0 : Fin 1)) ≠ (⊤ : EReal) ∧ a1 (ix2 e (0 : Fin 1)) ≠ (⊥ : EReal))
    ∧ (∀ p q : Fin 8, a3 (ix2 p q) ≠ (⊤ : EReal) ∧ a3 (ix2 p q) ≠ (⊥ : EReal))
    ∧ (∀ e : Fin 6400000, 0 ≤ (a0 (ix2 (1 : Fin 2) e)).toInt ∧ (a0 (ix2 (1 : Fin 2) e)).toInt < 100000) := by
  -- the conjunction of the three "all" reductions is 1 at the one scalar index: each reduction is 1
  have h0 := congrFun h ix0
  dsimp only [Cert.Pre_finite_inputs.fn, Cert.Pre_finite_inputs.fn_part1] at h0
  change IntOp.andi (IntOp.andi _ _) _ = 1#1 at h0
  rw [IntOp.andi_eq_one, IntOp.andi_eq_one] at h0
  obtain ⟨⟨h1, h2⟩, h3⟩ := h0
  -- an "and" over every index that came out 1 met a 1 at every index
  have H1 := Host.reduce_andi_all _ _ _ _ _ h1
  have H2 := Host.reduce_andi_all _ _ _ _ _ h2
  have H3 := Host.reduce_andi_all _ _ _ _ _ h3
  refine ⟨fun e => real_of_abs_lt _ (H1 (ix2 e 0)), fun p q => real_of_abs_lt _ (H2 (ix2 p q)), fun e => ?_⟩
  -- row 1 of the [2, 6400000] array, flattened, read at e is the array at (1, e)
  have hrd : shapeCast S6400000 (extractStridedSlice S1x6400000 ![1, 0] a0 Facts.slices_S2x6400000_S1x6400000_1_0)
      Facts.shapeCasts_S1x6400000_S6400000 (ix1 e) = a0 (ix2 (1 : Fin 2) e) := by
    refine (shapeCast_apply _ _ (ix1 e) (ix2 (0 : Fin 1) e) ?_).trans ?_
    · rw [Shape.rowMajor_val_two, Shape.rowMajor_val_one]
      show 0 * 6400000 + e.val = e.val
      omega
    · refine extractStridedSlice_apply _ _ _ _ (ix2 (1 : Fin 2) e) ?_
      intro a
      match a with
      | ⟨0, _⟩ => rfl
      | ⟨1, _⟩ => show e.val = 0 + e.val; omega
  -- the two signed comparisons of that word, against 0 and against 100000
  have h3e : IntOp.andi (IntOp.cmpi .sge (a0 (ix2 (1 : Fin 2) e)) 0#32) (IntOp.cmpi .slt (a0 (ix2 (1 : Fin 2) e)) 100000#32) = 1#1 := by
    rw [← hrd]; exact H3 (ix1 e)
  rw [IntOp.andi_eq_one, IntOp.cmpi_sge, IntOp.cmpi_slt] at h3e
  have e0 : (0#32 : BitVec 32).toInt = 0 := by decide
  have e1 : (100000#32 : BitVec 32).toInt = 100000 := by decide
  rw [e0, e1] at h3e
  exact h3e

end Cert.PreFacts

end
-- ==== Proof.lean ====
/-
  The certificate of the scaled edge-energy sum: a kernel that adds each edge's contribution `edge_eng · scale · 1/8` into its
  centre node through one-hot row and lane selectors multiplied on the matrix unit, 1024 edges a tile, against the reference's
  accumulating scatter. Under the precondition — finite energies and table, and every neighbour word a node number — the two
  results agree on the extended reals: where the centre is a node the kernel's clipped index words are the words themselves,
  where it is not the reference drops the edge and the kernel adds a zero; the kernel's second carried value (the
  contribution minus itself) is zero because the contribution is real.

  The three frames are the generated ones; the idealization rewrote nothing, so `preserves` is trivial; `algebraic` joins the
  kernel's run (the frame run read through the host prefix, the accumulation over the grid and the host tail) with the
  reference's generated run read at a node, by the law `Cert.EdgeSum.kerOut_eq_refOut`.
-/
import proofs.«408869_j46883863003658_3_alg».proof.Defs
import proofs.«408869_j46883863003658_3_alg».proof.Proof.Gen.Kernel
import proofs.«408869_j46883863003658_3_alg».proof.Proof.Gen.Kernel.Frame
import proofs.«408869_j46883863003658_3_alg».proof.Proof.Gen.KernelIdeal
import proofs.«408869_j46883863003658_3_alg».proof.Proof.Gen.KernelIdeal.Frame
import proofs.«408869_j46883863003658_3_alg».proof.Proof.Gen.ReferenceIdeal
import proofs.«408869_j46883863003658_3_alg».proof.Proof.Gen.ReferenceIdeal.Run
import proofs.«408869_j46883863003658_3_alg».proof.Proof.Gen.ReferenceIdeal.Read
import proofs.«408869_j46883863003658_3_alg».proof.Proof.Gen.Pre_finite_inputs
import proofs.«408869_j46883863003658_3_alg».proof.Proof.KernelRun
import proofs.«408869_j46883863003658_3_alg».proof.Proof.RefValue
import proofs.«408869_j46883863003658_3_alg».proof.Proof.Law
import proofs.«408869_j46883863003658_3_alg».proof.Proof.PreFacts
import Idealize.ShloMosaic.Adequacy
import Idealize.ShloMosaic.Init

noncomputable section

namespace Cert.Proof

open Idealize.ShloMosaic Idealize.SL.Sem Idealize.ShloMosaic.ValueIdx

theorem frame_k [Cert.Kernel.Facts] [Cert.Pre_finite_inputs.Facts] : Cert.frame_Kernel := fun m ρ _ => Cert.Kernel.Gen.frame m ρ

theorem frame_ki [Cert.KernelIdeal.Facts] [Cert.Pre_finite_inputs.Facts] : Cert.frame_KernelIdeal := fun m ρ _ => Cert.KernelIdeal.Gen.frame m ρ

theorem frame_ri [Cert.ReferenceIdeal.Facts] [Cert.Pre_finite_inputs.Facts] : Cert.frame_ReferenceIdeal := fun m ρ _ =>
  (θ_run Cert.ReferenceIdeal.defs _ _).mono (fun _ h c => (h c).2) (Cert.ReferenceIdeal.Value.run (F := Ideal) m ρ)

/-- Both programs end; the kernel's result column and the reference's are the same function of arguments that agree. -/
theorem algebraic [Cert.KernelIdeal.Facts] [Cert.ReferenceIdeal.Facts] [Cert.Pre_finite_inputs.Facts] :
    Cert.algebraic_KernelIdeal_ReferenceIdeal := by
  intro m ρ m' ρ' hpre hagree
  refine ⟨fun c => Cert.KernelIdeal.RunValue.outCol m c, Cert.KernelIdeal.RunValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v39_eq]
  funext y
  rw [Cert.ReferenceIdeal.RefValue.result_apply, (hagree c).1, (hagree c).2.1, (hagree c).2.2.1, (hagree c).2.2.2]
  obtain ⟨hE, hP, hN⟩ := Cert.PreFacts.of_pre _ _ _ _ (hpre c)
  exact (Cert.EdgeSum.kerOut_eq_refOut _ _ _ _ hE hP hN (y 0)).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
